-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x1024 : Shape := ⟨3, ![4096, 3, 1024]⟩
abbrev S4096 : Shape := ⟨1, ![4096]⟩
abbrev S_ : Shape := ⟨0, ![]⟩

class Facts : Prop where
  bcast_S_S4096x3x1024 : S_.BroadcastsInDim S4096x3x1024 (![] : Fin 0 → Fin S4096x3x1024.rank)
  reducesTo_S4096x3x1024_S_d0_1_2 : S4096x3x1024.ReducesTo [0, 1, 2] S_
  h_S_ : 0 < S_.numel

variable [Facts]

def fn {F : FTy → Type} [FloatOps F] (main_arg0 : FVec F S4096x3x1024 .f32) (main_arg1 : IVec S4096 32) (main_arg2 : IVec S4096 32) : IVec S_ 1 :=
  let main_v0 : FVec F S4096x3x1024 .f32 := Host.absf main_arg0
  let main_cst : FVec F S_ .f32 := constant S_ .f32 0x7F800000#32
  let main_v1 : FVec F S4096x3x1024 .f32 := broadcastInDim S4096x3x1024 ![] bcast_S_S4096x3x1024 main_cst
  let main_v2 : IVec S4096x3x1024 1 := cmpf .olt main_v0 main_v1
  let main_c : IVec S_ 1 := constantI S_ 1 1#1
  let main_v3 : IVec S_ 1 := (fun x v => Host.reduce IntOp.andi x v reducesTo_S4096x3x1024_S_d0_1_2 h_S_) main_v2 main_c
  main_v3
-- ==== Kernel.lean ====
abbrev S4096x3x1024 : Shape := ⟨3, ![4096, 3, 1024]⟩
abbrev S4096 : Shape := ⟨1, ![4096]⟩
abbrev S4096x1x1024 : Shape := ⟨3, ![4096, 1, 1024]⟩
abbrev S4096x1024 : Shape := ⟨2, ![4096, 1024]⟩
abbrev S_ : Shape := ⟨0, ![]⟩
abbrev S4096x1 : Shape := ⟨2, ![4096, 1]⟩
abbrev S1x4096 : Shape := ⟨2, ![1, 4096]⟩
abbrev S8x128 : Shape := ⟨2, ![8, 128]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩
abbrev S8x1 : Shape := ⟨2, ![8, 1]⟩
abbrev S8 : Shape := ⟨1, ![8]⟩

abbrev nBuf : Space → Nat
  | .hbm => 96
  | .vmem => 13
  | .smem => 0
  | _ => 0

abbrev bufTy : (tb : Table) → Fin (tcTables nBuf tb) → BufTy
  | .hbm, ⟨0, _⟩ => ⟨S4096x3x1024, .f32⟩
  | .hbm, ⟨1, _⟩ => ⟨S4096, .i32⟩
  | .hbm, ⟨2, _⟩ => ⟨S4096, .i32⟩
  | .hbm, ⟨3, _⟩ => ⟨S4096x1x1024, .f32⟩
  | .hbm, ⟨4, _⟩ => ⟨S4096x1024, .f32⟩
  | .hbm, ⟨5, _⟩ => ⟨S4096x1x1024, .f32⟩
  | .hbm, ⟨6, _⟩ => ⟨S4096x1024, .f32⟩
  | .hbm, ⟨7, _⟩ => ⟨S4096x1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .bf16⟩
  | .hbm, ⟨52, _⟩ => ⟨S4096x1024, .bf16⟩
  | .hbm, ⟨53, _⟩ => ⟨S4096x1, .i32⟩
  | .hbm, ⟨54, _⟩ => ⟨S1x4096, .i32⟩
  | .hbm, ⟨55, _⟩ => ⟨S1x4096, .i32⟩
  | .hbm, ⟨56, _⟩ => ⟨S8x128, .f32⟩
  | .hbm, ⟨57, _⟩ => ⟨S8x1, .f32⟩
  | .hbm, ⟨58, _⟩ => ⟨S8, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1, .i32⟩
  | .local _ .vmem, ⟨7, _⟩ => ⟨S512x1, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S1x512, .i32⟩
  | .local _ .vmem, ⟨12, _⟩ => ⟨S8x128, .f32⟩
  | _, _ => ⟨S4096x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_10 : Ref sig .tc := ⟨.hbm, 79, rfl⟩
abbrev main_v65 : Ref sig .tc := ⟨.hbm, 80, rfl⟩
abbrev main_v66 : Ref sig .tc := ⟨.hbm, 81, rfl⟩
abbrev main_cst_11 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_12 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_13 : Ref sig .tc := ⟨.hbm, 92, rfl⟩
abbrev main_v75 : Ref sig .tc := ⟨.hbm, 93, rfl⟩
abbrev main_call0_cst : Ref sig .tc := ⟨.hbm, 94, rfl⟩
abbrev main_v76 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  slices_S4096x3x1024_S4096x1x1024_0_0_0 : S4096x3x1024.Slices ![0, 0, 0] S4096x1x1024
  shapeCasts_S4096x1x1024_S4096x1024 : S4096x1x1024.ShapeCasts S4096x1024
  slices_S4096x3x1024_S4096x1x1024_0_1_0 : S4096x3x1024.Slices ![0, 1, 0] S4096x1x1024
  slices_S4096x3x1024_S4096x1x1024_0_2_0 : S4096x3x1024.Slices ![0, 2, 0] S4096x1x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096 : S_.BroadcastsInDim S4096 (![] : Fin 0 → Fin S4096.rank)
  bitsLt_bf16_f32 : FTy.bits .bf16 < FTy.bits .f32
  shapeCasts_S4096_S4096x1 : S4096.ShapeCasts S4096x1
  shapeCasts_S4096_S1x4096 : S4096.ShapeCasts S1x4096
  inb_S8x128_S8x128_0_0 : ∀ a, (![0, 0] : Fin 2 → Nat) a + S8x128.size a ≤ S8x128.size a
  h_S8x128 : 0 < S8x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  concatenates_S1x1_S1x1_S1x1_S1x1_S1x1_S1x1_S1x1_S1x1_S8x1_d0 : Shape.Concatenates [S1x1, S1x1, S1x1, S1x1, S1x1, S1x1, S1x1, S1x1] S8x1 0
  shapeCasts_S8x128_S8x128 : S8x128.ShapeCasts S8x128
  shapeCasts_S8x1_S8x1 : S8x1.ShapeCasts S8x1
  broadcasts_S8x1_S8x128 : S8x1.Broadcasts S8x128
  slices_S8x128_S8x1_0_0 : S8x128.Slices ![0, 0] S8x1
  shapeCasts_S8x1_S8 : S8x1.ShapeCasts S8
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  slices_S8_S1_6 : S8.Slices ![6] S1
  slices_S8_S1_7 : S8.Slices ![7] S1
  reducesTo_S4096_S_d0 : S4096.ReducesTo [0] S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .i32 = 32 ∨ (Rect.block (s := S4096x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .i32 = 32 ∨ (Rect.block (s := S1x4096) S1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v38) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43) S8x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x3x1024 : Shape := ⟨3, ![4096, 3, 1024]⟩
abbrev S4096 : Shape := ⟨1, ![4096]⟩
abbrev S4096x1x1024 : Shape := ⟨3, ![4096, 1, 1024]⟩
abbrev S4096x1024 : Shape := ⟨2, ![4096, 1024]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 143
  | .vmem => 0
  | .smem => 0
  | _ => 0

abbrev hbmTy0_0 (i : Nat) : BufTy := match i % 128 with
  | 0 => ⟨S4096x3x1024, .f32⟩
  | 1 => ⟨S4096, .i32⟩
  | 2 => ⟨S4096, .i32⟩
  | 3 => ⟨S4096x1x1024, .f32⟩
  | 4 => ⟨S4096x1024, .f32⟩
  | 5 => ⟨S4096x1x1024, .f32⟩
  | 6 => ⟨S4096x1024, .f32⟩
  | 7 => ⟨S4096x1x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S_, .f32⟩
  | 43 => ⟨S4096, .f32⟩
  | 44 => ⟨S4096, .f32⟩
  | 45 => ⟨S4096x1024, .f32⟩
  | 46 => ⟨S_, .f32⟩
  | 47 => ⟨S4096, .f32⟩
  | 48 => ⟨S_, .f32⟩
  | 49 => ⟨S4096, .f32⟩
  | 50 => ⟨S4096, .f32⟩
  | 51 => ⟨S1024x4096, .f32⟩
  | 52 => ⟨S4096x4096, .f32⟩
  | 53 => ⟨S_, .f32⟩
  | 54 => ⟨S4096x4096, .f32⟩
  | 55 => ⟨S4096x4096, .f32⟩
  | 56 => ⟨S1024x4096, .f32⟩
  | 57 => ⟨S4096x4096, .f32⟩
  | 58 => ⟨S_, .f32⟩
  | 59 => ⟨S4096x4096, .f32⟩
  | 60 => ⟨S4096x4096, .f32⟩
  | 61 => ⟨S_, .i1⟩
  | 62 => ⟨S4096x4096, .i1⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S4096x4096, .i1⟩
  | 69 => ⟨S_, .i1⟩
  | 70 => ⟨S4096x4096, .i1⟩
  | 71 => ⟨S4096x4096, .i1⟩
  | 72 => ⟨S4096x1, .i32⟩
  | 73 => ⟨S1x4096, .i32⟩
  | 74 => ⟨S4096x4096, .i32⟩
  | 75 => ⟨S4096x4096, .i32⟩
  | 76 => ⟨S4096x4096, .i1⟩
  | 77 => ⟨S4096x1, .i32⟩
  | 78 => ⟨S1x4096, .i32⟩
  | 79 => ⟨S4096x4096, .i32⟩
  | 80 => ⟨S4096x4096, .i32⟩
  | 81 => ⟨S4096x4096, .i1⟩
  | 82 => ⟨S4096x4096, .i1⟩
  | 83 => ⟨S4096x4096, .i1⟩
  | 84 => ⟨S4096x4096, .i1⟩
  | 85 => ⟨S4096x4096, .i1⟩
  | 86 => ⟨S4096x4096, .i1⟩
  | 87 => ⟨S4096x4096, .i1⟩
  | 88 => ⟨S_, .f32⟩
  | 89 => ⟨S_, .f32⟩
  | 90 => ⟨S_, .f32⟩
  | 91 => ⟨S4096x4096, .f32⟩
  | 92 => ⟨S4096x4096, .f32⟩
  | 93 => ⟨S_, .f32⟩
  | 94 => ⟨S_, .f32⟩
  | 95 => ⟨S_, .f32⟩
  | 96 => ⟨S_, .f32⟩
  | 97 => ⟨S4096x4096, .f32⟩
  | 98 => ⟨S4096x4096, .f32⟩
  | 99 => ⟨S_, .f32⟩
  | 100 => ⟨S_, .f32⟩
  | 101 => ⟨S_, .f32⟩
  | 102 => ⟨S4096x4096, .i32⟩
  | 103 => ⟨S_, .i32⟩
  | 104 => ⟨S_, .i32⟩
  | 105 => ⟨S_, .i32⟩
  | 106 => ⟨S_, .i32⟩
  | 107 => ⟨S4096x4096, .i32⟩
  | 108 => ⟨S_, .i32⟩
  | 109 => ⟨S_, .i32⟩
  | 110 => ⟨S_, .i32⟩
  | 111 => ⟨S_, .f32⟩
  | 112 => ⟨S_, .f32⟩
  | 113 => ⟨S_, .f32⟩
  | 114 => ⟨S4096x4096, .f32⟩
  | 115 => ⟨S4096x4096, .f32⟩
  | 116 => ⟨S_, .f32⟩
  | 117 => ⟨S_, .f32⟩
  | 118 => ⟨S_, .f32⟩
  | 119 => ⟨S_, .f32⟩
  | 120 => ⟨S4096x4096, .f32⟩
  | 121 => ⟨S4096x4096, .f32⟩
  | 122 => ⟨S_, .f32⟩
  | 123 => ⟨S_, .f32⟩
  | 124 => ⟨S_, .f32⟩
  | 125 => ⟨S4096x4096, .i32⟩
  | 126 => ⟨S_, .i32⟩
  | 127 => ⟨S_, .i32⟩
  | _ => ⟨S4096x3x1024, .f32⟩

abbrev hbmTy0_1 (i : Nat) : BufTy := match i % 128 with
  | 0 => ⟨S_, .i32⟩
  | 1 => ⟨S_, .i32⟩
  | 2 => ⟨S4096x4096, .i32⟩
  | 3 => ⟨S_, .i32⟩
  | 4 => ⟨S_, .i32⟩
  | 5 => ⟨S_, .i32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | _ => ⟨S4096x3x1024, .f32⟩

abbrev hbmTy (i : Nat) : BufTy := match i / 128 with
  | 0 => hbmTy0_0 i
  | 1 => hbmTy0_1 i
  | _ => ⟨S4096x3x1024, .f32⟩

abbrev bufTy : (tb : Table) → Fin (tcTables nBuf tb) → BufTy
  | .hbm, ⟨i, _⟩ => hbmTy i
  | _, _ => ⟨S4096x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_cst_12 : Ref sig .tc := ⟨.hbm, 90, rfl⟩
abbrev main_call1_v0 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_call2_v0 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_cst_19 : Ref sig .tc := ⟨.hbm, 111, rfl⟩
abbrev main_v77 : Ref sig .tc := ⟨.hbm, 112, rfl⟩
abbrev main_cst_20 : Ref sig .tc := ⟨.hbm, 113, rfl⟩
abbrev main_call3_v0 : Ref sig .tc := ⟨.hbm, 114, rfl⟩
abbrev main_v78 : Ref sig .tc := ⟨.hbm, 115, rfl⟩
abbrev main_cst_21 : Ref sig .tc := ⟨.hbm, 116, rfl⟩
abbrev main_v79 : Ref sig .tc := ⟨.hbm, 117, rfl⟩
abbrev main_v80 : Ref sig .tc := ⟨.hbm, 118, rfl⟩
abbrev main_cst_22 : Ref sig .tc := ⟨.hbm, 119, rfl⟩
abbrev main_call4_v0 : Ref sig .tc := ⟨.hbm, 120, rfl⟩
abbrev main_v81 : Ref sig .tc := ⟨.hbm, 121, rfl⟩
abbrev main_cst_23 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_24 : Ref sig .tc := ⟨.hbm, 126, rfl⟩
abbrev main_v85 : Ref sig .tc := ⟨.hbm, 127, rfl⟩
abbrev main_c_25 : Ref sig .tc := ⟨.hbm, 128, rfl⟩
abbrev main_v86 : Ref sig .tc := ⟨.hbm, 129, rfl⟩
abbrev main_v87 : Ref sig .tc := ⟨.hbm, 130, rfl⟩
abbrev main_c_26 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_27 : Ref sig .tc := ⟨.hbm, 139, rfl⟩
abbrev main_v95 : Ref sig .tc := ⟨.hbm, 140, rfl⟩
abbrev main_call5_cst : Ref sig .tc := ⟨.hbm, 141, rfl⟩
abbrev main_v96 : Ref sig .tc := ⟨.hbm, 142, rfl⟩

abbrev nD : Nat := 1
abbrev τ : Topo := Topo.v7x

variable {F : FTy → Type} [FloatOps F]

class Facts₀ : Prop where
  slices_S4096x3x1024_S4096x1x1024_0_0_0 : S4096x3x1024.Slices ![0, 0, 0] S4096x1x1024
  shapeCasts_S4096x1x1024_S4096x1024 : S4096x1x1024.ShapeCasts S4096x1024
  slices_S4096x3x1024_S4096x1x1024_0_1_0 : S4096x3x1024.Slices ![0, 1, 0] S4096x1x1024
  slices_S4096x3x1024_S4096x1x1024_0_2_0 : S4096x3x1024.Slices ![0, 2, 0] S4096x1x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096 : S_.BroadcastsInDim S4096 (![] : Fin 0 → Fin S4096.rank)
  transposes_S4096x1024_S1024x4096_1_0 : S4096x1024.Transposes [1, 0] S1024x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096_S_d0 : S4096.ReducesTo [0] S_
  reducesTo_S4096x4096_S_d0_1 : S4096x4096.ReducesTo [0, 1] S_
  natLt_1_32 : 1 < 32
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Runs.lean ====
/-
  What the kernel region's proof is stated over, for any contents `V` of the core's buffers at the region's entry:
  each window's block of its array at a grid point; that an input window's staging buffer holds that block when the
  body runs; the body's one branch condition (the accumulator is reset exactly at the first grid point) in closed form;
  and the staging buffers the body is called with.
-/
import proofs.«126969_j66666482368607_1_alg».proof.Proof.Gen.Kernel.Launch
import proofs.«126969_j66666482368607_1_alg».proof.Proof.Gen.Kernel.Points
import proofs.«126969_j66666482368607_1_alg».proof.Proof.Gen.Kernel.Skeleton
import Idealize.ShloMosaic.Lib.Pipeline.FrameSuffix
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the point fetches it or
    finds it in place from the point before (the block index has not moved since it was fetched). -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, whether the point fetches it or
    finds it in place from the point before (the block index has not moved since it was fetched). -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point, whether the point fetches it or
    finds it in place from the point before (the block index has not moved since it was fetched). -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every point, whether the point fetches it or
    finds it in place from the point before (the block index has not moved since it was fetched). -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block of the array at every point, whether the point fetches it or
    finds it in place from the point before (the block index has not moved since it was fetched). -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block of the array at every point, whether the point fetches it or
    finds it in place from the point before (the block index has not moved since it was fetched). -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one `scf.if`: both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the 64 points of the grid. -/
theorem hcond0_0 : ∀ t : Fin cfg0.N, cond0_0 (grid0.coords t) ↔ t.val = 0 :=
  (by decide +kernel : ∀ t : Fin grid0.N, cond0_0 (grid0.coords t) ↔ t.val = 0)

/-! ## The staging buffers the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)

end Cert.Kernel.Hand

end
-- ==== Proof.K.RunA.lean ====
/-
  The kernel body run at the first grid point (the branch that resets the accumulator is taken): on whole staging
  buffers, the six inputs at their contents and the output at anything, the body runs to its end holding the inputs as
  they were and the output's buffer with the body's stores written — the pieces the run finds.
-/
import proofs.«126969_j66666482368607_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output's staging buffer when the reset branch is taken (the zero block,
    then the step's value over it), with the run that leaves them. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) :
    { L6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)) -∗ K ⟨⟩))
          ⊢ wp frame (wpE (defs₀ (F := F)) Variants.none c none) E (cc0__pair_mine_kernel i arg2 harg2 arg3 harg3 arg4 harg4 arg5 harg5 arg6 harg6 arg7 harg7 arg8 harg8) K } := by
  refine ⟨?_, fun E K => ?run⟩
  case run =>
    simp only [cc0__pair_mine_kernel_eq_skeleton]; unfold cc0__pair_mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Hand

end
-- ==== Proof.K.RunB.lean ====
/-
  The kernel body run at a later grid point (the reset branch is not taken): the output's staging buffer holds what the
  point before left, `xo`; the body reads it, adds the point's step and stores the sum.
-/
import proofs.«126969_j66666482368607_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's one store leaves in the output's staging buffer when the reset branch is not taken, with the
    run that leaves them. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) :
    { L6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)) -∗ K ⟨⟩))
          ⊢ wp frame (wpE (defs₀ (F := F)) Variants.none c none) E (cc0__pair_mine_kernel i arg2 harg2 arg3 harg3 arg4 harg4 arg5 harg5 arg6 harg6 arg7 harg7 arg8 harg8) K } := by
  refine ⟨?_, fun E K => ?run⟩
  case run =>
    simp only [cc0__pair_mine_kernel_eq_skeleton]; unfold cc0__pair_mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Hand

end
-- ==== Proof.K.Acc.lean ====
/-
  The accumulator. At a grid point the body adds, to each of the eight rows of its 8×128 output block, one number computed
  from the point's six input blocks: `accStep` is that step as one function of the blocks and of what the block held
  before. The block is reset to zero at the first point and carried from point to point (it is written back only after
  the last), so after point `n` it holds `accAt … n`: the steps of points 0 … n folded over the zero block.
-/
import proofs.«126969_j66666482368607_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One point's step: the value the body's last store writes, from the coordinates `i`, the anchors' row block `x0`,
    the anchors' column block `x1`, the negatives' column block `x2`, the labels' row block `x3`, the labels' column
    block `x4`, the negative labels' column block `x5`, and the block's contents `prev` before the step. -/
def accStep (i : grid0.Coords) (x0 x1 x2 : Vec F S512x1024 .bf16) (x3 : Vec F S512x1 .i32) (x4 x5 : Vec F S1x512 .i32)
    (prev : Vec F S8x128 .f32) : Vec F S8x128 .f32 :=
  k0_pay1 (k0_pay5 x0 x2) (k0_pay16 (k0_pay6 i) (k0_pay7 x3) (k0_pay8 x5))
    (k0_pay17 (k0_pay4 x0 x1) (k0_pay6 i) (k0_pay9 x3) (k0_pay10 x4))
    (k0_pay18 (F := F) (k0_pay6 i) (k0_pay9 x3) (k0_pay10 x4))
    (k0_pay19 (k0_pay4 x0 x1) (k0_pay6 i) (k0_pay9 x3) (k0_pay10 x4))
    (k0_pay20 (F := F) (k0_pay6 i) (k0_pay9 x3) (k0_pay10 x4))
    (k0_pay21 (k0_pay5 x0 x2) (k0_pay6 i) (k0_pay7 x3) (k0_pay8 x5))
    (k0_pay22 (F := F) (k0_pay6 i) (k0_pay7 x3) (k0_pay8 x5)) prev

/-- The step at grid point `t` on the blocks the region's entry contents `V` give the point. -/
def stepAt (c : Dev nD) (t : Fin cfg0.N) (prev : Vec F S8x128 .f32) : Vec F S8x128 .f32 :=
  accStep (grid0.coords t) (iblk V c 0 t) (iblk V c 1 t) (iblk V c 2 t) (iblk V c 3 t) (iblk V c 4 t) (iblk V c 5 t) prev

/-- What the output block holds after the body at position `n`: the zero block stepped at point 0, then each later
    point's step over what the point before left. -/
def accAt (c : Dev nD) : (n : ℕ) → n < cfg0.N → Vec F S8x128 .f32
  | 0, hn => stepAt V c ⟨0, hn⟩ (k0_pay2 (F := F))
  | n + 1, hn => stepAt V c ⟨n + 1, hn⟩ (accAt c n (Nat.lt_of_succ_lt hn))

theorem accAt_first (c : Dev nD) (t : Fin cfg0.N) (h0 : t.val = 0) :
    accAt V c t.val t.isLt = stepAt V c t (k0_pay2 (F := F)) := by
  obtain ⟨n, hn⟩ := t
  cases n with
  | zero => rfl
  | succ n => exact absurd h0 (Nat.succ_ne_zero n)

theorem accAt_later (c : Dev nD) (t : Fin cfg0.N) (h0 : ¬ t.val = 0) :
    accAt V c t.val t.isLt = stepAt V c t (accAt V c (t.val - 1) (Nat.lt_of_le_of_lt (Nat.sub_le _ _) t.isLt)) := by
  obtain ⟨n, hn⟩ := t
  cases n with
  | zero => exact absurd rfl h0
  | succ n => rfl

end Cert.Kernel.Hand

end
-- ==== Proof.K.Pieces.lean ====
/-
  What the body leaves in the output's staging buffer, as values. The run's pieces cover the whole 8×128 block, so reading
  them back gives one vector whatever the buffer held: at the first point the step over the zero block (the reset's store,
  read back by the body's load, then overwritten by the sum), at a later point the step over what the buffer held.
-/
import proofs.«126969_j66666482368607_1_alg».proof.Proof.K.RunB
import proofs.«126969_j66666482368607_1_alg».proof.Proof.K.Acc
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One staging buffer of the output window, through which the pieces are read back (the choice does not matter). -/
abbrev VO0_6 : View sig .tc .vmem S8x128 .f32 := (Memref.whole cc0_stg6_0 : Memref sig .tc .vmem S8x128 .f32).view

/-- At the first point the pieces (two stores of the whole block) cover the block. -/
theorem cover0_A_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) (y : S8x128.Idx) :
    ∃ pc ∈ (kernelRun0_A c i arg2 harg2 arg3 harg3 arg4 harg4 arg5 harg5 arg6 harg6 arg7 harg7 arg8 harg8 hc0 x0 x1 x2 x3 x4 x5).1, y ∈ pc.1.set :=
  View.cover_of_tiledL (kernelRun0_A c i arg2 harg2 arg3 harg3 arg4 harg4 arg5 harg5 arg6 harg6 arg7 harg7 arg8 harg8 hc0 x0 x1 x2 x3 x4 x5).1 S8x128.size (by sl_kernel_rfl) y

/-- What the first point leaves: its pieces read back over junk. -/
def out0_A_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) : Vec F S8x128 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4 x5).1)

/-- At a later point the one store of the whole block covers it. -/
theorem cover0_B_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) (y : S8x128.Idx) :
    ∃ pc ∈ (kernelRun0_B c i arg2 harg2 arg3 harg3 arg4 harg4 arg5 harg5 arg6 harg6 arg7 harg7 arg8 harg8 hc0 x0 x1 x2 x3 x4 x5 xo).1, y ∈ pc.1.set :=
  View.cover_of_tiledL (kernelRun0_B c i arg2 harg2 arg3 harg3 arg4 harg4 arg5 harg5 arg6 harg6 arg7 harg7 arg8 harg8 hc0 x0 x1 x2 x3 x4 x5 xo).1 S8x128.size (by sl_kernel_rfl) y

/-- What a later point leaves: its pieces read back over junk. -/
def out0_B_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) : Vec F S8x128 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 x5 xo).1)

/-- The zero offsets of a whole block. -/
private theorem hz : (![0, 0] : Fin 2 → Nat) = fun _ => 0 := funext fun a => by fin_cases a <;> rfl

/-- The first point leaves the step over the zero block. -/
theorem out0_A_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) :
    out0_A_6 c i arg2 harg2 arg3 harg3 arg4 harg4 arg5 harg5 arg6 harg6 arg7 harg7 arg8 harg8 hc0 x0 x1 x2 x3 x4 x5 = accStep i x0 x1 x2 x3 x4 x5 (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  -- the later store covers the whole block, so it alone is read back; the load inside it reads the zero block stored before
  rw [View.canon_cons_unit_zero (S := S8x128) hz, View.readCov_unit_zero (S := S8x128) _ hz]
  unfold accStep
  simp only [View.readAt_eq_ld, harg2.read_unread, harg3.read_unread, harg4.read_unread, harg5.read_unread,
    harg6.read_unread, harg7.read_unread, View.ld_unit_zero (S := S512x1024) hz, View.ld_unit_zero (S := S512x1) hz,
    View.ld_unit_zero (S := S1x512) hz]

/-- A later point leaves the step over what the buffer held. -/
theorem out0_B_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) :
    out0_B_6 c i arg2 harg2 arg3 harg3 arg4 harg4 arg5 harg5 arg6 harg6 arg7 harg7 arg8 harg8 hc0 x0 x1 x2 x3 x4 x5 xo = accStep i x0 x1 x2 x3 x4 x5 xo := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo)]
  unfold kernelRun0_B
  dsimp only
  sl_unfold_words
  -- the one store covers the whole block; every load reads a whole buffer, so it reads the buffer's contents
  rw [View.canon_unit_zero hz]
  unfold accStep
  simp only [View.readAt_eq_ld, harg2.read_unread, harg3.read_unread, harg4.read_unread, harg5.read_unread,
    harg6.read_unread, harg7.read_unread, harg8.read_unread, View.ld_unit_zero (S := S512x1024) hz,
    View.ld_unit_zero (S := S512x1) hz, View.ld_unit_zero (S := S1x512) hz, View.ld_unit_zero (S := S8x128) hz]

end Cert.Kernel.Hand

end
-- ==== Proof.K.Data.lean ====
/-
  The kernel region's proof data and the body obligation, for any contents `V` of the core's buffers at the region's
  entry. After the body at point `t` each input window's staging buffer holds its block of its array, the output's holds
  the accumulator `accAt … t`. The two windows that read the one array of normalised anchors hold it at the two halves
  of the full share; every other input at the full share. The invariant is the scoped rest and the generator register,
  untouched by the body; nothing is owed.
-/
import proofs.«126969_j66666482368607_1_alg».proof.Proof.K.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => accAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = accAt V c t.val t.isLt := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d
theorem before0_2 (c : Dev nD) (t : Fin cfg0.N) (d) : (dat0 V c).before 2 t d = iblk V c 2 t :=
  before0_2_of V (dat0 V c) (A_eq0 V c 2) (after0_2 V c) t d
theorem before0_3 (c : Dev nD) (t : Fin cfg0.N) (d) : (dat0 V c).before 3 t d = iblk V c 3 t :=
  before0_3_of V (dat0 V c) (A_eq0 V c 3) (after0_3 V c) t d
theorem before0_4 (c : Dev nD) (t : Fin cfg0.N) (d) : (dat0 V c).before 4 t d = iblk V c 4 t :=
  before0_4_of V (dat0 V c) (A_eq0 V c 4) (after0_4 V c) t d
theorem before0_5 (c : Dev nD) (t : Fin cfg0.N) (d) : (dat0 V c).before 5 t d = iblk V c 5 t :=
  before0_5_of V (dat0 V c) (A_eq0 V c 5) (after0_5 V c) t d

/-- At a later point the output's staging buffer holds what the body left at the point before: the buffer is written back
    only after the last point, the window is live and uncut. -/
theorem before0_6_B (c : Dev nD) (t : Fin cfg0.N) (h0 : ¬t.val = 0) (d) :
    (dat0 V c).before 6 t d = accAt V c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point: the inputs' buffers hold their blocks; the first point takes the reset branch, a later point
    finds the accumulator as the point before left it; the run applies, the invariant passes through unread, nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [accAt_first V c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_of_cover _ _ _ _ _ (cover0_A_6 c _ _ _ _ _ _ _ _ _ _ _ _ _ _ _ _ _ _ _ _ _ _)).trans
      (out0_A_6_eq c _ _ _ _ _ _ _ _ _ _ _ _ _ _ _ _ _ _ _ _ _ _)
  · rw [accAt_later V c t h0]
    simp only [before0_6_B V c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_of_cover _ _ _ _ _ (cover0_B_6 c _ _ _ _ _ _ _ _ _ _ _ _ _ _ _ _ _ _ _ _ _ _ _)).trans
      (out0_B_6_eq c _ _ _ _ _ _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Vals.lean ====
/-
  The contents of the core's buffers at each boundary of @main: as launched; after the host operations before the kernel
  region; after the region, which changes the one result array (held at `out`, whatever the region leaves there); after the
  host operations behind the region; and after the closing `relu`.
-/
import proofs.«126969_j66666482368607_1_alg».proof.Proof.Gen.Kernel.Launch
import Idealize.ShloMosaic.Lib.Pipeline.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)
variable (out : (c : Dev nD) → Buf (Elt F) ((c : Thread nD τ).loc main_v43))

/-- Core `c`'s buffers at launch. -/
abbrev W0 (c : Dev nD) : Valuation τ sig (Elt F) := fun b => m (c, b)
/-- After the host operations before the region (the region's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- At the region's exit: the result array at `out c`, every other buffer as entered. -/
abbrev W2 (c : Dev nD) : Valuation τ sig (Elt F) := Function.update (W1 m c) main_v43 (out c)
abbrev V2 : (c : Dev nD) → (b : Ref sig .tc) → Buf (Elt F) ((c : Thread nD τ).loc b) := fun c b => W2 m out c b
/-- After the host operations behind the region. -/
abbrev W3 (c : Dev nD) : Valuation τ sig (Elt F) := StableHlo.after hostOps1 (W2 m out c)
/-- After the closing `relu`: @main's end. -/
abbrev W4 (c : Dev nD) : Valuation τ sig (Elt F) := StableHlo.after hostOps1_1 (W3 m out c)

end Cert.Kernel.Hand

end
-- ==== Proof.K.Out.lean ====
/-
  What the region leaves in the result array: the proof data's array after all the write-backs (there is one, after the
  last grid point), from the region's entry contents `V1`.
-/
import proofs.«126969_j66666482368607_1_alg».proof.Proof.K.Data
import proofs.«126969_j66666482368607_1_alg».proof.Proof.K.Vals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def outF (c : Dev nD) : Buf (Elt F) ((c : Thread nD τ).loc main_v43) := (dat0 (V1 m) c).arrAt 6 cfg0.N

end Cert.Kernel.Hand

end
-- ==== Proof.K.Launch.lean ====
/-
  The launch. @main is four items: the host operations before the kernel region, the region, the host operations behind
  it, and the closing `relu`. Between items the thread holds every unscoped buffer of the core at the boundary's
  contents (`W0 … W4`), beside the generator register and the core owing nothing.

  The region's seven windows stand on SIX arrays: the anchors' row blocks and the anchors' column blocks are two windows on
  the one array of normalised anchors. At the region's entry that array's buffer, held whole at the full share, is dealt
  to the two windows at the two halves of the share; both only read it, and at the exit the halves, still at the entry
  contents, join again. Every other array goes to its one window at the full share. Only the result array is written.
-/
import proofs.«126969_j66666482368607_1_alg».proof.Proof.K.Out
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays of the region, one by one -/

section Arrays
variable (V : (c : Dev nD) → (b : Ref sig .tc) → Buf (Elt F) ((c : Thread nD τ).loc b))

/-- The windows' arrays are six buffers. -/
theorem arr_image : Finset.univ.image (Pipeline.arrRef spec0) = {main_v38, main_v39, main_v40, main_v41, main_v42, main_v43} := by decide

/-- The buffers behind the arrays, listed. -/
theorem arrBufs_eq (c : Dev nD) (X : (b : Ref sig .tc) → Buf (Elt F) ((c : Thread nD τ).loc b)) :
    (Pipeline.arrBufs spec0 c X : sProp 𝕄)
      = iprop((((c : Thread nD τ).loc main_v38) ↦{fullShare} X main_v38) ∗ (((c : Thread nD τ).loc main_v39) ↦{fullShare} X main_v39)
          ∗ (((c : Thread nD τ).loc main_v40) ↦{fullShare} X main_v40) ∗ (((c : Thread nD τ).loc main_v41) ↦{fullShare} X main_v41)
          ∗ (((c : Thread nD τ).loc main_v42) ↦{fullShare} X main_v42) ∗ (((c : Thread nD τ).loc main_v43) ↦{fullShare} X main_v43)) := by
  unfold Pipeline.arrBufs
  rw [arr_image, bigSep_insert (by decide), bigSep_insert (by decide), bigSep_insert (by decide), bigSep_insert (by decide),
    bigSep_insert (by decide), bigSep_singleton]
  rfl

/-- Each window's array is a whole buffer: held over all of its indices. -/
theorem arr_pt (c : Dev nD) (w : Fin cfg0.W) (q : PosShare TreeShare) (g : Buf (Elt F) ((cfg0.win w).arr.view.loc (c : Thread nD τ))) :
    (((cfg0.win w).arr.view.loc (c : Thread nD τ)) ↦[(cfg0.win w).arr.view.set]{q} g : sProp 𝕄)
      = (((c : Thread nD τ).loc (Pipeline.arrRef spec0 w)) ↦{q} g) := by
  rw [(arr_whole0 w).set_eq_univ]

/-- The proof data's arrays, window by window, each a whole buffer at its share, at contents given window by window. -/
theorem arrays_eq (c : Dev nD) (G : (w : Fin cfg0.W) → Buf (Elt F) ((cfg0.win w).arr.view.loc (c : Thread nD τ)))
    {g0 g1 : Buf (Elt F) ((c : Thread nD τ).loc main_v38)} {g2 : Buf (Elt F) ((c : Thread nD τ).loc main_v39)}
    {g3 : Buf (Elt F) ((c : Thread nD τ).loc main_v40)} {g4 : Buf (Elt F) ((c : Thread nD τ).loc main_v41)}
    {g5 : Buf (Elt F) ((c : Thread nD τ).loc main_v42)} {g6 : Buf (Elt F) ((c : Thread nD τ).loc main_v43)}
    (e0 : G 0 = g0) (e1 : G 1 = g1) (e2 : G 2 = g2) (e3 : G 3 = g3) (e4 : G 4 = g4) (e5 : G 5 = g5) (e6 : G 6 = g6) :
    (dat0 V c).arrays G
      = iprop((((c : Thread nD τ).loc main_v38) ↦{fullShare.left} g0) ∗ (((c : Thread nD τ).loc main_v38) ↦{fullShare.right} g1)
          ∗ (((c : Thread nD τ).loc main_v39) ↦{fullShare} g2) ∗ (((c : Thread nD τ).loc main_v40) ↦{fullShare} g3)
          ∗ (((c : Thread nD τ).loc main_v41) ↦{fullShare} g4) ∗ (((c : Thread nD τ).loc main_v42) ↦{fullShare} g5)
          ∗ (((c : Thread nD τ).loc main_v43) ↦{fullShare} g6)) := by
  subst e0 e1 e2 e3 e4 e5 e6
  unfold Dat.arrays
  rw [bigSep_congr (fun w _ => arr_pt c w ((dat0 V c).share w) (G w)), bigSep_W0]
  rfl

/-- A core's unscoped buffers are the buffers behind the arrays and the rest. -/
theorem bufs_split (c : Dev nD) (X : (b : Ref sig .tc) → Buf (Elt F) ((c : Thread nD τ).loc b)) :
    (unscopedBufs c X : sProp 𝕄) = iprop((Pipeline.arrBufs spec0 c X : sProp 𝕄) ∗ Pipeline.unscopedRest spec0 c X) :=
  Pipeline.unscopedBufs_split₀ cfgs (0 : Fin 1) winFacts₀0.arr_unscoped c X

/-- Before any point each array holds the entry contents. -/
theorem arrAt0 (c : Dev nD) (w : Fin cfg0.W) : (dat0 V c).arrAt w 0 = V c (Pipeline.arrRef spec0 w) := A_eq0 V c w

/-- ENTRY: the core's unscoped buffers at `V c` are the proof data's arrays at their entry contents — the anchors' array
    dealt to its two windows by halves — and the unscoped rest. -/
theorem entry_split (c : Dev nD) :
    (unscopedBufs c (V c) : sProp 𝕄) ⊢ iprop((dat0 V c).arrays ((dat0 V c).arrAt · 0) ∗ Pipeline.unscopedRest spec0 c (V c)) := by
  rw [bufs_split c (V c), arrBufs_eq c (V c),
    arrays_eq V c ((dat0 V c).arrAt · 0) (arrAt0 V c 0) (arrAt0 V c 1) (arrAt0 V c 2) (arrAt0 V c 3) (arrAt0 V c 4) (arrAt0 V c 5) (arrAt0 V c 6)]
  iintro ⟨⟨H38, H39, H40, H41, H42, H43⟩, Hrest⟩
  ihave Hs := (pointsTo_share (PosShare.mem_left_op_right fullShare)).1 $$ H38
  icases Hs with ⟨Hl, Hr⟩
  isplitr [Hrest]
  · isplitl [Hl]; · iexact Hl
    isplitl [Hr]; · iexact Hr
    isplitl [H39]; · iexact H39
    isplitl [H40]; · iexact H40
    isplitl [H41]; · iexact H41
    isplitl [H42]; · iexact H42
    iexact H43
  · iexact Hrest

/-- An input window's array is never written: after all the points it holds the entry contents. -/
theorem arrAtN_in (c : Dev nD) (w : Fin cfg0.W) (hw : (cfg0.win w).isOut = false) :
    (dat0 V c).arrAt w cfg0.N = V c (Pipeline.arrRef spec0 w) :=
  ((dat0 V c).arrAt_in w hw _).trans (A_eq0 V c w)

/-- EXIT: the arrays after all the points and the unscoped rest at `V c` are the core's unscoped buffers at any contents
    `V'` that has the result array at what the region left and agrees with `V c` at every other buffer (the two halves of
    the anchors' array, both still at the entry contents, join). -/
theorem exit_join (c : Dev nD) (V' : (b : Ref sig .tc) → Buf (Elt F) ((c : Thread nD τ).loc b))
    (hout : (dat0 V c).arrAt 6 cfg0.N = V' main_v43)
    (hin : ∀ b : Ref sig .tc, b ≠ main_v43 → V' b = V c b) :
    iprop((dat0 V c).arrays ((dat0 V c).arrAt · cfg0.N) ∗ Pipeline.unscopedRest spec0 c (V c)) ⊢ (unscopedBufs c V' : sProp 𝕄) := by
  have h0 : (dat0 V c).arrAt 0 cfg0.N = V' main_v38 := (arrAtN_in V c 0 rfl).trans (hin main_v38 (by decide)).symm
  have h1 : (dat0 V c).arrAt 1 cfg0.N = V' main_v38 := (arrAtN_in V c 1 rfl).trans (hin main_v38 (by decide)).symm
  have h2 : (dat0 V c).arrAt 2 cfg0.N = V' main_v39 := (arrAtN_in V c 2 rfl).trans (hin main_v39 (by decide)).symm
  have h3 : (dat0 V c).arrAt 3 cfg0.N = V' main_v40 := (arrAtN_in V c 3 rfl).trans (hin main_v40 (by decide)).symm
  have h4 : (dat0 V c).arrAt 4 cfg0.N = V' main_v41 := (arrAtN_in V c 4 rfl).trans (hin main_v41 (by decide)).symm
  have h5 : (dat0 V c).arrAt 5 cfg0.N = V' main_v42 := (arrAtN_in V c 5 rfl).trans (hin main_v42 (by decide)).symm
  have hr : (Pipeline.unscopedRest spec0 c (V c) : sProp 𝕄) = Pipeline.unscopedRest spec0 c V' := by
    unfold Pipeline.unscopedRest
    exact bigSep_congr fun b hb => by
      rw [hin b fun h => (Finset.mem_sdiff.mp hb).2 (h ▸ Finset.mem_image.mpr ⟨6, Finset.mem_univ _, rfl⟩)]
  rw [bufs_split c V', arrBufs_eq c V', arrays_eq V c ((dat0 V c).arrAt · cfg0.N) h0 h1 h2 h3 h4 h5 hout, hr]
  iintro ⟨⟨Hl, Hr, H39, H40, H41, H42, H43⟩, Hrest⟩
  isplitr [Hrest]
  · isplitl [Hl Hr]
    · iapply (pointsTo_share (PosShare.mem_left_op_right fullShare)).2
      isplitl [Hl]; · iexact Hl
      iexact Hr
    isplitl [H39]; · iexact H39
    isplitl [H40]; · iexact H40
    isplitl [H41]; · iexact H41
    isplitl [H42]; · iexact H42
    iexact H43
  · iexact Hrest

end Arrays

/-! ## The result array after the region, and the boundaries' contents -/

/-- The region changes the result array only. -/
theorem V2_out (c : Dev nD) : V2 m (outF m) c main_v43 = outF m c := Function.update_self _ _ _
theorem V2_of_ne (c : Dev nD) (b : Ref sig .tc) (hb : b ≠ main_v43) : V2 m (outF m) c b = V1 m c b :=
  Function.update_of_ne (StableHlo.devRef_ne_of_ne hb) _ _

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at @main's end, the generator register at some state. -/
abbrev Tₙ (c : Dev nD) : sProp 𝕄 := iprop(StableHlo.held (c : Thread nD τ) (Pipeline.ucRefs τ sig) (W4 m (outF m) c) ∗ ∃ r, prngReg c r)

/-! ## The region as an item -/

set_option maxHeartbeats 1600000 in
set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m (outF m) c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs c (V2 m (outF m) c) : sProp 𝕄) :=
      exit_join (V1 m) c (V2 m (outF m) c) (V2_out m c).symm (V2_of_ne m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m (outF m))),
    .host (hseg hostOps1_1 hostOps1_1_sub hostOps1_1_fresh (W3 m (outF m))) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds every unscoped buffer of every core at @main's end contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m (outF m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m (outF m) c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m (outF m) c b)
    (hfin := fun c s' => by
      iintro ⟨⟨Hh, -⟩, HSI⟩
      unfold StableHlo.held
      imodintro
      iapply (pointsTo_read_all (Pipeline.ucRefs τ sig) (fun b => (((c : Thread nD τ)).1, b)) (W4 m (outF m) c) s')
      isplitl [Hh] <;> iassumption)
    (hQ := fun s h c => h c)

end Cert.Kernel.Hand

end
-- ==== Proof.K.Args.lean ====
/-
  No item of @main writes an argument: none of the host operations before or behind the kernel region names an argument as
  its result, and the region changes the result array only. So at @main's end each argument's buffer holds what it was
  launched with.
-/
import proofs.«126969_j66666482368607_1_alg».proof.Proof.K.Vals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)
variable (out : (c : Dev nD) → Buf (Elt F) ((c : Thread nD τ).loc main_v43))

/-- No host operation before the kernel region names an argument as its result. -/
theorem hostOps0_keeps_args (b : Ref sig .tc) (hb : b = main_arg0 ∨ b = main_arg1 ∨ b = main_arg2) :
    ∀ op ∈ (hostOps0 : List (HloOp τ sig (Elt F))), Proc.devRef (τ := τ) .tc b ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by rcases hb with rfl | rfl | rfl <;> decide))

/-- Nor does any host operation behind the region. -/
theorem hostOps1_keeps_args (b : Ref sig .tc) (hb : b = main_arg0 ∨ b = main_arg1 ∨ b = main_arg2) :
    ∀ op ∈ (hostOps1 : List (HloOp τ sig (Elt F))), Proc.devRef (τ := τ) .tc b ∉ op.writes :=
  List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by rcases hb with rfl | rfl | rfl <;> decide))

/-- Nor do the two operations of the closing relu. -/
theorem hostOps1_1_keeps_args (b : Ref sig .tc) (hb : b = main_arg0 ∨ b = main_arg1 ∨ b = main_arg2) :
    ∀ op ∈ (hostOps1_1 : List (HloOp τ sig (Elt F))), Proc.devRef (τ := τ) .tc b ∉ op.writes :=
  List.forall_iff_forall_mem.mp (by
    simp only [hostOps1_1, List.Forall, StableHlo.nullary_writes, StableHlo.binary_writes, Finset.mem_singleton]
    repeat' apply And.intro
    all_goals exact StableHlo.devRef_ne_of_ne (by rcases hb with rfl | rfl | rfl <;> decide))

/-- An argument's buffer at @main's end is the launched one: followed back through the closing relu, the host
    operations behind the region, the region (which changes the result array only), the host operations before it. -/
theorem W4_arg (b : Ref sig .tc) (hb : b = main_arg0 ∨ b = main_arg1 ∨ b = main_arg2) (c : Dev nD) :
    W4 m out c b = m ((c : Thread nD τ).loc b) :=
  calc W4 m out c b
    _ = W3 m out c b :=
        StableHlo.after_of_forall_not_mem (b := Proc.devRef .tc b) _ _ (hostOps1_1_keeps_args b hb)
    _ = W2 m out c b :=
        StableHlo.after_of_forall_not_mem (b := Proc.devRef .tc b) _ _ (hostOps1_keeps_args b hb)
    _ = W1 m c b :=
        Function.update_of_ne (StableHlo.devRef_ne_of_ne (by rcases hb with rfl | rfl | rfl <;> decide)) _ _
    _ = W0 m c b :=
        StableHlo.after_of_forall_not_mem (b := Proc.devRef .tc b) _ _ (hostOps0_keeps_args b hb)
    _ = m ((c : Thread nD τ).loc b) := rfl

theorem W4_arg0 (c : Dev nD) : W4 m out c main_arg0 = m ((c : Thread nD τ).loc main_arg0) :=
  W4_arg m out main_arg0 (.inl rfl) c
theorem W4_arg1 (c : Dev nD) : W4 m out c main_arg1 = m ((c : Thread nD τ).loc main_arg1) :=
  W4_arg m out main_arg1 (.inr (.inl rfl)) c
theorem W4_arg2 (c : Dev nD) : W4 m out c main_arg2 = m ((c : Thread nD τ).loc main_arg2) :=
  W4_arg m out main_arg2 (.inr (.inr rfl)) c

end Cert.Kernel.Hand

end
-- ==== Proof.KI.Runs.lean ====
/-
  What the kernel region's proof is stated over, for any contents `V` of the core's buffers at the region's entry:
  each window's block of its array at a grid point; that an input window's staging buffer holds that block when the
  body runs; the body's one branch condition (the accumulator is reset exactly at the first grid point) in closed form;
  and the staging buffers the body is called with.
-/
import proofs.«126969_j66666482368607_1_alg».proof.Proof.Gen.KernelIdeal.Launch
import proofs.«126969_j66666482368607_1_alg».proof.Proof.Gen.KernelIdeal.Points
import proofs.«126969_j66666482368607_1_alg».proof.Proof.Gen.KernelIdeal.Skeleton
import Idealize.ShloMosaic.Lib.Pipeline.FrameSuffix
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the point fetches it or
    finds it in place from the point before (the block index has not moved since it was fetched). -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every point, whether the point fetches it or
    finds it in place from the point before (the block index has not moved since it was fetched). -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every point, whether the point fetches it or
    finds it in place from the point before (the block index has not moved since it was fetched). -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every point, whether the point fetches it or
    finds it in place from the point before (the block index has not moved since it was fetched). -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block of the array at every point, whether the point fetches it or
    finds it in place from the point before (the block index has not moved since it was fetched). -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block of the array at every point, whether the point fetches it or
    finds it in place from the point before (the block index has not moved since it was fetched). -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one `scf.if`: both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the 64 points of the grid. -/
theorem hcond0_0 : ∀ t : Fin cfg0.N, cond0_0 (grid0.coords t) ↔ t.val = 0 :=
  (by decide +kernel : ∀ t : Fin grid0.N, cond0_0 (grid0.coords t) ↔ t.val = 0)

/-! ## The staging buffers the body is called with -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)

end Cert.KernelIdeal.Hand

end
-- ==== Proof.KI.RunA.lean ====
/-
  The kernel body run at the first grid point (the branch that resets the accumulator is taken): on whole staging
  buffers, the six inputs at their contents and the output at anything, the body runs to its end holding the inputs as
  they were and the output's buffer with the body's stores written — the pieces the run finds.
-/
import proofs.«126969_j66666482368607_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output's staging buffer when the reset branch is taken (the zero block,
    then the step's value over it), with the run that leaves them. -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) :
    { L6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)) -∗ K ⟨⟩))
          ⊢ wp frame (wpE (defs₀ (F := F)) Variants.none c none) E (cc0__pair_mine_kernel i arg2 harg2 arg3 harg3 arg4 harg4 arg5 harg5 arg6 harg6 arg7 harg7 arg8 harg8) K } := by
  refine ⟨?_, fun E K => ?run⟩
  case run =>
    simp only [cc0__pair_mine_kernel_eq_skeleton]; unfold cc0__pair_mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KI.RunB.lean ====
/-
  The kernel body run at a later grid point (the reset branch is not taken): the output's staging buffer holds what the
  point before left, `xo`; the body reads it, adds the point's step and stores the sum.
-/
import proofs.«126969_j66666482368607_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's one store leaves in the output's staging buffer when the reset branch is not taken, with the
    run that leaves them. -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) :
    { L6 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)) -∗ K ⟨⟩))
          ⊢ wp frame (wpE (defs₀ (F := F)) Variants.none c none) E (cc0__pair_mine_kernel i arg2 harg2 arg3 harg3 arg4 harg4 arg5 harg5 arg6 harg6 arg7 harg7 arg8 harg8) K } := by
  refine ⟨?_, fun E K => ?run⟩
  case run =>
    simp only [cc0__pair_mine_kernel_eq_skeleton]; unfold cc0__pair_mine_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KI.Acc.lean ====
/-
  The accumulator. At a grid point the body adds, to each of the eight rows of its 8×128 output block, one number computed
  from the point's six input blocks: `accStep` is that step as one function of the blocks and of what the block held
  before. The block is reset to zero at the first point and carried from point to point (it is written back only after
  the last), so after point `n` it holds `accAt … n`: the steps of points 0 … n folded over the zero block.
-/
import proofs.«126969_j66666482368607_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One point's step: the value the body's last store writes, from the coordinates `i`, the anchors' row block `x0`,
    the anchors' column block `x1`, the negatives' column block `x2`, the labels' row block `x3`, the labels' column
    block `x4`, the negative labels' column block `x5`, and the block's contents `prev` before the step. -/
def accStep (i : grid0.Coords) (x0 x1 x2 : Vec F S512x1024 .bf16) (x3 : Vec F S512x1 .i32) (x4 x5 : Vec F S1x512 .i32)
    (prev : Vec F S8x128 .f32) : Vec F S8x128 .f32 :=
  k0_pay1 (k0_pay5 x0 x2) (k0_pay16 (k0_pay6 i) (k0_pay7 x3) (k0_pay8 x5))
    (k0_pay17 (k0_pay4 x0 x1) (k0_pay6 i) (k0_pay9 x3) (k0_pay10 x4))
    (k0_pay18 (F := F) (k0_pay6 i) (k0_pay9 x3) (k0_pay10 x4))
    (k0_pay19 (k0_pay4 x0 x1) (k0_pay6 i) (k0_pay9 x3) (k0_pay10 x4))
    (k0_pay20 (F := F) (k0_pay6 i) (k0_pay9 x3) (k0_pay10 x4))
    (k0_pay21 (k0_pay5 x0 x2) (k0_pay6 i) (k0_pay7 x3) (k0_pay8 x5))
    (k0_pay22 (F := F) (k0_pay6 i) (k0_pay7 x3) (k0_pay8 x5)) prev

/-- The step at grid point `t` on the blocks the region's entry contents `V` give the point. -/
def stepAt (c : Dev nD) (t : Fin cfg0.N) (prev : Vec F S8x128 .f32) : Vec F S8x128 .f32 :=
  accStep (grid0.coords t) (iblk V c 0 t) (iblk V c 1 t) (iblk V c 2 t) (iblk V c 3 t) (iblk V c 4 t) (iblk V c 5 t) prev

/-- What the output block holds after the body at position `n`: the zero block stepped at point 0, then each later
    point's step over what the point before left. -/
def accAt (c : Dev nD) : (n : ℕ) → n < cfg0.N → Vec F S8x128 .f32
  | 0, hn => stepAt V c ⟨0, hn⟩ (k0_pay2 (F := F))
  | n + 1, hn => stepAt V c ⟨n + 1, hn⟩ (accAt c n (Nat.lt_of_succ_lt hn))

theorem accAt_first (c : Dev nD) (t : Fin cfg0.N) (h0 : t.val = 0) :
    accAt V c t.val t.isLt = stepAt V c t (k0_pay2 (F := F)) := by
  obtain ⟨n, hn⟩ := t
  cases n with
  | zero => rfl
  | succ n => exact absurd h0 (Nat.succ_ne_zero n)

theorem accAt_later (c : Dev nD) (t : Fin cfg0.N) (h0 : ¬ t.val = 0) :
    accAt V c t.val t.isLt = stepAt V c t (accAt V c (t.val - 1) (Nat.lt_of_le_of_lt (Nat.sub_le _ _) t.isLt)) := by
  obtain ⟨n, hn⟩ := t
  cases n with
  | zero => exact absurd rfl h0
  | succ n => rfl

end Cert.KernelIdeal.Hand

end
-- ==== Proof.KI.Pieces.lean ====
/-
  What the body leaves in the output's staging buffer, as values. The run's pieces cover the whole 8×128 block, so reading
  them back gives one vector whatever the buffer held: at the first point the step over the zero block (the reset's store,
  read back by the body's load, then overwritten by the sum), at a later point the step over what the buffer held.
-/
import proofs.«126969_j66666482368607_1_alg».proof.Proof.KI.RunB
import proofs.«126969_j66666482368607_1_alg».proof.Proof.KI.Acc
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One staging buffer of the output window, through which the pieces are read back (the choice does not matter). -/
abbrev VO0_6 : View sig .tc .vmem S8x128 .f32 := (Memref.whole cc0_stg6_0 : Memref sig .tc .vmem S8x128 .f32).view

/-- At the first point the pieces (two stores of the whole block) cover the block. -/
theorem cover0_A_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) (y : S8x128.Idx) :
    ∃ pc ∈ (kernelRun0_A c i arg2 harg2 arg3 harg3 arg4 harg4 arg5 harg5 arg6 harg6 arg7 harg7 arg8 harg8 hc0 x0 x1 x2 x3 x4 x5).1, y ∈ pc.1.set :=
  View.cover_of_tiledL (kernelRun0_A c i arg2 harg2 arg3 harg3 arg4 harg4 arg5 harg5 arg6 harg6 arg7 harg7 arg8 harg8 hc0 x0 x1 x2 x3 x4 x5).1 S8x128.size (by sl_kernel_rfl) y

/-- What the first point leaves: its pieces read back over junk. -/
def out0_A_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) : Vec F S8x128 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4 x5).1)

/-- At a later point the one store of the whole block covers it. -/
theorem cover0_B_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) (y : S8x128.Idx) :
    ∃ pc ∈ (kernelRun0_B c i arg2 harg2 arg3 harg3 arg4 harg4 arg5 harg5 arg6 harg6 arg7 harg7 arg8 harg8 hc0 x0 x1 x2 x3 x4 x5 xo).1, y ∈ pc.1.set :=
  View.cover_of_tiledL (kernelRun0_B c i arg2 harg2 arg3 harg3 arg4 harg4 arg5 harg5 arg6 harg6 arg7 harg7 arg8 harg8 hc0 x0 x1 x2 x3 x4 x5 xo).1 S8x128.size (by sl_kernel_rfl) y

/-- What a later point leaves: its pieces read back over junk. -/
def out0_B_6 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) : Vec F S8x128 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 x5 xo).1)

/-- The zero offsets of a whole block. -/
private theorem hz : (![0, 0] : Fin 2 → Nat) = fun _ => 0 := funext fun a => by fin_cases a <;> rfl

/-- The first point leaves the step over the zero block. -/
theorem out0_A_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : cond0_0 i)
    (x0 x1 x2 : Vec F S512x1024 .bf16) (x3 : Vec F S512x1 .i32) (x4 x5 : Vec F S1x512 .i32) :
    out0_A_6 c i arg2 harg2 arg3 harg3 arg4 harg4 arg5 harg5 arg6 harg6 arg7 harg7 arg8 harg8 hc0 x0 x1 x2 x3 x4 x5 = accStep i x0 x1 x2 x3 x4 x5 (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  -- the later store covers the whole block, so it alone is read back; the load inside it reads the zero block stored before
  rw [View.canon_cons_unit_zero (S := S8x128) hz, View.readCov_unit_zero (S := S8x128) _ hz]
  unfold accStep
  simp only [View.readAt_eq_ld, harg2.read_unread, harg3.read_unread, harg4.read_unread, harg5.read_unread,
    harg6.read_unread, harg7.read_unread, View.ld_unit_zero (S := S512x1024) hz, View.ld_unit_zero (S := S512x1) hz,
    View.ld_unit_zero (S := S1x512) hz]

/-- A later point leaves the step over what the buffer held. -/
theorem out0_B_6_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1 .i32) (harg5 : arg5.IsWhole) (arg6 : Memref sig .tc .vmem S1x512 .i32) (harg6 : arg6.IsWhole) (arg7 : Memref sig .tc .vmem S1x512 .i32) (harg7 : arg7.IsWhole) (arg8 : Memref sig .tc .vmem S8x128 .f32) (harg8 : arg8.IsWhole) (hc0 : ¬cond0_0 i)
    (x0 x1 x2 : Vec F S512x1024 .bf16) (x3 : Vec F S512x1 .i32) (x4 x5 : Vec F S1x512 .i32) (xo : Vec F S8x128 .f32) :
    out0_B_6 c i arg2 harg2 arg3 harg3 arg4 harg4 arg5 harg5 arg6 harg6 arg7 harg7 arg8 harg8 hc0 x0 x1 x2 x3 x4 x5 xo = accStep i x0 x1 x2 x3 x4 x5 xo := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo)]
  unfold kernelRun0_B
  dsimp only
  sl_unfold_words
  -- the one store covers the whole block; every load reads a whole buffer, so it reads the buffer's contents
  rw [View.canon_unit_zero hz]
  unfold accStep
  simp only [View.readAt_eq_ld, harg2.read_unread, harg3.read_unread, harg4.read_unread, harg5.read_unread,
    harg6.read_unread, harg7.read_unread, harg8.read_unread, View.ld_unit_zero (S := S512x1024) hz,
    View.ld_unit_zero (S := S512x1) hz, View.ld_unit_zero (S := S1x512) hz, View.ld_unit_zero (S := S8x128) hz]

end Cert.KernelIdeal.Hand

end
-- ==== Proof.KI.Data.lean ====
/-
  The kernel region's proof data and the body obligation, for any contents `V` of the core's buffers at the region's
  entry. After the body at point `t` each input window's staging buffer holds its block of its array, the output's holds
  the accumulator `accAt … t`. The two windows that read the one array of normalised anchors hold it at the two halves
  of the full share; every other input at the full share. The invariant is the scoped rest and the generator register,
  untouched by the body; nothing is owed.
-/
import proofs.«126969_j66666482368607_1_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => accAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = accAt V c t.val t.isLt := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d
theorem before0_2 (c : Dev nD) (t : Fin cfg0.N) (d) : (dat0 V c).before 2 t d = iblk V c 2 t :=
  before0_2_of V (dat0 V c) (A_eq0 V c 2) (after0_2 V c) t d
theorem before0_3 (c : Dev nD) (t : Fin cfg0.N) (d) : (dat0 V c).before 3 t d = iblk V c 3 t :=
  before0_3_of V (dat0 V c) (A_eq0 V c 3) (after0_3 V c) t d
theorem before0_4 (c : Dev nD) (t : Fin cfg0.N) (d) : (dat0 V c).before 4 t d = iblk V c 4 t :=
  before0_4_of V (dat0 V c) (A_eq0 V c 4) (after0_4 V c) t d
theorem before0_5 (c : Dev nD) (t : Fin cfg0.N) (d) : (dat0 V c).before 5 t d = iblk V c 5 t :=
  before0_5_of V (dat0 V c) (A_eq0 V c 5) (after0_5 V c) t d

/-- At a later point the output's staging buffer holds what the body left at the point before: the buffer is written back
    only after the last point, the window is live and uncut. -/
theorem before0_6_B (c : Dev nD) (t : Fin cfg0.N) (h0 : ¬t.val = 0) (d) :
    (dat0 V c).before 6 t d = accAt V c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point: the inputs' buffers hold their blocks; the first point takes the reset branch, a later point
    finds the accumulator as the point before left it; the run applies, the invariant passes through unread, nothing is owed. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [accAt_first V c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_of_cover _ _ _ _ _ (cover0_A_6 c _ _ _ _ _ _ _ _ _ _ _ _ _ _ _ _ _ _ _ _ _ _)).trans
      (out0_A_6_eq c _ _ _ _ _ _ _ _ _ _ _ _ _ _ _ _ _ _ _ _ _ _)
  · rw [accAt_later V c t h0]
    simp only [before0_6_B V c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_of_cover _ _ _ _ _ (cover0_B_6 c _ _ _ _ _ _ _ _ _ _ _ _ _ _ _ _ _ _ _ _ _ _ _)).trans
      (out0_B_6_eq c _ _ _ _ _ _ _ _ _ _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Vals.lean ====
/-
  The contents of the core's buffers at each boundary of @main: as launched; after the host operations before the kernel
  region; after the region, which changes the one result array (held at `out`, whatever the region leaves there); after the
  host operations behind the region; and after the closing `relu`.
-/
import proofs.«126969_j66666482368607_1_alg».proof.Proof.Gen.KernelIdeal.Launch
import Idealize.ShloMosaic.Lib.Pipeline.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
variable (out : (c : Dev nD) → Buf (Elt F) ((c : Thread nD τ).loc main_v43))

/-- Core `c`'s buffers at launch. -/
abbrev W0 (c : Dev nD) : Valuation τ sig (Elt F) := fun b => m (c, b)
/-- After the host operations before the region (the region's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- At the region's exit: the result array at `out c`, every other buffer as entered. -/
abbrev W2 (c : Dev nD) : Valuation τ sig (Elt F) := Function.update (W1 m c) main_v43 (out c)
abbrev V2 : (c : Dev nD) → (b : Ref sig .tc) → Buf (Elt F) ((c : Thread nD τ).loc b) := fun c b => W2 m out c b
/-- After the host operations behind the region. -/
abbrev W3 (c : Dev nD) : Valuation τ sig (Elt F) := StableHlo.after hostOps1 (W2 m out c)
/-- After the closing `relu`: @main's end. -/
abbrev W4 (c : Dev nD) : Valuation τ sig (Elt F) := StableHlo.after hostOps1_1 (W3 m out c)

end Cert.KernelIdeal.Hand

end
-- ==== Proof.KI.Out.lean ====
/-
  What the region leaves in the result array: the proof data's array after all the write-backs (there is one, after the
  last grid point), from the region's entry contents `V1`.
-/
import proofs.«126969_j66666482368607_1_alg».proof.Proof.KI.Data
import proofs.«126969_j66666482368607_1_alg».proof.Proof.KI.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def outF (c : Dev nD) : Buf (Elt F) ((c : Thread nD τ).loc main_v43) := (dat0 (V1 m) c).arrAt 6 cfg0.N

end Cert.KernelIdeal.Hand

end
-- ==== Proof.KI.Launch.lean ====
/-
  The launch. @main is four items: the host operations before the kernel region, the region, the host operations behind
  it, and the closing `relu`. Between items the thread holds every unscoped buffer of the core at the boundary's
  contents (`W0 … W4`), beside the generator register and the core owing nothing.

  The region's seven windows stand on SIX arrays: the anchors' row blocks and the anchors' column blocks are two windows on
  the one array of normalised anchors. At the region's entry that array's buffer, held whole at the full share, is dealt
  to the two windows at the two halves of the share; both only read it, and at the exit the halves, still at the entry
  contents, join again. Every other array goes to its one window at the full share. Only the result array is written.
-/
import proofs.«126969_j66666482368607_1_alg».proof.Proof.KI.Out
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays of the region, one by one -/

section Arrays
variable (V : (c : Dev nD) → (b : Ref sig .tc) → Buf (Elt F) ((c : Thread nD τ).loc b))

/-- The windows' arrays are six buffers. -/
theorem arr_image : Finset.univ.image (Pipeline.arrRef spec0) = {main_v38, main_v39, main_v40, main_v41, main_v42, main_v43} := by decide

/-- The buffers behind the arrays, listed. -/
theorem arrBufs_eq (c : Dev nD) (X : (b : Ref sig .tc) → Buf (Elt F) ((c : Thread nD τ).loc b)) :
    (Pipeline.arrBufs spec0 c X : sProp 𝕄)
      = iprop((((c : Thread nD τ).loc main_v38) ↦{fullShare} X main_v38) ∗ (((c : Thread nD τ).loc main_v39) ↦{fullShare} X main_v39)
          ∗ (((c : Thread nD τ).loc main_v40) ↦{fullShare} X main_v40) ∗ (((c : Thread nD τ).loc main_v41) ↦{fullShare} X main_v41)
          ∗ (((c : Thread nD τ).loc main_v42) ↦{fullShare} X main_v42) ∗ (((c : Thread nD τ).loc main_v43) ↦{fullShare} X main_v43)) := by
  unfold Pipeline.arrBufs
  rw [arr_image, bigSep_insert (by decide), bigSep_insert (by decide), bigSep_insert (by decide), bigSep_insert (by decide),
    bigSep_insert (by decide), bigSep_singleton]
  rfl

/-- Each window's array is a whole buffer: held over all of its indices. -/
theorem arr_pt (c : Dev nD) (w : Fin cfg0.W) (q : PosShare TreeShare) (g : Buf (Elt F) ((cfg0.win w).arr.view.loc (c : Thread nD τ))) :
    (((cfg0.win w).arr.view.loc (c : Thread nD τ)) ↦[(cfg0.win w).arr.view.set]{q} g : sProp 𝕄)
      = (((c : Thread nD τ).loc (Pipeline.arrRef spec0 w)) ↦{q} g) := by
  rw [(arr_whole0 w).set_eq_univ]

/-- The proof data's arrays, window by window, each a whole buffer at its share, at contents given window by window. -/
theorem arrays_eq (c : Dev nD) (G : (w : Fin cfg0.W) → Buf (Elt F) ((cfg0.win w).arr.view.loc (c : Thread nD τ)))
    {g0 g1 : Buf (Elt F) ((c : Thread nD τ).loc main_v38)} {g2 : Buf (Elt F) ((c : Thread nD τ).loc main_v39)}
    {g3 : Buf (Elt F) ((c : Thread nD τ).loc main_v40)} {g4 : Buf (Elt F) ((c : Thread nD τ).loc main_v41)}
    {g5 : Buf (Elt F) ((c : Thread nD τ).loc main_v42)} {g6 : Buf (Elt F) ((c : Thread nD τ).loc main_v43)}
    (e0 : G 0 = g0) (e1 : G 1 = g1) (e2 : G 2 = g2) (e3 : G 3 = g3) (e4 : G 4 = g4) (e5 : G 5 = g5) (e6 : G 6 = g6) :
    (dat0 V c).arrays G
      = iprop((((c : Thread nD τ).loc main_v38) ↦{fullShare.left} g0) ∗ (((c : Thread nD τ).loc main_v38) ↦{fullShare.right} g1)
          ∗ (((c : Thread nD τ).loc main_v39) ↦{fullShare} g2) ∗ (((c : Thread nD τ).loc main_v40) ↦{fullShare} g3)
          ∗ (((c : Thread nD τ).loc main_v41) ↦{fullShare} g4) ∗ (((c : Thread nD τ).loc main_v42) ↦{fullShare} g5)
          ∗ (((c : Thread nD τ).loc main_v43) ↦{fullShare} g6)) := by
  subst e0 e1 e2 e3 e4 e5 e6
  unfold Dat.arrays
  rw [bigSep_congr (fun w _ => arr_pt c w ((dat0 V c).share w) (G w)), bigSep_W0]
  rfl

/-- A core's unscoped buffers are the buffers behind the arrays and the rest. -/
theorem bufs_split (c : Dev nD) (X : (b : Ref sig .tc) → Buf (Elt F) ((c : Thread nD τ).loc b)) :
    (unscopedBufs c X : sProp 𝕄) = iprop((Pipeline.arrBufs spec0 c X : sProp 𝕄) ∗ Pipeline.unscopedRest spec0 c X) :=
  Pipeline.unscopedBufs_split₀ cfgs (0 : Fin 1) winFacts₀0.arr_unscoped c X

/-- Before any point each array holds the entry contents. -/
theorem arrAt0 (c : Dev nD) (w : Fin cfg0.W) : (dat0 V c).arrAt w 0 = V c (Pipeline.arrRef spec0 w) := A_eq0 V c w

/-- ENTRY: the core's unscoped buffers at `V c` are the proof data's arrays at their entry contents — the anchors' array
    dealt to its two windows by halves — and the unscoped rest. -/
theorem entry_split (c : Dev nD) :
    (unscopedBufs c (V c) : sProp 𝕄) ⊢ iprop((dat0 V c).arrays ((dat0 V c).arrAt · 0) ∗ Pipeline.unscopedRest spec0 c (V c)) := by
  rw [bufs_split c (V c), arrBufs_eq c (V c),
    arrays_eq V c ((dat0 V c).arrAt · 0) (arrAt0 V c 0) (arrAt0 V c 1) (arrAt0 V c 2) (arrAt0 V c 3) (arrAt0 V c 4) (arrAt0 V c 5) (arrAt0 V c 6)]
  iintro ⟨⟨H38, H39, H40, H41, H42, H43⟩, Hrest⟩
  ihave Hs := (pointsTo_share (PosShare.mem_left_op_right fullShare)).1 $$ H38
  icases Hs with ⟨Hl, Hr⟩
  isplitr [Hrest]
  · isplitl [Hl]; · iexact Hl
    isplitl [Hr]; · iexact Hr
    isplitl [H39]; · iexact H39
    isplitl [H40]; · iexact H40
    isplitl [H41]; · iexact H41
    isplitl [H42]; · iexact H42
    iexact H43
  · iexact Hrest

/-- An input window's array is never written: after all the points it holds the entry contents. -/
theorem arrAtN_in (c : Dev nD) (w : Fin cfg0.W) (hw : (cfg0.win w).isOut = false) :
    (dat0 V c).arrAt w cfg0.N = V c (Pipeline.arrRef spec0 w) :=
  ((dat0 V c).arrAt_in w hw _).trans (A_eq0 V c w)

/-- EXIT: the arrays after all the points and the unscoped rest at `V c` are the core's unscoped buffers at any contents
    `V'` that has the result array at what the region left and agrees with `V c` at every other buffer (the two halves of
    the anchors' array, both still at the entry contents, join). -/
theorem exit_join (c : Dev nD) (V' : (b : Ref sig .tc) → Buf (Elt F) ((c : Thread nD τ).loc b))
    (hout : (dat0 V c).arrAt 6 cfg0.N = V' main_v43)
    (hin : ∀ b : Ref sig .tc, b ≠ main_v43 → V' b = V c b) :
    iprop((dat0 V c).arrays ((dat0 V c).arrAt · cfg0.N) ∗ Pipeline.unscopedRest spec0 c (V c)) ⊢ (unscopedBufs c V' : sProp 𝕄) := by
  have h0 : (dat0 V c).arrAt 0 cfg0.N = V' main_v38 := (arrAtN_in V c 0 rfl).trans (hin main_v38 (by decide)).symm
  have h1 : (dat0 V c).arrAt 1 cfg0.N = V' main_v38 := (arrAtN_in V c 1 rfl).trans (hin main_v38 (by decide)).symm
  have h2 : (dat0 V c).arrAt 2 cfg0.N = V' main_v39 := (arrAtN_in V c 2 rfl).trans (hin main_v39 (by decide)).symm
  have h3 : (dat0 V c).arrAt 3 cfg0.N = V' main_v40 := (arrAtN_in V c 3 rfl).trans (hin main_v40 (by decide)).symm
  have h4 : (dat0 V c).arrAt 4 cfg0.N = V' main_v41 := (arrAtN_in V c 4 rfl).trans (hin main_v41 (by decide)).symm
  have h5 : (dat0 V c).arrAt 5 cfg0.N = V' main_v42 := (arrAtN_in V c 5 rfl).trans (hin main_v42 (by decide)).symm
  have hr : (Pipeline.unscopedRest spec0 c (V c) : sProp 𝕄) = Pipeline.unscopedRest spec0 c V' := by
    unfold Pipeline.unscopedRest
    exact bigSep_congr fun b hb => by
      rw [hin b fun h => (Finset.mem_sdiff.mp hb).2 (h ▸ Finset.mem_image.mpr ⟨6, Finset.mem_univ _, rfl⟩)]
  rw [bufs_split c V', arrBufs_eq c V', arrays_eq V c ((dat0 V c).arrAt · cfg0.N) h0 h1 h2 h3 h4 h5 hout, hr]
  iintro ⟨⟨Hl, Hr, H39, H40, H41, H42, H43⟩, Hrest⟩
  isplitr [Hrest]
  · isplitl [Hl Hr]
    · iapply (pointsTo_share (PosShare.mem_left_op_right fullShare)).2
      isplitl [Hl]; · iexact Hl
      iexact Hr
    isplitl [H39]; · iexact H39
    isplitl [H40]; · iexact H40
    isplitl [H41]; · iexact H41
    isplitl [H42]; · iexact H42
    iexact H43
  · iexact Hrest

end Arrays

/-! ## The result array after the region, and the boundaries' contents -/

/-- The region changes the result array only. -/
theorem V2_out (c : Dev nD) : V2 m (outF m) c main_v43 = outF m c := Function.update_self _ _ _
theorem V2_of_ne (c : Dev nD) (b : Ref sig .tc) (hb : b ≠ main_v43) : V2 m (outF m) c b = V1 m c b :=
  Function.update_of_ne (StableHlo.devRef_ne_of_ne hb) _ _

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at @main's end, the generator register at some state. -/
abbrev Tₙ (c : Dev nD) : sProp 𝕄 := iprop(StableHlo.held (c : Thread nD τ) (Pipeline.ucRefs τ sig) (W4 m (outF m) c) ∗ ∃ r, prngReg c r)

/-! ## The region as an item -/

set_option maxHeartbeats 1600000 in
set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m (outF m) c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry_split (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V1 m c))
        ⊢ (unscopedBufs c (V2 m (outF m) c) : sProp 𝕄) :=
      exit_join (V1 m) c (V2 m (outF m) c) (V2_out m c).symm (V2_of_ne m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m (outF m))),
    .host (hseg hostOps1_1 hostOps1_1_sub hostOps1_1_fresh (W3 m (outF m))) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds every unscoped buffer of every core at @main's end contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m (outF m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m (outF m) c) ∗ R c)
        ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m (outF m) c b)
    (hfin := fun c s' => by
      iintro ⟨⟨Hh, -⟩, HSI⟩
      unfold StableHlo.held
      imodintro
      iapply (pointsTo_read_all (Pipeline.ucRefs τ sig) (fun b => (((c : Thread nD τ)).1, b)) (W4 m (outF m) c) s')
      isplitl [Hh] <;> iassumption)
    (hQ := fun s h c => h c)

end Cert.KernelIdeal.Hand

end
-- ==== Proof.KI.Args.lean ====
/-
  No item of @main writes an argument: none of the host operations before or behind the kernel region names an argument as
  its result, and the region changes the result array only. So at @main's end each argument's buffer holds what it was
  launched with.
-/
import proofs.«126969_j66666482368607_1_alg».proof.Proof.KI.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
variable (out : (c : Dev nD) → Buf (Elt F) ((c : Thread nD τ).loc main_v43))

/-- No host operation before the kernel region names an argument as its result. -/
theorem hostOps0_keeps_args (b : Ref sig .tc) (hb : b = main_arg0 ∨ b = main_arg1 ∨ b = main_arg2) :
    ∀ op ∈ (hostOps0 : List (HloOp τ sig (Elt F))), Proc.devRef (τ := τ) .tc b ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by rcases hb with rfl | rfl | rfl <;> decide))

/-- Nor does any host operation behind the region. -/
theorem hostOps1_keeps_args (b : Ref sig .tc) (hb : b = main_arg0 ∨ b = main_arg1 ∨ b = main_arg2) :
    ∀ op ∈ (hostOps1 : List (HloOp τ sig (Elt F))), Proc.devRef (τ := τ) .tc b ∉ op.writes :=
  List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by rcases hb with rfl | rfl | rfl <;> decide))

/-- Nor do the two operations of the closing relu. -/
theorem hostOps1_1_keeps_args (b : Ref sig .tc) (hb : b = main_arg0 ∨ b = main_arg1 ∨ b = main_arg2) :
    ∀ op ∈ (hostOps1_1 : List (HloOp τ sig (Elt F))), Proc.devRef (τ := τ) .tc b ∉ op.writes :=
  List.forall_iff_forall_mem.mp (by
    simp only [hostOps1_1, List.Forall, StableHlo.nullary_writes, StableHlo.binary_writes, Finset.mem_singleton]
    repeat' apply And.intro
    all_goals exact StableHlo.devRef_ne_of_ne (by rcases hb with rfl | rfl | rfl <;> decide))

/-- An argument's buffer at @main's end is the launched one: followed back through the closing relu, the host
    operations behind the region, the region (which changes the result array only), the host operations before it. -/
theorem W4_arg (b : Ref sig .tc) (hb : b = main_arg0 ∨ b = main_arg1 ∨ b = main_arg2) (c : Dev nD) :
    W4 m out c b = m ((c : Thread nD τ).loc b) :=
  calc W4 m out c b
    _ = W3 m out c b :=
        StableHlo.after_of_forall_not_mem (b := Proc.devRef .tc b) _ _ (hostOps1_1_keeps_args b hb)
    _ = W2 m out c b :=
        StableHlo.after_of_forall_not_mem (b := Proc.devRef .tc b) _ _ (hostOps1_keeps_args b hb)
    _ = W1 m c b :=
        Function.update_of_ne (StableHlo.devRef_ne_of_ne (by rcases hb with rfl | rfl | rfl <;> decide)) _ _
    _ = W0 m c b :=
        StableHlo.after_of_forall_not_mem (b := Proc.devRef .tc b) _ _ (hostOps0_keeps_args b hb)
    _ = m ((c : Thread nD τ).loc b) := rfl

theorem W4_arg0 (c : Dev nD) : W4 m out c main_arg0 = m ((c : Thread nD τ).loc main_arg0) :=
  W4_arg m out main_arg0 (.inl rfl) c
theorem W4_arg1 (c : Dev nD) : W4 m out c main_arg1 = m ((c : Thread nD τ).loc main_arg1) :=
  W4_arg m out main_arg1 (.inr (.inl rfl)) c
theorem W4_arg2 (c : Dev nD) : W4 m out c main_arg2 = m ((c : Thread nD τ).loc main_arg2) :=
  W4_arg m out main_arg2 (.inr (.inr rfl)) c

end Cert.KernelIdeal.Hand

end
-- ==== Proof.KI.Final.lean ====
/-
  The result array after the region. Its one window's block is the whole 8×128 array at every grid point, written back
  once, after the last point; so the array ends holding what the body left at the last point: the accumulator after all
  64 steps.
-/
import proofs.«126969_j66666482368607_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The grid has 64 points, so 63 is one of them. -/
theorem h63 : 63 < cfg0.N := lt_of_lt_of_eq (by decide : 63 < 64) N_0.symm

/-- The last grid point. -/
private abbrev tLast : Fin cfg0.N := ⟨63, h63⟩

/-- The geometry of the result's window, decided over the 64 points: its block index is zero on both axes and its block
    is never cut, so at every point the block is the whole 8×128 array. -/
private theorem geom6 : ∀ (t : Fin cfg0.N) (a : Fin 2),
    win0_6.index t a = 0 ∧ win0_6.xsize (grid0.coords t) a = S8x128.size a :=
  (by decide +kernel : ∀ (t : Fin grid0.N) (a : Fin 2),
    win0_6.index t a = 0 ∧ win0_6.xsize (grid0.coords t) a = S8x128.size a)

/-- The one write-back (a point that writes back is the last) writes the accumulator after the last step: the block is
    read through zero offsets and the array's own sizes, so reading the array through it gives the array. -/
private theorem flushed6_eq (c : Dev nD) (t : Fin cfg0.N) (hf : (cfg0.win 6).flush t = true) :
    (dat0 V c).flushed 6 t = ((cfg0.win 6).blk t).view.read (Elt F) (accAt V c 63 h63) := by
  have hN : cfg0.N = 64 := N_0
  have ht : t.val = 63 := by have := (flush0_6 t).mp hf; have := t.isLt; omega
  obtain rfl : t = tLast := Fin.ext ht
  show (cfg0.win 6).cut (grid0.coords tLast) ((dat0 V c).after 6 tLast) = _
  rw [after0_6]
  have hz' : (fun a => win0_6.index tLast a * main_v43.ty.shape.size a) = fun _ => 0 :=
    funext fun a => (congrArg (· * main_v43.ty.shape.size a) (geom6 tLast a).1).trans (Nat.zero_mul _)
  exact (Memref.read_access_unit_zero (Elt F) main_v43 hz' (fun a => by rw [congrFun hz' a]; simp)
    (accAt V c 63 h63)).symm

/-- Every index of the array lies in the last point's block. -/
private theorem mem_blk6 (i : S8x128.Idx) : i ∈ ((cfg0.win 6).blk tLast).view.set := by
  show i ∈ ((View.whole main_v43).slice (win0_6.rect tLast)).set
  rw [View.set_slice_whole, Rect.mem_set_unit]
  intro a
  obtain ⟨h0, h1⟩ := geom6 tLast a
  have hi : (i a).val < S8x128.size a := (i a).isLt
  show win0_6.index tLast a * win0_6.size a ≤ (i a).val
    ∧ (i a).val < win0_6.index tLast a * win0_6.size a + win0_6.xsize (grid0.coords tLast) a
  rw [h0, h1, Nat.zero_mul]
  omega

/-- The result array after the region holds the accumulator after the last step: the last point's block covers the array. -/
theorem arrAt_out (c : Dev nD) : (dat0 V c).arrAt 6 cfg0.N = accAt V c 63 h63 :=
  (dat0 V c).arrAt_eq_of_cover 6 (accAt V c 63 h63) (flushed6_eq V c) fun i =>
    ⟨tLast, (flush0_6 tLast).mpr rfl, mem_blk6 i⟩

end Cert.KernelIdeal.Hand

end
-- ==== Proof.Val.Spec.lean ====
/-
  The mathematics both programs compute, stated once over plain index types.

  From a batch of 4096 unit-normalised anchors `na` and negatives `nn` (rows of length 1024), integer labels `lab`
  and negative labels `neg`: the cosine distance of anchor `i` to row `j` of `y` is `1 - ∑ k, na i k * y j k`;
  a pair `(i, j)` counts only above the diagonal (`i < j`); it is a positive pair when the two labels agree and a
  negative pair otherwise, once against the anchors' own labels (distance to anchor `j`) and once against the negatives'
  labels (distance to negative `j`).  That gives four classes of pairs; for each class the sum of its distances and the
  number of its pairs.  The loss adds the per-example distances `dap`, `dan` to the positive and negative sums, the
  batch size to the counts, and is `max (pos_sum / pos_cnt - neg_sum / neg_cnt + margin) 0`.
-/
import Idealize.ShloMosaic.PureOps.Ideal
import Idealize.ShloMosaic.PureOps.Ideal.Laws
import Idealize.ShloMosaic.Lib.ValueIdx

noncomputable section

open scoped BigOperators

namespace Cert.PairSpec

open Idealize.ShloMosaic Idealize.ShloMosaic.ValueIdx

/-- A batch of rows: 4096 × 1024. -/
abbrev SBD : Shape := ⟨2, ![4096, 1024]⟩
/-- One entry per example. -/
abbrev SB : Shape := ⟨1, ![4096]⟩

/-- The float words the programs spell: they are kept as words wherever both sides spell the same one. -/
abbrev one : EReal := Ideal.ofBits .f32 0x3F800000#32
abbrev zero : EReal := Ideal.ofBits .f32 0x00000000#32
abbrev margin : EReal := Ideal.ofBits .f32 0x40A00000#32

variable (na nn : SBD.Idx → EReal) (lab neg : SB.Idx → BitVec 32)

/-- The cosine distance of row `i` of `x` to row `j` of `y`: one minus their inner product. -/
def dist (x y : SBD.Idx → EReal) (i j : Fin 4096) : EReal := one - ∑ k : Fin 1024, x (ix2 i k) * y (ix2 j k)

/-- The pair `(i, j)` lies strictly above the diagonal. -/
def upper (i j : Fin 4096) : Prop := i.val < j.val
instance (i j : Fin 4096) : Decidable (upper i j) := by unfold upper; infer_instance

/-- Example `i`'s label in `a` is example `j`'s label in `b`. -/
def same (a b : SB.Idx → BitVec 32) (i j : Fin 4096) : Prop := a (ix1 i) = b (ix1 j)
instance (a b : SB.Idx → BitVec 32) (i j : Fin 4096) : Decidable (same a b i j) := by unfold same; infer_instance

/-- The four classes of pairs, in the order the accumulator's rows hold them (two rows each: sum, count):
    0 anchor–anchor positive, 1 anchor–anchor negative, 2 anchor–negative positive, 3 anchor–negative negative. -/
def cls : Fin 4 → Fin 4096 → Fin 4096 → Prop
  | 0, i, j => upper i j ∧ same lab lab i j
  | 1, i, j => upper i j ∧ ¬ same lab lab i j
  | 2, i, j => upper i j ∧ same lab neg i j
  | 3, i, j => upper i j ∧ ¬ same lab neg i j
instance (r : Fin 4) (i j : Fin 4096) : Decidable (cls lab neg r i j) := by
  match r with
  | 0 => unfold cls; infer_instance
  | 1 => unfold cls; infer_instance
  | 2 => unfold cls; infer_instance
  | 3 => unfold cls; infer_instance

/-- The distance a class sums: to anchor `j` for the anchor–anchor classes, to negative `j` for the others. -/
def distOf : Fin 4 → Fin 4096 → Fin 4096 → EReal
  | 0, i, j => dist na na i j
  | 1, i, j => dist na na i j
  | 2, i, j => dist na nn i j
  | 3, i, j => dist na nn i j

/-- The sum of class `r`'s distances over all pairs (a pair outside the class contributes the zero word). -/
def msum (r : Fin 4) : EReal := ∑ i : Fin 4096, ∑ j : Fin 4096, if cls lab neg r i j then distOf na nn r i j else zero

/-- The number of class `r`'s pairs, as a real. -/
def mcnt (r : Fin 4) : EReal := ∑ i : Fin 4096, ∑ j : Fin 4096, if cls lab neg r i j then (1 : EReal) else 0

/-- What row `r` of the accumulator holds after the whole grid: rows 0,2,4,6 the four sums, rows 1,3,5,7 the four counts. -/
def accRow : Fin 8 → EReal
  | 0 => msum na nn lab neg 0
  | 1 => mcnt lab neg 0
  | 2 => msum na nn lab neg 1
  | 3 => mcnt lab neg 1
  | 4 => msum na nn lab neg 2
  | 5 => mcnt lab neg 2
  | 6 => msum na nn lab neg 3
  | 7 => mcnt lab neg 3

/-- The loss from the two per-example sums `sp = ∑ d_ap`, `sn = ∑ d_an`, the batch size `b` as the program spells it,
    and the eight pair quantities `a`: positive pairs are classes 0 and 2, negative pairs classes 1 and 3. -/
def loss (sp sn b : EReal) (a : Fin 8 → EReal) : EReal :=
  max (Ideal.div ((sp + a 0) + a 4) ((b + a 1) + a 5) - Ideal.div ((sn + a 2) + a 6) ((b + a 3) + a 7) + margin) zero

end Cert.PairSpec

end
-- ==== Proof.Val.TileSpec.lean ====
/-
  One grid point's contribution, stated over plain index types. The point `(gi, gj)` of the 8×8 grid sees anchors
  `gi·512 … gi·512+511` as rows (block `x0`, labels `l3`) and anchors / negatives `gj·512 … gj·512+511` as columns
  (blocks `x1`, `x2`, labels `l4`, negative labels `l5`); pair `(p, q)` of the tile is pair `(gi·512+p, gj·512+q)` of
  the batch.  `tileRow` is what the point adds to each of the accumulator's eight rows: per class of pairs the sum of the
  tile's distances and the number of its pairs.
-/
import proofs.«126969_j66666482368607_1_alg».proof.Proof.Val.Spec

noncomputable section

open scoped BigOperators

namespace Cert.PairSpec

open Idealize.ShloMosaic Idealize.ShloMosaic.ValueIdx

/-- A block of 512 rows. -/
abbrev STD : Shape := ⟨2, ![512, 1024]⟩
/-- A column of 512 labels, and a row of 512 labels. -/
abbrev SC : Shape := ⟨2, ![512, 1]⟩
abbrev SR : Shape := ⟨2, ![1, 512]⟩

variable (gi gj : Fin 8) (x0 x1 x2 : STD.Idx → EReal) (l3 : SC.Idx → BitVec 32) (l4 l5 : SR.Idx → BitVec 32)

/-- The distance of the tile's row `p` (in `x`) to its column `q` (in `y`). -/
def tdist (x y : STD.Idx → EReal) (p q : Fin 512) : EReal := one - ∑ k : Fin 1024, x (ix2 p k) * y (ix2 q k)

/-- The tile's pair `(p, q)` lies strictly above the batch's diagonal. -/
def tupper (p q : Fin 512) : Prop := gi.val * 512 + p.val < gj.val * 512 + q.val
instance (p q : Fin 512) : Decidable (tupper gi gj p q) := by unfold tupper; infer_instance

/-- Row `p`'s label is column `q`'s label in `b`. -/
def tsame (b : SR.Idx → BitVec 32) (p q : Fin 512) : Prop := l3 (ix2 p 0) = b (ix2 0 q)
instance (b : SR.Idx → BitVec 32) (p q : Fin 512) : Decidable (tsame l3 b p q) := by unfold tsame; infer_instance

/-- The four classes of pairs within the tile (the batch's classes `cls` read at the tile's pairs). -/
def tcls : Fin 4 → Fin 512 → Fin 512 → Prop
  | 0, p, q => tupper gi gj p q ∧ tsame l3 l4 p q
  | 1, p, q => tupper gi gj p q ∧ ¬ tsame l3 l4 p q
  | 2, p, q => tupper gi gj p q ∧ tsame l3 l5 p q
  | 3, p, q => tupper gi gj p q ∧ ¬ tsame l3 l5 p q
instance (r : Fin 4) (p q : Fin 512) : Decidable (tcls gi gj l3 l4 l5 r p q) := by
  match r with
  | 0 => unfold tcls; infer_instance
  | 1 => unfold tcls; infer_instance
  | 2 => unfold tcls; infer_instance
  | 3 => unfold tcls; infer_instance

/-- The distance a class sums within the tile. -/
def tdistOf : Fin 4 → Fin 512 → Fin 512 → EReal
  | 0, p, q => tdist x0 x1 p q
  | 1, p, q => tdist x0 x1 p q
  | 2, p, q => tdist x0 x2 p q
  | 3, p, q => tdist x0 x2 p q

def tsum (r : Fin 4) : EReal := ∑ p : Fin 512, ∑ q : Fin 512, if tcls gi gj l3 l4 l5 r p q then tdistOf x0 x1 x2 r p q else zero
def tcnt (r : Fin 4) : EReal := ∑ p : Fin 512, ∑ q : Fin 512, if tcls gi gj l3 l4 l5 r p q then (1 : EReal) else 0

/-- What the point adds to row `r` of the accumulator. -/
def tileRow : Fin 8 → EReal
  | 0 => tsum gi gj x0 x1 x2 l3 l4 l5 0
  | 1 => tcnt gi gj l3 l4 l5 0
  | 2 => tsum gi gj x0 x1 x2 l3 l4 l5 1
  | 3 => tcnt gi gj l3 l4 l5 1
  | 4 => tsum gi gj x0 x1 x2 l3 l4 l5 2
  | 5 => tcnt gi gj l3 l4 l5 2
  | 6 => tsum gi gj x0 x1 x2 l3 l4 l5 3
  | 7 => tcnt gi gj l3 l4 l5 3

end Cert.PairSpec

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.Val.Step.lean ====
/-
  One step of the accumulator read at an index, at the ideal instance: row `r`, lane `l` of the block after the step is what
  it held before plus the tile's contribution to row `r` (the same number in every lane: the eight row values are
  broadcast along the 128 lanes).
-/
import proofs.«126969_j66666482368607_1_alg».proof.Proof.KI.Acc
import proofs.«126969_j66666482368607_1_alg».proof.Proof.Val.TileSpec
import proofs.«126969_j66666482368607_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.PairSpec Idealize.ShloMosaic.ValueIdx
open scoped BigOperators
variable {F : FTy → Type} [FloatOps F]

local notation "𝕄" => MT nD τ sig Unit (Elt F) ℕ (UR sig nD τ) ℕ

/-! ## One-bit words

A mask is a one-bit word; each lemma below says which proposition a word's being `1` stands for, and what a select
and a count make of such a word. -/

/-- A select on a bit that stands for `P` is the `if` on `P`. -/
private theorem select_of_iff {α : Type} (c : BitVec 1) (P : Prop) [Decidable P] (h : c = 1#1 ↔ P) (x y : α) :
    Scalar.select c x y = if P then x else y := by
  unfold Scalar.select
  by_cases hP : P
  · rw [if_pos hP]; exact if_pos (h.mpr hP)
  · rw [if_neg hP]; exact if_neg (fun hc => hP (h.mp hc))

/-- The bit `1`, widened to 32 bits and read as a signed integer, is the real `1`; the bit `0` is `0`. -/
private theorem count_one : FloatOps.sitofp (F := Ideal) .f32 ((1#1).setWidth 32) = (1 : EReal) := by
  show ((((1#1).setWidth 32 : BitVec 32).toInt : ℝ) : EReal) = 1
  have e : ((1#1).setWidth 32 : BitVec 32).toInt = 1 := by decide
  rw [e]; simp
private theorem count_zero : FloatOps.sitofp (F := Ideal) .f32 ((0#1).setWidth 32) = (0 : EReal) := by
  show ((((0#1).setWidth 32 : BitVec 32).toInt : ℝ) : EReal) = 0
  have e : ((0#1).setWidth 32 : BitVec 32).toInt = 0 := by decide
  rw [e]; simp

/-- The count of a bit that stands for `P`: one when `P` holds, zero otherwise. -/
private theorem count_of_iff (c : BitVec 1) (P : Prop) [Decidable P] (h : c = 1#1 ↔ P) :
    FloatOps.sitofp (F := Ideal) .f32 (c.setWidth 32) = if P then (1 : EReal) else 0 := by
  rcases BitVec.eq_zero_or_eq_one c with rfl | rfl
  · rw [if_neg (fun hp => absurd (h.mpr hp) (by decide)), count_zero]
  · rw [if_pos (h.mp rfl), count_one]

/-- The conjunction of two bits. -/
private theorem andi_iff (x y : BitVec 1) : IntOp.andi x y = 1#1 ↔ (x = 1#1 ∧ y = 1#1) := by
  rcases BitVec.eq_zero_or_eq_one x with rfl | rfl <;> rcases BitVec.eq_zero_or_eq_one y with rfl | rfl <;> decide

/-- A bit flipped by `xor` with `1` is its negation. -/
private theorem xori_one_iff (x : BitVec 1) : IntOp.xori x 1#1 = 1#1 ↔ ¬ x = 1#1 := by
  rcases BitVec.eq_zero_or_eq_one x with rfl | rfl <;> decide

/-! ## The position test

A tile's row `p` is row `A·512 + p` of the batch and its column `q` is column `B·512 + q`; with `A, B < 8` and
`p, q < 512` both numbers are below 4096, so the 32-bit words that hold them do not wrap and compare signed as the
numbers do. -/

/-- The word `A·512 + p` is the number. -/
private theorem pos_toNat (A p : ℕ) (hA : A < 8) (hp : p < 512) :
    (IntOp.addi (Scalar.muli (BitVec.ofNat 32 A) 512#32) (BitVec.ofNat 32 p)).toNat = A * 512 + p := by
  show (BitVec.ofNat 32 A * 512#32 + BitVec.ofNat 32 p).toNat = _
  rw [BitVec.toNat_add, BitVec.toNat_mul, BitVec.toNat_ofNat, BitVec.toNat_ofNat, BitVec.toNat_ofNat]
  omega

/-- "Column position above row position", as words, is the same of the numbers. -/
private theorem upper_word_iff (A B p q : ℕ) (hA : A < 8) (hB : B < 8) (hp : p < 512) (hq : q < 512) :
    IntOp.cmpi .sgt (IntOp.addi (Scalar.muli (BitVec.ofNat 32 B) 512#32) (BitVec.ofNat 32 q))
      (IntOp.addi (Scalar.muli (BitVec.ofNat 32 A) 512#32) (BitVec.ofNat 32 p)) = 1#1 ↔ A * 512 + p < B * 512 + q := by
  have ea := pos_toNat A p hA hp
  have eb := pos_toNat B q hB hq
  rw [Idealize.ShloMosaic.StableHlo.Predicate.sgt_iff_toNat (by rw [eb]; omega) (by rw [ea]; omega), ea, eb]

/-- The row counter of a 512×512 tile reads the row, the column counter the column. -/
private theorem iota_row (p q : Fin 512) :
    iota .tc S512x512 32 [0] iota_S512x512_d0_w32 (ix2 p q) = BitVec.ofNat 32 p.val :=
  iota_single_apply .tc S512x512 32 0 iota_S512x512_d0_w32 (ix2 p q)
private theorem iota_col (p q : Fin 512) :
    iota .tc S512x512 32 [1] iota_S512x512_d1_w32 (ix2 p q) = BitVec.ofNat 32 q.val :=
  iota_single_apply .tc S512x512 32 1 iota_S512x512_d1_w32 (ix2 p q)

/-! ## The masks at a pair

Each mask of the body, read at the tile's pair `(p, q)`, is a bit that stands for one of the tile's propositions. -/

/-- The position mask stands for "the pair lies above the batch's diagonal". -/
private theorem upper_iff (i : grid0.Coords) (a b : Fin 8) (ha : (i 0).val = a.val) (hb : (i 1).val = b.val)
    (p q : Fin 512) : k0_pay6 i (ix2 p q) = 1#1 ↔ tupper a b p q := by
  unfold k0_pay6
  show IntOp.cmpi .sgt
      (IntOp.addi (Scalar.muli (BitVec.ofNat 32 (i 1).val) 512#32) (iota .tc S512x512 32 [1] iota_S512x512_d1_w32 (ix2 p q)))
      (IntOp.addi (Scalar.muli (BitVec.ofNat 32 (i 0).val) 512#32) (iota .tc S512x512 32 [0] iota_S512x512_d0_w32 (ix2 p q)))
        = 1#1 ↔ _
  rw [iota_row, iota_col, ha, hb]
  exact upper_word_iff a.val b.val p.val q.val a.isLt b.isLt p.isLt q.isLt

/-- The column of row labels, spread along the columns, reads row `p`'s label at every column. -/
private theorem rowLab_apply (x3 : Vec Ideal S512x1 .i32) (p q : Fin 512) :
    k0_pay9 (F := Ideal) x3 (ix2 p q) = x3 (ix2 p (0 : Fin 1)) := by
  unfold k0_pay9 k0_pay7
  exact (Cert.LibKeepdims.bcast_col _ broadcasts_S512x1_S512x512 p q).trans
    (congrFun (shapeCast_self x3 shapeCasts_S512x1_S512x1) _)

/-- The row of column labels, spread down the rows, reads column `q`'s label at every row. -/
private theorem colLab_apply (x4 : Vec Ideal S1x512 .i32) (p q : Fin 512) :
    k0_pay10 (F := Ideal) x4 (ix2 p q) = x4 (ix2 (0 : Fin 1) q) := by
  unfold k0_pay10
  exact (broadcastTo_1b_ab_apply _ broadcasts_S1x512_S512x512 p q).trans
    (congrFun (shapeCast_self x4 shapeCasts_S1x512_S1x512) _)

/-- The label comparison stands for "row `p`'s label is column `q`'s". -/
private theorem same_iff (x3 : Vec Ideal S512x1 .i32) (x4 : Vec Ideal S1x512 .i32) (p q : Fin 512) :
    k0_pay11 (k0_pay9 (F := Ideal) x3) (k0_pay10 (F := Ideal) x4) (ix2 p q) = 1#1 ↔ tsame x3 x4 p q := by
  unfold k0_pay11
  show IntOp.cmpi .eq (k0_pay9 (F := Ideal) x3 (ix2 p q)) (k0_pay10 (F := Ideal) x4 (ix2 p q)) = 1#1 ↔ _
  rw [rowLab_apply, colLab_apply]
  exact Idealize.ShloMosaic.StableHlo.Predicate.cmpi_eq_iff

/-- The comparison against the negatives' labels is the same comparison, written over the blocks before their spreading. -/
private theorem sameNeg_iff (x3 : Vec Ideal S512x1 .i32) (x5 : Vec Ideal S1x512 .i32) (p q : Fin 512) :
    k0_pay12 (k0_pay7 (F := Ideal) x3) (k0_pay8 (F := Ideal) x5) (ix2 p q) = 1#1 ↔ tsame x3 x5 p q :=
  same_iff x3 x5 p q

section Classes
variable (i : grid0.Coords) (a b : Fin 8) (ha : (i 0).val = a.val) (hb : (i 1).val = b.val)
  (x3 : Vec Ideal S512x1 .i32) (x4 x5 : Vec Ideal S1x512 .i32) (p q : Fin 512)
include ha hb

/-- Class 0: above the diagonal, anchors' labels agree. -/
private theorem cls0_iff :
    k0_pay13 (k0_pay6 i) (k0_pay9 (F := Ideal) x3) (k0_pay10 (F := Ideal) x4) (ix2 p q) = 1#1 ↔ tcls a b x3 x4 x5 0 p q := by
  unfold k0_pay13
  show IntOp.andi (k0_pay6 i (ix2 p q)) (k0_pay11 (k0_pay9 (F := Ideal) x3) (k0_pay10 (F := Ideal) x4) (ix2 p q)) = 1#1 ↔ _
  rw [andi_iff, upper_iff i a b ha hb, same_iff]
  exact Iff.rfl

/-- Class 1: above the diagonal, anchors' labels differ. -/
private theorem cls1_iff :
    k0_pay14 (k0_pay6 i) (k0_pay9 (F := Ideal) x3) (k0_pay10 (F := Ideal) x4) (ix2 p q) = 1#1 ↔ tcls a b x3 x4 x5 1 p q := by
  unfold k0_pay14
  show IntOp.andi (k0_pay6 i (ix2 p q))
    (IntOp.xori (k0_pay11 (k0_pay9 (F := Ideal) x3) (k0_pay10 (F := Ideal) x4) (ix2 p q)) 1#1) = 1#1 ↔ _
  rw [andi_iff, xori_one_iff, upper_iff i a b ha hb, same_iff]
  exact Iff.rfl

/-- Class 2: above the diagonal, the anchor's label is the negative's. -/
private theorem cls2_iff :
    k0_pay15 (k0_pay6 i) (k0_pay7 (F := Ideal) x3) (k0_pay8 (F := Ideal) x5) (ix2 p q) = 1#1 ↔ tcls a b x3 x4 x5 2 p q := by
  unfold k0_pay15
  show IntOp.andi (k0_pay6 i (ix2 p q)) (k0_pay12 (k0_pay7 (F := Ideal) x3) (k0_pay8 (F := Ideal) x5) (ix2 p q)) = 1#1 ↔ _
  rw [andi_iff, upper_iff i a b ha hb, sameNeg_iff]
  exact Iff.rfl

/-- Class 3: above the diagonal, the anchor's label is not the negative's. -/
private theorem cls3_iff :
    k0_pay16 (k0_pay6 i) (k0_pay7 (F := Ideal) x3) (k0_pay8 (F := Ideal) x5) (ix2 p q) = 1#1 ↔ tcls a b x3 x4 x5 3 p q := by
  unfold k0_pay16
  show IntOp.andi (k0_pay6 i (ix2 p q))
    (IntOp.xori (k0_pay12 (k0_pay7 (F := Ideal) x3) (k0_pay8 (F := Ideal) x5) (ix2 p q)) 1#1) = 1#1 ↔ _
  rw [andi_iff, xori_one_iff, upper_iff i a b ha hb, sameNeg_iff]
  exact Iff.rfl

end Classes

/-! ## The distances at a pair

The product of a block of rows with a block of rows transposed, taken into the zero block: at `(p, q)` it is the inner
product of row `p` of the first block with row `q` of the second. The contraction's one axis is re-indexed by its
coordinate; the operands' indices are `(p, k)` and `(k, q)`, and the transposed block reads `(k, q)` at `(q, k)`. -/

private theorem lhs_axis0 (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
private theorem lhs_axis1 (j : S512x512.Idx) (k : dot_S512x1024_S1024x512_S512x512_1_0_0_1_n_n.contr.Idx) :
    (dot_S512x1024_S1024x512_S512x512_1_0_0_1_n_n.lhsIdx j k 1).val = (k ⟨0, by decide⟩).val :=
  dot_S512x1024_S1024x512_S512x512_1_0_0_1_n_n.lhsIdx_val_of_single rfl j k
private theorem rhs_axis0 (j : S512x512.Idx) (k : dot_S512x1024_S1024x512_S512x512_1_0_0_1_n_n.contr.Idx) :
    (dot_S512x1024_S1024x512_S512x512_1_0_0_1_n_n.rhsIdx j k 0).val = (k ⟨0, by decide⟩).val :=
  dot_S512x1024_S1024x512_S512x512_1_0_0_1_n_n.rhsIdx_val_of_single rfl j k
private theorem rhs_axis1 (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The block product at `(p, q)`. -/
private theorem gram_apply (x y : FVec Ideal S512x1024 .bf16) (p q : Fin 512) :
    matmul dot_S512x1024_S1024x512_S512x512_1_0_0_1_n_n none x
      (transpose S1024x512 [1, 0] y transposes_S512x1024_p1_0_S1024x512)
      (constant (F := Ideal) S512x512 .f32 0x00000000#32) (ix2 p q)
      = ∑ k : Fin 1024, (x (ix2 p k) : EReal) * y (ix2 q k) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]
  exact congrArg (fun t : EReal => (x (ix2 p k) : EReal) * t) (transpose_ix2_apply y transposes_S512x1024_p1_0_S1024x512 k q)

/-- The anchor–anchor distance payload at `(p, q)`: one minus the inner product of rows `p` and `q`. -/
private theorem dist_apply (x y : FVec Ideal S512x1024 .bf16) (p q : Fin 512) :
    k0_pay4 (F := Ideal) x y (ix2 p q) = tdist x y p q := by
  unfold k0_pay4 k0_pay3
  show Ideal.ofBits .f32 0x3F800000#32
      - matmul dot_S512x1024_S1024x512_S512x512_1_0_0_1_n_n none (shapeCast S512x1024 x shapeCasts_S512x1024_S512x1024)
          (transpose S1024x512 [1, 0] (shapeCast S512x1024 y shapeCasts_S512x1024_S512x1024) transposes_S512x1024_p1_0_S1024x512)
          (constant (F := Ideal) S512x512 .f32 0x00000000#32) (ix2 p q) = _
  rw [shapeCast_self x, shapeCast_self y, gram_apply]
  rfl

/-- The anchor–negative distance payload is the same term over the negatives' block. -/
private theorem distNeg_apply (x y : FVec Ideal S512x1024 .bf16) (p q : Fin 512) :
    k0_pay5 (F := Ideal) x y (ix2 p q) = tdist x y p q :=
  dist_apply x y p q

/-! ## The sum over a whole tile

A 512×512 block viewed as 1×512×512 and summed over its two tile axes into a one-entry vector: every entry of the view
is an entry of the block, once, so the sum is the double sum over rows and columns. The accumulator is the zero word. -/

private theorem tile_sum (v : FVec Ideal S512x512 .f32) (j : S1.Idx) :
    multiReduction (F := Ideal) .add [1, 2] S1 (shapeCast S1x512x512 v shapeCasts_S512x512_S1x512x512) 0x00000000#32
      reduces_S1x512x512_S1 (.inl rfl) rfl j = ∑ p : Fin 512, ∑ q : Fin 512, v (ix2 p q) := by
  refine (Ideal.multiReduction_add_total _ 0x00000000#32 reduces_S1x512x512_S1 (fun b => ?_) (.inl rfl) rfl j).trans ?_
  · match b with
    | ⟨0, _⟩ => rfl
  · exact (Equiv.sum_comp (Shape.reshapeEquiv shapeCasts_S512x512_S1x512x512) v).trans (sum_idx2 v)

/-- The tile's sum, passed through the one-entry vector's 1×1×1 view and its one scalar into a 1×1 block. -/
private theorem piece_sum (v : FVec Ideal S512x512 .f32) (u : S1x1.Idx) :
    broadcast S1x1 (extractAt ![0, 0, 0] (shapeCast S1x1x1
      (multiReduction (F := Ideal) .add [1, 2] S1 (shapeCast S1x512x512 v shapeCasts_S512x512_S1x512x512) 0x00000000#32
        reduces_S1x512x512_S1 (.inl rfl) rfl) shapeCasts_S1_S1x1x1) inpos_S1x1x1_p0_0_0) u
      = ∑ p : Fin 512, ∑ q : Fin 512, v (ix2 p q) :=
  tile_sum v _

/-! ## The eight rows

Per class of pairs the body sums, over the whole tile, the distance where the class's mask is set and the zero word
elsewhere, and the mask itself read as 1 or 0. Rows 0 to 4 arrive at the last stage as 1×1 blocks; rows 5, 6 and 7
the last stage finishes itself, from the third class's count as a one-entry vector, and from the fourth class's mask and
the anchor–negative distances. -/

section Rows
variable (i : grid0.Coords) (a b : Fin 8) (ha : (i 0).val = a.val) (hb : (i 1).val = b.val)
  (x0 x1 x2 : FVec Ideal S512x1024 .bf16) (x3 : Vec Ideal S512x1 .i32) (x4 x5 : Vec Ideal S1x512 .i32)
include ha hb

/-- Row 0: the sum of the anchor–anchor distances over the pairs with equal labels. -/
private theorem row0 (u : S1x1.Idx) :
    k0_pay17 (k0_pay4 (F := Ideal) x0 x1) (k0_pay6 i) (k0_pay9 (F := Ideal) x3) (k0_pay10 (F := Ideal) x4) u = Cert.PairSpec.tsum a b x0 x1 x2 x3 x4 x5 0 := by
  unfold k0_pay17
  refine (piece_sum _ u).trans ?_
  unfold Cert.PairSpec.tsum
  refine Finset.sum_congr rfl fun p _ => Finset.sum_congr rfl fun q _ => ?_
  show Scalar.select (k0_pay13 (k0_pay6 i) (k0_pay9 (F := Ideal) x3) (k0_pay10 (F := Ideal) x4) (ix2 p q))
      (k0_pay4 (F := Ideal) x0 x1 (ix2 p q)) (Ideal.ofBits .f32 0x00000000#32) = _
  rw [select_of_iff _ _ (cls0_iff i a b ha hb x3 x4 x5 p q), dist_apply]
  rfl

/-- Row 1: the number of those pairs. -/
private theorem row1 (u : S1x1.Idx) :
    k0_pay18 (F := Ideal) (k0_pay6 i) (k0_pay9 (F := Ideal) x3) (k0_pay10 (F := Ideal) x4) u = tcnt a b x3 x4 x5 0 := by
  unfold k0_pay18
  refine (piece_sum _ u).trans ?_
  unfold tcnt
  refine Finset.sum_congr rfl fun p _ => Finset.sum_congr rfl fun q _ => ?_
  show FloatOps.sitofp (F := Ideal) .f32 ((k0_pay13 (k0_pay6 i) (k0_pay9 (F := Ideal) x3) (k0_pay10 (F := Ideal) x4) (ix2 p q)).setWidth 32) = _
  exact count_of_iff _ _ (cls0_iff i a b ha hb x3 x4 x5 p q)

/-- Row 2: the sum of the anchor–anchor distances over the pairs with different labels. -/
private theorem row2 (u : S1x1.Idx) :
    k0_pay19 (k0_pay4 (F := Ideal) x0 x1) (k0_pay6 i) (k0_pay9 (F := Ideal) x3) (k0_pay10 (F := Ideal) x4) u = Cert.PairSpec.tsum a b x0 x1 x2 x3 x4 x5 1 := by
  unfold k0_pay19
  refine (piece_sum _ u).trans ?_
  unfold Cert.PairSpec.tsum
  refine Finset.sum_congr rfl fun p _ => Finset.sum_congr rfl fun q _ => ?_
  show Scalar.select (k0_pay14 (k0_pay6 i) (k0_pay9 (F := Ideal) x3) (k0_pay10 (F := Ideal) x4) (ix2 p q))
      (k0_pay4 (F := Ideal) x0 x1 (ix2 p q)) (Ideal.ofBits .f32 0x00000000#32) = _
  rw [select_of_iff _ _ (cls1_iff i a b ha hb x3 x4 x5 p q), dist_apply]
  rfl

/-- Row 3: the number of those pairs. -/
private theorem row3 (u : S1x1.Idx) :
    k0_pay20 (F := Ideal) (k0_pay6 i) (k0_pay9 (F := Ideal) x3) (k0_pay10 (F := Ideal) x4) u = tcnt a b x3 x4 x5 1 := by
  unfold k0_pay20
  refine (piece_sum _ u).trans ?_
  unfold tcnt
  refine Finset.sum_congr rfl fun p _ => Finset.sum_congr rfl fun q _ => ?_
  show FloatOps.sitofp (F := Ideal) .f32 ((k0_pay14 (k0_pay6 i) (k0_pay9 (F := Ideal) x3) (k0_pay10 (F := Ideal) x4) (ix2 p q)).setWidth 32) = _
  exact count_of_iff _ _ (cls1_iff i a b ha hb x3 x4 x5 p q)

/-- Row 4: the sum of the anchor–negative distances over the pairs whose anchor's label is the negative's. -/
private theorem row4 (u : S1x1.Idx) :
    k0_pay21 (k0_pay5 (F := Ideal) x0 x2) (k0_pay6 i) (k0_pay7 (F := Ideal) x3) (k0_pay8 (F := Ideal) x5) u = Cert.PairSpec.tsum a b x0 x1 x2 x3 x4 x5 2 := by
  unfold k0_pay21
  refine (piece_sum _ u).trans ?_
  unfold Cert.PairSpec.tsum
  refine Finset.sum_congr rfl fun p _ => Finset.sum_congr rfl fun q _ => ?_
  show Scalar.select (k0_pay15 (k0_pay6 i) (k0_pay7 (F := Ideal) x3) (k0_pay8 (F := Ideal) x5) (ix2 p q))
      (k0_pay5 (F := Ideal) x0 x2 (ix2 p q)) (Ideal.ofBits .f32 0x00000000#32) = _
  rw [select_of_iff _ _ (cls2_iff i a b ha hb x3 x4 x5 p q), distNeg_apply]
  rfl

/-- Row 5: the number of those pairs; it arrives as a one-entry vector and the last stage makes the 1×1 block of it. -/
private theorem row5 (u : S1x1.Idx) :
    broadcast S1x1 (extractAt ![0, 0, 0] (shapeCast S1x1x1 (k0_pay22 (F := Ideal) (k0_pay6 i) (k0_pay7 (F := Ideal) x3) (k0_pay8 (F := Ideal) x5))
      shapeCasts_S1_S1x1x1) inpos_S1x1x1_p0_0_0) u = tcnt a b x3 x4 x5 2 := by
  unfold k0_pay22
  refine (piece_sum _ u).trans ?_
  unfold tcnt
  refine Finset.sum_congr rfl fun p _ => Finset.sum_congr rfl fun q _ => ?_
  show FloatOps.sitofp (F := Ideal) .f32 ((k0_pay15 (k0_pay6 i) (k0_pay7 (F := Ideal) x3) (k0_pay8 (F := Ideal) x5) (ix2 p q)).setWidth 32) = _
  exact count_of_iff _ _ (cls2_iff i a b ha hb x3 x4 x5 p q)

/-- Row 6: the sum of the anchor–negative distances over the pairs whose anchor's label is not the negative's. -/
private theorem row6 (u : S1x1.Idx) :
    broadcast S1x1 (extractAt ![0, 0, 0] (shapeCast S1x1x1
      (multiReduction (F := Ideal) .add [1, 2] S1 (shapeCast S1x512x512
        (select (k0_pay16 (k0_pay6 i) (k0_pay7 (F := Ideal) x3) (k0_pay8 (F := Ideal) x5)) (k0_pay5 (F := Ideal) x0 x2)
          (broadcast S512x512 (Scalar.ofBits (F := Ideal) .f32 0x00000000#32))) shapeCasts_S512x512_S1x512x512) 0x00000000#32
        reduces_S1x512x512_S1 (.inl rfl) rfl) shapeCasts_S1_S1x1x1) inpos_S1x1x1_p0_0_0) u
      = Cert.PairSpec.tsum a b x0 x1 x2 x3 x4 x5 3 := by
  refine (piece_sum _ u).trans ?_
  unfold Cert.PairSpec.tsum
  refine Finset.sum_congr rfl fun p _ => Finset.sum_congr rfl fun q _ => ?_
  show Scalar.select (k0_pay16 (k0_pay6 i) (k0_pay7 (F := Ideal) x3) (k0_pay8 (F := Ideal) x5) (ix2 p q))
      (k0_pay5 (F := Ideal) x0 x2 (ix2 p q)) (Ideal.ofBits .f32 0x00000000#32) = _
  rw [select_of_iff _ _ (cls3_iff i a b ha hb x3 x4 x5 p q), distNeg_apply]
  rfl

/-- Row 7: the number of those pairs. -/
private theorem row7 (u : S1x1.Idx) :
    broadcast S1x1 (extractAt ![0, 0, 0] (shapeCast S1x1x1
      (multiReduction (F := Ideal) .add [1, 2] S1 (shapeCast S1x512x512
        (sitofp (F := Ideal) .f32 (extui 32 (k0_pay16 (k0_pay6 i) (k0_pay7 (F := Ideal) x3) (k0_pay8 (F := Ideal) x5)) natLt_1_32)) shapeCasts_S512x512_S1x512x512) 0x00000000#32
        reduces_S1x512x512_S1 (.inl rfl) rfl) shapeCasts_S1_S1x1x1) inpos_S1x1x1_p0_0_0) u
      = tcnt a b x3 x4 x5 3 := by
  refine (piece_sum _ u).trans ?_
  unfold tcnt
  refine Finset.sum_congr rfl fun p _ => Finset.sum_congr rfl fun q _ => ?_
  show FloatOps.sitofp (F := Ideal) .f32 ((k0_pay16 (k0_pay6 i) (k0_pay7 (F := Ideal) x3) (k0_pay8 (F := Ideal) x5) (ix2 p q)).setWidth 32) = _
  exact count_of_iff _ _ (cls3_iff i a b ha hb x3 x4 x5 p q)

end Rows

/-! ## The last stage

The eight 1×1 blocks are stacked into a column of eight, the column is spread along the 128 lanes, and the result is
added to what the block held: at row `r`, lane `l`, the old entry plus the `r`-th block's one entry. -/

/-- The pieces the last stage stacks: five it is given, three it finishes itself. -/
private def lastPieces (v18 : FVec Ideal S512x512 .f32) (v45 : IVec S512x512 1) (v52 v59 v66 v73 v80 : FVec Ideal S1x1 .f32)
    (v84 : FVec Ideal S1 .f32) : Fin 8 → FVec Ideal S1x1 .f32 :=
  ![v52, v59, v66, v73, v80, (broadcast S1x1 (extractAt ![0, 0, 0] (shapeCast S1x1x1 v84 shapeCasts_S1_S1x1x1) inpos_S1x1x1_p0_0_0)),
    (broadcast S1x1 (extractAt ![0, 0, 0] (shapeCast S1x1x1 (multiReduction (F := Ideal) .add [1, 2] S1 (shapeCast S1x512x512 (select v45 v18 (broadcast S512x512 (Scalar.ofBits (F := Ideal) .f32 0x00000000#32))) shapeCasts_S512x512_S1x512x512) 0x00000000#32 reduces_S1x512x512_S1 (.inl rfl) rfl) shapeCasts_S1_S1x1x1) inpos_S1x1x1_p0_0_0)),
    (broadcast S1x1 (extractAt ![0, 0, 0] (shapeCast S1x1x1 (multiReduction (F := Ideal) .add [1, 2] S1 (shapeCast S1x512x512 (sitofp (F := Ideal) .f32 (extui 32 v45 natLt_1_32)) shapeCasts_S512x512_S1x512x512) 0x00000000#32 reduces_S1x512x512_S1 (.inl rfl) rfl) shapeCasts_S1_S1x1x1) inpos_S1x1x1_p0_0_0))]

/-- Eight 1×1 blocks stacked along the rows: row `r` of the column is the `r`-th block's one entry. -/
private theorem stack8_apply (f : Fin 8 → FVec Ideal S1x1 .f32)
    (h : Shape.Concatenates [S1x1, S1x1, S1x1, S1x1, S1x1, S1x1, S1x1, S1x1] S8x1 0) (r : Fin 8) :
    concatenate S8x1 0 [⟨S1x1, f 0⟩, ⟨S1x1, f 1⟩, ⟨S1x1, f 2⟩, ⟨S1x1, f 3⟩, ⟨S1x1, f 4⟩, ⟨S1x1, f 5⟩, ⟨S1x1, f 6⟩, ⟨S1x1, f 7⟩] h
      (ix2 r (0 : Fin 1)) = f r (ix2 (0 : Fin 1) (0 : Fin 1)) :=
  concatenate_ofFn_unit_apply (t := S8x1) (s₁ := S1x1) 0 f h rfl rfl (ix2 r (0 : Fin 1)) r rfl (ix2 (0 : Fin 1) (0 : Fin 1))
    (fun b hb => match b, hb with
      | ⟨0, _⟩, hb => absurd rfl hb
      | ⟨1, _⟩, _ => rfl)

/-- The last stage at row `r`, lane `l`. -/
private theorem lastStage_apply (v18 : FVec Ideal S512x512 .f32) (v45 : IVec S512x512 1)
    (v52 v59 v66 v73 v80 : FVec Ideal S1x1 .f32) (v84 : FVec Ideal S1 .f32) (v103 : FVec Ideal S8x128 .f32)
    (r : Fin 8) (l : Fin 128) :
    k0_pay1 (F := Ideal) v18 v45 v52 v59 v66 v73 v80 v84 v103 (ix2 r l)
      = (v103 (ix2 r l) : EReal) + lastPieces v18 v45 v52 v59 v66 v73 v80 v84 r (ix2 (0 : Fin 1) (0 : Fin 1)) := by
  unfold k0_pay1
  show (shapeCast S8x128 v103 shapeCasts_S8x128_S8x128 (ix2 r l) : EReal)
      + broadcastTo S8x128 (shapeCast S8x1 (concatenate S8x1 0
          [⟨S1x1, lastPieces v18 v45 v52 v59 v66 v73 v80 v84 0⟩, ⟨S1x1, lastPieces v18 v45 v52 v59 v66 v73 v80 v84 1⟩,
           ⟨S1x1, lastPieces v18 v45 v52 v59 v66 v73 v80 v84 2⟩, ⟨S1x1, lastPieces v18 v45 v52 v59 v66 v73 v80 v84 3⟩,
           ⟨S1x1, lastPieces v18 v45 v52 v59 v66 v73 v80 v84 4⟩, ⟨S1x1, lastPieces v18 v45 v52 v59 v66 v73 v80 v84 5⟩,
           ⟨S1x1, lastPieces v18 v45 v52 v59 v66 v73 v80 v84 6⟩, ⟨S1x1, lastPieces v18 v45 v52 v59 v66 v73 v80 v84 7⟩]
          concatenates_S1x1_S1x1_S1x1_S1x1_S1x1_S1x1_S1x1_S1x1_S8x1_d0) shapeCasts_S8x1_S8x1) broadcasts_S8x1_S8x128 (ix2 r l) = _
  rw [shapeCast_self v103, Cert.LibKeepdims.bcast_col, shapeCast_self, stack8_apply]

/-- Which piece each row of the stack is: the index only picks among the eight, nothing is computed. -/
private theorem lastPieces_0 (v18 : FVec Ideal S512x512 .f32) (v45 : IVec S512x512 1) (v52 v59 v66 v73 v80 : FVec Ideal S1x1 .f32)
    (v84 : FVec Ideal S1 .f32) : lastPieces v18 v45 v52 v59 v66 v73 v80 v84 0 = v52 := rfl
private theorem lastPieces_1 (v18 : FVec Ideal S512x512 .f32) (v45 : IVec S512x512 1) (v52 v59 v66 v73 v80 : FVec Ideal S1x1 .f32)
    (v84 : FVec Ideal S1 .f32) : lastPieces v18 v45 v52 v59 v66 v73 v80 v84 1 = v59 := rfl
private theorem lastPieces_2 (v18 : FVec Ideal S512x512 .f32) (v45 : IVec S512x512 1) (v52 v59 v66 v73 v80 : FVec Ideal S1x1 .f32)
    (v84 : FVec Ideal S1 .f32) : lastPieces v18 v45 v52 v59 v66 v73 v80 v84 2 = v66 := rfl
private theorem lastPieces_3 (v18 : FVec Ideal S512x512 .f32) (v45 : IVec S512x512 1) (v52 v59 v66 v73 v80 : FVec Ideal S1x1 .f32)
    (v84 : FVec Ideal S1 .f32) : lastPieces v18 v45 v52 v59 v66 v73 v80 v84 3 = v73 := rfl
private theorem lastPieces_4 (v18 : FVec Ideal S512x512 .f32) (v45 : IVec S512x512 1) (v52 v59 v66 v73 v80 : FVec Ideal S1x1 .f32)
    (v84 : FVec Ideal S1 .f32) : lastPieces v18 v45 v52 v59 v66 v73 v80 v84 4 = v80 := rfl
private theorem lastPieces_5 (v18 : FVec Ideal S512x512 .f32) (v45 : IVec S512x512 1) (v52 v59 v66 v73 v80 : FVec Ideal S1x1 .f32)
    (v84 : FVec Ideal S1 .f32) : lastPieces v18 v45 v52 v59 v66 v73 v80 v84 5 = (broadcast S1x1 (extractAt ![0, 0, 0] (shapeCast S1x1x1 v84 shapeCasts_S1_S1x1x1) inpos_S1x1x1_p0_0_0)) := rfl
private theorem lastPieces_6 (v18 : FVec Ideal S512x512 .f32) (v45 : IVec S512x512 1) (v52 v59 v66 v73 v80 : FVec Ideal S1x1 .f32)
    (v84 : FVec Ideal S1 .f32) : lastPieces v18 v45 v52 v59 v66 v73 v80 v84 6 = (broadcast S1x1 (extractAt ![0, 0, 0] (shapeCast S1x1x1 (multiReduction (F := Ideal) .add [1, 2] S1 (shapeCast S1x512x512 (select v45 v18 (broadcast S512x512 (Scalar.ofBits (F := Ideal) .f32 0x00000000#32))) shapeCasts_S512x512_S1x512x512) 0x00000000#32 reduces_S1x512x512_S1 (.inl rfl) rfl) shapeCasts_S1_S1x1x1) inpos_S1x1x1_p0_0_0)) := rfl
private theorem lastPieces_7 (v18 : FVec Ideal S512x512 .f32) (v45 : IVec S512x512 1) (v52 v59 v66 v73 v80 : FVec Ideal S1x1 .f32)
    (v84 : FVec Ideal S1 .f32) : lastPieces v18 v45 v52 v59 v66 v73 v80 v84 7 = (broadcast S1x1 (extractAt ![0, 0, 0] (shapeCast S1x1x1 (multiReduction (F := Ideal) .add [1, 2] S1 (shapeCast S1x512x512 (sitofp (F := Ideal) .f32 (extui 32 v45 natLt_1_32)) shapeCasts_S512x512_S1x512x512) 0x00000000#32 reduces_S1x512x512_S1 (.inl rfl) rfl) shapeCasts_S1_S1x1x1) inpos_S1x1x1_p0_0_0)) := rfl

/-! ## The two statements -/

/-- The zero block is zero at every index. -/
theorem zeroBlock_apply (j : S8x128.Idx) : k0_pay2 (F := Ideal) j = (0 : EReal) := by
  unfold k0_pay2
  exact Ideal.ofBits_zero_f32

/-- The step at row `r`, lane `l`. The coordinates `i` of the grid point are given as the pair `(a, b)` of tile coordinates. -/
theorem accStep_apply (i : grid0.Coords) (a b : Fin 8) (ha : (i 0).val = a.val) (hb : (i 1).val = b.val)
    (x0 x1 x2 : Vec Ideal S512x1024 .bf16) (x3 : Vec Ideal S512x1 .i32) (x4 x5 : Vec Ideal S1x512 .i32)
    (prev : Vec Ideal S8x128 .f32) (r : Fin 8) (l : Fin 128) :
    accStep (F := Ideal) i x0 x1 x2 x3 x4 x5 prev (ix2 r l) = prev (ix2 r l) + tileRow a b x0 x1 x2 x3 x4 x5 r := by
  unfold accStep
  refine (lastStage_apply _ _ _ _ _ _ _ _ prev r l).trans (congrArg (fun t : EReal => (prev (ix2 r l) : EReal) + t) ?_)
  fin_cases r
  · exact (congrFun (lastPieces_0 _ _ _ _ _ _ _ _) _).trans (row0 i a b ha hb x0 x1 x2 x3 x4 x5 (ix2 (0 : Fin 1) (0 : Fin 1)))
  · exact (congrFun (lastPieces_1 _ _ _ _ _ _ _ _) _).trans (row1 i a b ha hb x3 x4 x5 (ix2 (0 : Fin 1) (0 : Fin 1)))
  · exact (congrFun (lastPieces_2 _ _ _ _ _ _ _ _) _).trans (row2 i a b ha hb x0 x1 x2 x3 x4 x5 (ix2 (0 : Fin 1) (0 : Fin 1)))
  · exact (congrFun (lastPieces_3 _ _ _ _ _ _ _ _) _).trans (row3 i a b ha hb x3 x4 x5 (ix2 (0 : Fin 1) (0 : Fin 1)))
  · exact (congrFun (lastPieces_4 _ _ _ _ _ _ _ _) _).trans (row4 i a b ha hb x0 x1 x2 x3 x4 x5 (ix2 (0 : Fin 1) (0 : Fin 1)))
  · exact (congrFun (lastPieces_5 _ _ _ _ _ _ _ _) _).trans (row5 i a b ha hb x3 x4 x5 (ix2 (0 : Fin 1) (0 : Fin 1)))
  · exact (congrFun (lastPieces_6 _ _ _ _ _ _ _ _) _).trans (row6 i a b ha hb x0 x1 x2 x3 x4 x5 (ix2 (0 : Fin 1) (0 : Fin 1)))
  · exact (congrFun (lastPieces_7 _ _ _ _ _ _ _ _) _).trans (row7 i a b ha hb x3 x4 x5 (ix2 (0 : Fin 1) (0 : Fin 1)))

end Cert.KernelIdeal.Hand

end
-- ==== Proof.Val.TileAt.lean ====
/-
  The grid point `t` of the 8×8 grid is the pair of tile coordinates `(t / 8, t % 8)`; what the point adds to the
  accumulator's row `r` is `tileRow` at those coordinates on the point's six input blocks.
-/
import proofs.«126969_j66666482368607_1_alg».proof.Proof.KI.Acc
import proofs.«126969_j66666482368607_1_alg».proof.Proof.Val.TileSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.PairSpec Idealize.ShloMosaic.ValueIdx
open scoped BigOperators
variable {F : FTy → Type} [FloatOps F]

local notation "𝕄" => MT nD τ sig Unit (Elt F) ℕ (UR sig nD τ) ℕ

variable (V : (c : Dev nD) → (b : Ref sig .tc) → Buf (Elt Ideal) ((c : Thread nD τ).loc b))

theorem N64 : cfg0.N = 64 := N_0

/-- The tile's row coordinate and column coordinate at point `t`. -/
def gi (t : Fin cfg0.N) : Fin 8 := ⟨t.val / 8, by have h : t.val < 64 := lt_of_lt_of_eq t.isLt N64; omega⟩
def gj (t : Fin cfg0.N) : Fin 8 := ⟨t.val % 8, Nat.mod_lt _ (by decide)⟩

/-- They are the grid's own coordinates of the point — decided over the 64 points. -/
theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- What point `t` adds to row `r`, on the blocks the region's entry contents `V` give the point. -/
def tileAt (c : Dev nD) (t : Fin cfg0.N) (r : Fin 8) : EReal :=
  tileRow (gi t) (gj t) (iblk V c 0 t) (iblk V c 1 t) (iblk V c 2 t) (iblk V c 3 t) (iblk V c 4 t) (iblk V c 5 t) r

end Cert.KernelIdeal.Hand

end
-- ==== Proof.Val.Fold.lean ====
/-
  The accumulator after the last grid point, read at an index: the sum over the 64 points of what each adds to the row
  (the zero block stepped 64 times; addition on the extended reals is a commutative monoid, so the steps fold to a sum).
-/
import proofs.«126969_j66666482368607_1_alg».proof.Proof.Val.Step
import proofs.«126969_j66666482368607_1_alg».proof.Proof.Val.TileAt

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.PairSpec Idealize.ShloMosaic.ValueIdx
open scoped BigOperators
variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- One point's step read at row `r`, lane `l`: what the block held there plus the point's contribution to the row.
    The point's grid coordinates are `(t / 8, t % 8)`. -/
private theorem stepAt_apply (c : Dev nD) (t : Fin cfg0.N) (prev : Vec Ideal S8x128 .f32) (r : Fin 8) (l : Fin 128) :
    stepAt (F := Ideal) V c t prev (ix2 r l) = prev (ix2 r l) + tileAt V c t r :=
  accStep_apply (grid0.coords t) (gi t) (gj t) (coords_eq t).1 (coords_eq t).2
    (iblk V c 0 t) (iblk V c 1 t) (iblk V c 2 t) (iblk V c 3 t) (iblk V c 4 t) (iblk V c 5 t) prev r l

/-- A sum over `Fin m` with `m = N` is the sum over `Fin N`. -/
private theorem sum_fin_cast {m : ℕ} (h : m = cfg0.N) (f : Fin cfg0.N → EReal) :
    ∑ s : Fin m, f (Fin.cast h s) = ∑ t : Fin cfg0.N, f t :=
  Fintype.sum_equiv (finCongr h) _ _ (fun _ => rfl)

/-- After point `n` the block's row `r` holds, in every lane, the contributions of points `0 … n`. -/
theorem accAt_apply (c : Dev nD) (n : ℕ) (hn : n < cfg0.N) (r : Fin 8) (l : Fin 128) :
    accAt (F := Ideal) V c n hn (ix2 r l)
      = ∑ s : Fin (n + 1), tileAt V c ⟨s.val, lt_of_lt_of_le s.isLt hn⟩ r := by
  induction n with
  | zero =>
    -- the zero block stepped once: 0 + the first point's contribution
    refine (stepAt_apply V c ⟨0, hn⟩ (k0_pay2 (F := Ideal)) r l).trans ?_
    refine (congrArg (· + tileAt V c ⟨0, hn⟩ r) (zeroBlock_apply (ix2 r l))).trans ?_
    refine (zero_add _).trans ?_
    exact (Fin.sum_univ_one (fun s : Fin 1 => tileAt V c ⟨s.val, lt_of_lt_of_le s.isLt hn⟩ r)).symm
  | succ n ih =>
    -- the sum over points 0 … n, plus point n + 1's contribution
    refine (stepAt_apply V c ⟨n + 1, hn⟩ (accAt V c n (Nat.lt_of_succ_lt hn)) r l).trans ?_
    refine (congrArg (· + tileAt V c ⟨n + 1, hn⟩ r) (ih (Nat.lt_of_succ_lt hn))).trans ?_
    exact (Fin.sum_univ_castSucc (fun s : Fin (n + 1 + 1) => tileAt V c ⟨s.val, lt_of_lt_of_le s.isLt hn⟩ r)).symm

/-- After the last point: the sum over all 64 points. -/
theorem accAt_last (c : Dev nD) (r : Fin 8) (l : Fin 128) :
    accAt (F := Ideal) V c 63 (by rw [N64]; decide) (ix2 r l) = ∑ t : Fin cfg0.N, tileAt V c t r :=
  (accAt_apply V c 63 (by rw [N64]; decide) r l).trans
    (sum_fin_cast (m := 63 + 1) (by rw [N64]) (fun t => tileAt V c t r))

end Cert.KernelIdeal.Hand

end
-- ==== Proof.Val.Reidx.lean ====
/-
  From tiles to the batch. The 64 tiles of 512×512 pairs partition the 4096×4096 pairs of the batch: pair `(p, q)` of
  tile `(a, b)` is pair `(512·a + p, 512·b + q)`. Each input block is the restriction of its array to the tile's rows
  (or columns), so the tile's classes and distances are the batch's at that pair, and the sum over the tiles of the
  tiles' sums is the sum over the batch.
-/
import proofs.«126969_j66666482368607_1_alg».proof.Proof.Val.TileAt
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.PairSpec Idealize.ShloMosaic.ValueIdx
open scoped BigOperators
variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The blocks are restrictions of the arrays -/

/-- The printed index maps at grid point `t`, decided once over the 64 points: the row windows sit at block `t / 8`,
    the column windows at block `t % 8`, and every other block coordinate is zero. -/
theorem idx_facts : ∀ t : Fin cfg0.N,
    win0_0.index t (0 : Fin 2) = t.val / 8 ∧ win0_0.index t (1 : Fin 2) = 0 ∧
    win0_1.index t (0 : Fin 2) = t.val % 8 ∧ win0_1.index t (1 : Fin 2) = 0 ∧
    win0_2.index t (0 : Fin 2) = t.val % 8 ∧ win0_2.index t (1 : Fin 2) = 0 ∧
    win0_3.index t (0 : Fin 2) = t.val / 8 ∧ win0_3.index t (1 : Fin 2) = 0 ∧
    win0_4.index t (0 : Fin 2) = 0 ∧ win0_4.index t (1 : Fin 2) = t.val % 8 ∧
    win0_5.index t (0 : Fin 2) = 0 ∧ win0_5.index t (1 : Fin 2) = t.val % 8 :=
  (by decide +kernel : ∀ t : Fin grid0.N, _)

/-- Row (or column) `p` of tile coordinate `a`, as a row (or column) of the batch: `512·a + p`. -/
def rowOf (a : Fin 8) (p : Fin 512) : Fin 4096 :=
  ⟨a.val * 512 + p.val, by have ha := a.isLt; have hp := p.isLt; omega⟩

theorem rowOf_val (a : Fin 8) (p : Fin 512) : (rowOf a p).val = a.val * 512 + p.val := rfl

/-- Window 0's block at `t`: rows `512·(t/8) + p` of the anchors' array. -/
theorem iblk0_apply (c : Dev nD) (t : Fin cfg0.N) (p : Fin 512) (k : Fin 1024) :
    (iblk V c 0 t : STD.Idx → EReal) (ix2 p k) = (V c main_v38 : SBD.Idx → EReal) (ix2 (rowOf (gi t) p) k) := by
  obtain ⟨e0, e1, -⟩ := idx_facts t
  unfold iblk
  rw [View.read_apply]
  show V c main_v38 _ = V c main_v38 _
  congr 1
  funext a
  apply Fin.ext
  match a with
  | ⟨0, _⟩ => show win0_0.index t (0 : Fin 2) * 512 + 1 * p.val = t.val / 8 * 512 + p.val; rw [e0]; omega
  | ⟨1, _⟩ => show win0_0.index t (1 : Fin 2) * 1024 + 1 * k.val = k.val; rw [e1]; omega

/-- Window 1's block at `t`: rows `512·(t%8) + q` of the anchors' array. -/
theorem iblk1_apply (c : Dev nD) (t : Fin cfg0.N) (q : Fin 512) (k : Fin 1024) :
    (iblk V c 1 t : STD.Idx → EReal) (ix2 q k) = (V c main_v38 : SBD.Idx → EReal) (ix2 (rowOf (gj t) q) k) := by
  obtain ⟨-, -, e0, e1, -⟩ := idx_facts t
  unfold iblk
  rw [View.read_apply]
  show V c main_v38 _ = V c main_v38 _
  congr 1
  funext a
  apply Fin.ext
  match a with
  | ⟨0, _⟩ => show win0_1.index t (0 : Fin 2) * 512 + 1 * q.val = t.val % 8 * 512 + q.val; rw [e0]; omega
  | ⟨1, _⟩ => show win0_1.index t (1 : Fin 2) * 1024 + 1 * k.val = k.val; rw [e1]; omega

/-- Window 2's block at `t`: rows `512·(t%8) + q` of the negatives' array. -/
theorem iblk2_apply (c : Dev nD) (t : Fin cfg0.N) (q : Fin 512) (k : Fin 1024) :
    (iblk V c 2 t : STD.Idx → EReal) (ix2 q k) = (V c main_v39 : SBD.Idx → EReal) (ix2 (rowOf (gj t) q) k) := by
  obtain ⟨-, -, -, -, e0, e1, -⟩ := idx_facts t
  unfold iblk
  rw [View.read_apply]
  show V c main_v39 _ = V c main_v39 _
  congr 1
  funext a
  apply Fin.ext
  match a with
  | ⟨0, _⟩ => show win0_2.index t (0 : Fin 2) * 512 + 1 * q.val = t.val % 8 * 512 + q.val; rw [e0]; omega
  | ⟨1, _⟩ => show win0_2.index t (1 : Fin 2) * 1024 + 1 * k.val = k.val; rw [e1]; omega

/-- Window 3's block at `t`: entries `512·(t/8) + p` of the labels' column. -/
theorem iblk3_apply (c : Dev nD) (t : Fin cfg0.N) (p : Fin 512) :
    (iblk V c 3 t : SC.Idx → BitVec 32) (ix2 p 0) = (V c main_v40 : (⟨2, ![4096, 1]⟩ : Shape).Idx → BitVec 32) (ix2 (rowOf (gi t) p) 0) := by
  obtain ⟨-, -, -, -, -, -, e0, e1, -⟩ := idx_facts t
  unfold iblk
  rw [View.read_apply]
  show V c main_v40 _ = V c main_v40 _
  congr 1
  funext a
  apply Fin.ext
  match a with
  | ⟨0, _⟩ => show win0_3.index t (0 : Fin 2) * 512 + 1 * p.val = t.val / 8 * 512 + p.val; rw [e0]; omega
  | ⟨1, _⟩ => show win0_3.index t (1 : Fin 2) * 1 + 1 * 0 = 0; rw [e1]

/-- Window 4's block at `t`: entries `512·(t%8) + q` of the labels' row. -/
theorem iblk4_apply (c : Dev nD) (t : Fin cfg0.N) (q : Fin 512) :
    (iblk V c 4 t : SR.Idx → BitVec 32) (ix2 0 q) = (V c main_v41 : (⟨2, ![1, 4096]⟩ : Shape).Idx → BitVec 32) (ix2 0 (rowOf (gj t) q)) := by
  obtain ⟨-, -, -, -, -, -, -, -, e0, e1, -⟩ := idx_facts t
  unfold iblk
  rw [View.read_apply]
  show V c main_v41 _ = V c main_v41 _
  congr 1
  funext a
  apply Fin.ext
  match a with
  | ⟨0, _⟩ => show win0_4.index t (0 : Fin 2) * 1 + 1 * 0 = 0; rw [e0]
  | ⟨1, _⟩ => show win0_4.index t (1 : Fin 2) * 512 + 1 * q.val = t.val % 8 * 512 + q.val; rw [e1]; omega

/-- Window 5's block at `t`: entries `512·(t%8) + q` of the negative labels' row. -/
theorem iblk5_apply (c : Dev nD) (t : Fin cfg0.N) (q : Fin 512) :
    (iblk V c 5 t : SR.Idx → BitVec 32) (ix2 0 q) = (V c main_v42 : (⟨2, ![1, 4096]⟩ : Shape).Idx → BitVec 32) (ix2 0 (rowOf (gj t) q)) := by
  obtain ⟨-, -, -, -, -, -, -, -, -, -, e0, e1⟩ := idx_facts t
  unfold iblk
  rw [View.read_apply]
  show V c main_v42 _ = V c main_v42 _
  congr 1
  funext a
  apply Fin.ext
  match a with
  | ⟨0, _⟩ => show win0_5.index t (0 : Fin 2) * 1 + 1 * 0 = 0; rw [e0]
  | ⟨1, _⟩ => show win0_5.index t (1 : Fin 2) * 512 + 1 * q.val = t.val % 8 * 512 + q.val; rw [e1]; omega

/-! ## One tile is a square of the batch -/

section Tile

variable (na nn : SBD.Idx → EReal) (lab neg : SB.Idx → BitVec 32)
variable (a b : Fin 8) (x0 x1 x2 : STD.Idx → EReal) (l3 : SC.Idx → BitVec 32) (l4 l5 : SR.Idx → BitVec 32)

/-- A tile's distance is the batch's distance at the tile's pair, when the two blocks hold the batch's rows. -/
theorem tdist_eq (x y : STD.Idx → EReal) (u v : SBD.Idx → EReal) (p q : Fin 512)
    (hx : ∀ k : Fin 1024, x (ix2 p k) = u (ix2 (rowOf a p) k))
    (hy : ∀ k : Fin 1024, y (ix2 q k) = v (ix2 (rowOf b q) k)) :
    tdist x y p q = PairSpec.dist u v (rowOf a p) (rowOf b q) := by
  unfold tdist PairSpec.dist
  refine congrArg (fun s => one - s) (Finset.sum_congr rfl fun k _ => ?_)
  rw [hx k, hy k]

/-- "Above the diagonal" within the tile is "above the diagonal" in the batch. -/
theorem tupper_iff (p q : Fin 512) : tupper a b p q ↔ upper (rowOf a p) (rowOf b q) := Iff.rfl

/-- Label agreement within the tile is label agreement in the batch. -/
theorem tsame_iff (l : SR.Idx → BitVec 32) (m : SB.Idx → BitVec 32) (p q : Fin 512)
    (h3 : l3 (ix2 p 0) = lab (ix1 (rowOf a p))) (h : l (ix2 0 q) = m (ix1 (rowOf b q))) :
    tsame l3 l p q ↔ same lab m (rowOf a p) (rowOf b q) := by
  unfold tsame same
  rw [h3, h]

variable (h0 : ∀ (p : Fin 512) (k : Fin 1024), x0 (ix2 p k) = na (ix2 (rowOf a p) k))
variable (h1 : ∀ (q : Fin 512) (k : Fin 1024), x1 (ix2 q k) = na (ix2 (rowOf b q) k))
variable (h2 : ∀ (q : Fin 512) (k : Fin 1024), x2 (ix2 q k) = nn (ix2 (rowOf b q) k))
variable (h3 : ∀ p : Fin 512, l3 (ix2 p 0) = lab (ix1 (rowOf a p)))
variable (h4 : ∀ q : Fin 512, l4 (ix2 0 q) = lab (ix1 (rowOf b q)))
variable (h5 : ∀ q : Fin 512, l5 (ix2 0 q) = neg (ix1 (rowOf b q)))

include h3 h4 h5 in
/-- The tile's classes of pairs are the batch's classes at the tile's pairs. -/
theorem tcls_iff (p q : Fin 512) : (r : Fin 4) → (tcls a b l3 l4 l5 r p q ↔ cls lab neg r (rowOf a p) (rowOf b q))
  | 0 => and_congr (tupper_iff a b p q) (tsame_iff lab a b l3 l4 lab p q (h3 p) (h4 q))
  | 1 => and_congr (tupper_iff a b p q) (not_congr (tsame_iff lab a b l3 l4 lab p q (h3 p) (h4 q)))
  | 2 => and_congr (tupper_iff a b p q) (tsame_iff lab a b l3 l5 neg p q (h3 p) (h5 q))
  | 3 => and_congr (tupper_iff a b p q) (not_congr (tsame_iff lab a b l3 l5 neg p q (h3 p) (h5 q)))

include h0 h1 h2 in
/-- The distance a class sums within the tile is the distance it sums in the batch. -/
theorem tdistOf_eq (p q : Fin 512) : (r : Fin 4) → tdistOf x0 x1 x2 r p q = distOf na nn r (rowOf a p) (rowOf b q)
  | 0 => tdist_eq a b x0 x1 na na p q (h0 p) (h1 q)
  | 1 => tdist_eq a b x0 x1 na na p q (h0 p) (h1 q)
  | 2 => tdist_eq a b x0 x2 na nn p q (h0 p) (h2 q)
  | 3 => tdist_eq a b x0 x2 na nn p q (h0 p) (h2 q)

include h0 h1 h2 h3 h4 h5 in
/-- The tile's sum of a class's distances is the batch's summand summed over the tile's pairs. -/
theorem tsum_eq (r : Fin 4) : PairSpec.tsum a b x0 x1 x2 l3 l4 l5 r
    = ∑ p : Fin 512, ∑ q : Fin 512, if cls lab neg r (rowOf a p) (rowOf b q) then distOf na nn r (rowOf a p) (rowOf b q) else zero := by
  unfold PairSpec.tsum
  refine Finset.sum_congr rfl fun p _ => Finset.sum_congr rfl fun q _ => ?_
  rw [tdistOf_eq na nn a b x0 x1 x2 h0 h1 h2 p q r]
  exact if_congr (tcls_iff lab neg a b l3 l4 l5 h3 h4 h5 p q r) rfl rfl

include h3 h4 h5 in
/-- The tile's count of a class's pairs is the batch's indicator summed over the tile's pairs. -/
theorem tcnt_eq (r : Fin 4) : tcnt a b l3 l4 l5 r
    = ∑ p : Fin 512, ∑ q : Fin 512, if cls lab neg r (rowOf a p) (rowOf b q) then (1 : EReal) else 0 := by
  unfold tcnt
  refine Finset.sum_congr rfl fun p _ => Finset.sum_congr rfl fun q _ => ?_
  exact if_congr (tcls_iff lab neg a b l3 l4 l5 h3 h4 h5 p q r) rfl rfl

/-- What the pair `(i, j)` of the batch contributes to row `r` of the accumulator: its distance (rows 0, 2, 4, 6) or
    one (rows 1, 3, 5, 7) when it belongs to the row's class, the zero word or zero when not. -/
def pairTerm : Fin 8 → Fin 4096 → Fin 4096 → EReal
  | 0, i, j => if cls lab neg 0 i j then distOf na nn 0 i j else zero
  | 1, i, j => if cls lab neg 0 i j then (1 : EReal) else 0
  | 2, i, j => if cls lab neg 1 i j then distOf na nn 1 i j else zero
  | 3, i, j => if cls lab neg 1 i j then (1 : EReal) else 0
  | 4, i, j => if cls lab neg 2 i j then distOf na nn 2 i j else zero
  | 5, i, j => if cls lab neg 2 i j then (1 : EReal) else 0
  | 6, i, j => if cls lab neg 3 i j then distOf na nn 3 i j else zero
  | 7, i, j => if cls lab neg 3 i j then (1 : EReal) else 0

/-- Each row of the batch's accumulator is the sum of its pairs' contributions. -/
theorem accRow_eq : (r : Fin 8) → accRow na nn lab neg r = ∑ i : Fin 4096, ∑ j : Fin 4096, pairTerm na nn lab neg r i j
  | 0 => rfl
  | 1 => rfl
  | 2 => rfl
  | 3 => rfl
  | 4 => rfl
  | 5 => rfl
  | 6 => rfl
  | 7 => rfl

include h0 h1 h2 h3 h4 h5 in
/-- Each row of a tile's contribution is the sum of the contributions of the tile's pairs. -/
theorem tileRow_eq : (r : Fin 8) → tileRow a b x0 x1 x2 l3 l4 l5 r
    = ∑ p : Fin 512, ∑ q : Fin 512, pairTerm na nn lab neg r (rowOf a p) (rowOf b q)
  | 0 => tsum_eq na nn lab neg a b x0 x1 x2 l3 l4 l5 h0 h1 h2 h3 h4 h5 0
  | 1 => tcnt_eq lab neg a b l3 l4 l5 h3 h4 h5 0
  | 2 => tsum_eq na nn lab neg a b x0 x1 x2 l3 l4 l5 h0 h1 h2 h3 h4 h5 1
  | 3 => tcnt_eq lab neg a b l3 l4 l5 h3 h4 h5 1
  | 4 => tsum_eq na nn lab neg a b x0 x1 x2 l3 l4 l5 h0 h1 h2 h3 h4 h5 2
  | 5 => tcnt_eq lab neg a b l3 l4 l5 h3 h4 h5 2
  | 6 => tsum_eq na nn lab neg a b x0 x1 x2 l3 l4 l5 h0 h1 h2 h3 h4 h5 3
  | 7 => tcnt_eq lab neg a b l3 l4 l5 h3 h4 h5 3

end Tile

/-! ## The tiles partition the batch -/

/-- A row of the batch is a tile coordinate and a row within the tile. -/
def rowEquiv : Fin 8 × Fin 512 ≃ Fin 4096 where
  toFun x := rowOf x.1 x.2
  invFun i := (⟨i.val / 512, by have := i.isLt; omega⟩, ⟨i.val % 512, Nat.mod_lt _ (by decide)⟩)
  left_inv := by
    rintro ⟨a, p⟩
    have ha := a.isLt
    have hp := p.isLt
    refine Prod.ext (Fin.ext ?_) (Fin.ext ?_)
    · show (a.val * 512 + p.val) / 512 = a.val
      omega
    · show (a.val * 512 + p.val) % 512 = p.val
      omega
  right_inv := by
    intro i
    refine Fin.ext ?_
    show i.val / 512 * 512 + i.val % 512 = i.val
    omega

/-- A sum over the batch's rows, tile by tile. -/
theorem sum_rows (h : Fin 4096 → EReal) : ∑ i : Fin 4096, h i = ∑ a : Fin 8, ∑ p : Fin 512, h (rowOf a p) := by
  rw [← Equiv.sum_comp rowEquiv h, Fintype.sum_prod_type]
  rfl

/-- A grid point is a pair of tile coordinates. -/
def gridEquiv : Fin 8 × Fin 8 ≃ Fin cfg0.N where
  toFun x := ⟨x.1.val * 8 + x.2.val, by
    have ha := x.1.isLt
    have hb := x.2.isLt
    rw [N64]
    omega⟩
  invFun t := (gi t, gj t)
  left_inv := by
    rintro ⟨a, b⟩
    have ha := a.isLt
    have hb := b.isLt
    refine Prod.ext (Fin.ext ?_) (Fin.ext ?_)
    · show (a.val * 8 + b.val) / 8 = a.val
      omega
    · show (a.val * 8 + b.val) % 8 = b.val
      omega
  right_inv := by
    intro t
    refine Fin.ext ?_
    show t.val / 8 * 8 + t.val % 8 = t.val
    omega

theorem gi_gridEquiv (a b : Fin 8) : gi (gridEquiv (a, b)) = a := congrArg Prod.fst (gridEquiv.left_inv (a, b))
theorem gj_gridEquiv (a b : Fin 8) : gj (gridEquiv (a, b)) = b := congrArg Prod.snd (gridEquiv.left_inv (a, b))

/-- A sum over the grid, coordinate by coordinate. -/
theorem sum_grid (h : Fin cfg0.N → EReal) : ∑ t : Fin cfg0.N, h t = ∑ a : Fin 8, ∑ b : Fin 8, h (gridEquiv (a, b)) := by
  rw [← Equiv.sum_comp gridEquiv h, Fintype.sum_prod_type]

/-- The sum over the grid of the sums over the tiles' pairs is the sum over the batch's pairs. -/
theorem sum_tiles (f : Fin 4096 → Fin 4096 → EReal) :
    ∑ t : Fin cfg0.N, ∑ p : Fin 512, ∑ q : Fin 512, f (rowOf (gi t) p) (rowOf (gj t) q)
      = ∑ i : Fin 4096, ∑ j : Fin 4096, f i j := by
  rw [sum_grid, sum_rows fun i => ∑ j : Fin 4096, f i j]
  refine Finset.sum_congr rfl fun a _ => ?_
  rw [Finset.sum_comm]
  refine Finset.sum_congr rfl fun p _ => ?_
  rw [sum_rows fun j => f (rowOf a p) j]
  refine Finset.sum_congr rfl fun b _ => Finset.sum_congr rfl fun q _ => ?_
  rw [gi_gridEquiv, gj_gridEquiv]

/-! ## The grid's sum -/

/-- The sum over the grid of the points' contributions to row `r` is the batch's quantity `accRow … r`, when the
    region's entry contents hold the normalised anchors `na` (array `main_v38`), the normalised negatives `nn`
    (`main_v39`), the labels as a column (`main_v40`) and as a row (`main_v41`), and the negative labels as a row
    (`main_v42`). -/
theorem sum_tileAt (c : Dev nD) (na nn : SBD.Idx → EReal) (lab neg : SB.Idx → BitVec 32)
    (h38 : ∀ (i : Fin 4096) (k : Fin 1024), V c main_v38 (ix2 i k) = na (ix2 i k))
    (h39 : ∀ (i : Fin 4096) (k : Fin 1024), V c main_v39 (ix2 i k) = nn (ix2 i k))
    (h40 : ∀ i : Fin 4096, V c main_v40 (ix2 i 0) = lab (ix1 i))
    (h41 : ∀ j : Fin 4096, V c main_v41 (ix2 0 j) = lab (ix1 j))
    (h42 : ∀ j : Fin 4096, V c main_v42 (ix2 0 j) = neg (ix1 j))
    (r : Fin 8) :
    ∑ t : Fin cfg0.N, tileAt V c t r = accRow na nn lab neg r := by
  refine ((Finset.sum_congr rfl fun t _ => ?_).trans (sum_tiles (pairTerm na nn lab neg r))).trans (accRow_eq na nn lab neg r).symm
  unfold tileAt
  exact tileRow_eq na nn lab neg (gi t) (gj t) (iblk V c 0 t) (iblk V c 1 t) (iblk V c 2 t) (iblk V c 3 t) (iblk V c 4 t) (iblk V c 5 t)
    (fun p k => (iblk0_apply V c t p k).trans (h38 _ k))
    (fun q k => (iblk1_apply V c t q k).trans (h38 _ k))
    (fun q k => (iblk2_apply V c t q k).trans (h39 _ k))
    (fun p => (iblk3_apply V c t p).trans (h40 _))
    (fun q => (iblk4_apply V c t q).trans (h41 _))
    (fun q => (iblk5_apply V c t q).trans (h42 _))
    r

end Cert.KernelIdeal.Hand

end
-- ==== Proof.Val.KHost.lean ====
/-
  The kernel program's host side at the ideal instance. Before the region its host operations are, operation by
  operation, the reference's own prelude: the arrays the region is handed are the reference's normalised anchors and
  negatives (a change of float format is the identity) and the two label vectors laid out as a column and as rows, and the
  per-example distances are the reference's. Behind the region the host operations pick lane 0 of each of the
  accumulator's eight rows and form the loss from them, the two per-example sums and the batch size.
-/
import proofs.«126969_j66666482368607_1_alg».proof.Proof.KI.Vals
import proofs.«126969_j66666482368607_1_alg».proof.Proof.Val.Spec
import proofs.«126969_j66666482368607_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.PairSpec Idealize.ShloMosaic.ValueIdx
open scoped BigOperators
variable {F : FTy → Type} [FloatOps F]

local notation "𝕄" => MT nD τ sig Unit (Elt F) ℕ (UR sig nD τ) ℕ

variable (m : (ℓ : Loc nD τ sig) → Buf (Elt Ideal) ℓ)
variable (out : (c : Dev nD) → Buf (Elt Ideal) ((c : Thread nD τ).loc main_v43))

/-- The three arguments as launched on core `c`. -/
abbrev arg0 (c : Dev nD) : FVec Ideal S4096x3x1024 .f32 := m ((c : Thread nD τ).loc main_arg0)
abbrev arg1 (c : Dev nD) : IVec S4096 32 := m ((c : Thread nD τ).loc main_arg1)
abbrev arg2 (c : Dev nD) : IVec S4096 32 := m ((c : Thread nD τ).loc main_arg2)

/-! ## Before the region -/

section Prelude
open Cert.ReferenceIdeal.Read

/-- The first window's array is the reference's normalised anchors: the same operations, and a change of float format
    that is the identity. -/
private theorem v38_eq (c : Dev nD) :
    (V1 m c main_v38 : S4096x1024.Idx → EReal) = val_main_v13 (F := Ideal) (arg0 m c) := by
  show StableHlo.after hostOps0 (W0 m c) (Proc.devRef .tc main_v38) = _
  simp only [hostOps0]
  after_results
  simp only [val_main_v13, val_main_v12, val_main_v11, val_main_v10, val_main_v9, val_main_v8, val_main_v7, val_main_v6,
    val_main_v1, val_main_v0, val_main_cst, val_main_cst_0]
  rfl

/-- The second window's array is the reference's normalised negatives. -/
private theorem v39_eq (c : Dev nD) :
    (V1 m c main_v39 : S4096x1024.Idx → EReal) = val_main_v29 (F := Ideal) (arg0 m c) := by
  show StableHlo.after hostOps0 (W0 m c) (Proc.devRef .tc main_v39) = _
  simp only [hostOps0]
  after_results
  simp only [val_main_v29, val_main_v28, val_main_v27, val_main_v26, val_main_v25, val_main_v24, val_main_v23, val_main_v22,
    val_main_v5, val_main_v4, val_main_cst_3, val_main_cst_4]
  rfl

/-- The anchors' labels as a column. -/
private theorem v40_eq (c : Dev nD) :
    (V1 m c main_v40 : S4096x1.Idx → BitVec 32) = shapeCast S4096x1 (arg1 m c) shapeCasts_S4096_S4096x1 := by
  show StableHlo.after hostOps0 (W0 m c) (Proc.devRef .tc main_v40) = _
  simp only [hostOps0]
  after_results
  rfl

/-- The anchors' labels as a row. -/
private theorem v41_eq (c : Dev nD) :
    (V1 m c main_v41 : S1x4096.Idx → BitVec 32) = shapeCast S1x4096 (arg1 m c) shapeCasts_S4096_S1x4096 := by
  show StableHlo.after hostOps0 (W0 m c) (Proc.devRef .tc main_v41) = _
  simp only [hostOps0]
  after_results
  rfl

/-- The negatives' labels as a row. -/
private theorem v42_eq (c : Dev nD) :
    (V1 m c main_v42 : S1x4096.Idx → BitVec 32) = shapeCast S1x4096 (arg2 m c) shapeCasts_S4096_S1x4096 := by
  show StableHlo.after hostOps0 (W0 m c) (Proc.devRef .tc main_v42) = _
  simp only [hostOps0]
  after_results
  rfl

end Prelude

theorem pre38 (c : Dev nD) (i : Fin 4096) (k : Fin 1024) :
    V1 m c main_v38 (ix2 i k) = Cert.ReferenceIdeal.Read.val_main_v13 (F := Ideal) (arg0 m c) (ix2 i k) :=
  congrFun (v38_eq m c) (ix2 i k)
theorem pre39 (c : Dev nD) (i : Fin 4096) (k : Fin 1024) :
    V1 m c main_v39 (ix2 i k) = Cert.ReferenceIdeal.Read.val_main_v29 (F := Ideal) (arg0 m c) (ix2 i k) :=
  congrFun (v39_eq m c) (ix2 i k)
theorem pre40 (c : Dev nD) (i : Fin 4096) : V1 m c main_v40 (ix2 i 0) = arg1 m c (ix1 i) := by
  refine (congrFun (v40_eq m c) (ix2 i 0)).trans ?_
  refine shapeCast_apply (arg1 m c) shapeCasts_S4096_S4096x1 (ix2 i 0) (ix1 i) ?_
  rw [Shape.rowMajor_val_two, Shape.rowMajor_val_one]
  show i.val = i.val * 1 + 0
  omega
theorem pre41 (c : Dev nD) (j : Fin 4096) : V1 m c main_v41 (ix2 0 j) = arg1 m c (ix1 j) :=
  (congrFun (v41_eq m c) (ix2 0 j)).trans (shapeCast_a_1a_apply (arg1 m c) shapeCasts_S4096_S1x4096 0 j)
theorem pre42 (c : Dev nD) (j : Fin 4096) : V1 m c main_v42 (ix2 0 j) = arg2 m c (ix1 j) :=
  (congrFun (v42_eq m c) (ix2 0 j)).trans (shapeCast_a_1a_apply (arg2 m c) shapeCasts_S4096_S1x4096 0 j)

/-! ## Behind the region -/

section Tail
open Cert.ReferenceIdeal.Read

/-- Lane 0 of row `k` of the accumulator the way the host operations pick it: the first column, as a vector of eight,
    its entry `k`, as a scalar. -/
private def pick (acc : FVec Ideal S8x128 .f32) (k : ℕ) (h : S8.Slices ![k] S1) : FVec Ideal S_ .f32 :=
  shapeCast S_ (extractStridedSlice S1 ![k]
    (shapeCast S8 (extractStridedSlice S8x1 ![0, 0] acc slices_S8x128_S8x1_0_0) shapeCasts_S8x1_S8) h) shapeCasts_S1_S_

/-- Picked that way it is the accumulator's entry `(k, 0)`: every step is a slice or a cast between shapes whose
    row-major positions agree. -/
private theorem pick_apply (acc : FVec Ideal S8x128 .f32) (k : ℕ) (hk : k < 8) (h : S8.Slices ![k] S1) :
    pick acc k h ix0 = acc (ix2 (⟨k, hk⟩ : Fin 8) (0 : Fin 128)) := by
  unfold pick
  refine (shapeCast_apply _ shapeCasts_S1_S_ ix0 (ix1 (0 : Fin 1)) ?_).trans ?_
  · rw [Shape.rowMajor_val_one]
    exact (Shape.rowMajorPi_zero _ _).symm
  refine (extractStridedSlice_apply ![k] _ h (ix1 (0 : Fin 1)) (ix1 (⟨k, hk⟩ : Fin 8)) ?_).trans ?_
  · intro a
    match a with
    | ⟨0, _⟩ => show k = k + 0; omega
  refine (shapeCast_apply _ shapeCasts_S8x1_S8 (ix1 (⟨k, hk⟩ : Fin 8)) (ix2 (⟨k, hk⟩ : Fin 8) (0 : Fin 1)) ?_).trans ?_
  · rw [Shape.rowMajor_val_two, Shape.rowMajor_val_one]
    show k * 1 + 0 = k
    omega
  exact extractStridedSlice_apply ![0, 0] acc slices_S8x128_S8x1_0_0 (ix2 (⟨k, hk⟩ : Fin 8) (0 : Fin 1))
    (ix2 (⟨k, hk⟩ : Fin 8) (0 : Fin 128)) (fun a => match a with
      | ⟨0, _⟩ => by show k = 0 + k; omega
      | ⟨1, _⟩ => by show 0 = 0 + 0; rfl)

/-- The eight picked lanes, by the accumulator's row. -/
private def picks (acc : FVec Ideal S8x128 .f32) : Fin 8 → FVec Ideal S_ .f32
  | 0 => pick acc 0 slices_S8_S1_0
  | 1 => pick acc 1 slices_S8_S1_1
  | 2 => pick acc 2 slices_S8_S1_2
  | 3 => pick acc 3 slices_S8_S1_3
  | 4 => pick acc 4 slices_S8_S1_4
  | 5 => pick acc 5 slices_S8_S1_5
  | 6 => pick acc 6 slices_S8_S1_6
  | 7 => pick acc 7 slices_S8_S1_7

private theorem picks_apply (acc : FVec Ideal S8x128 .f32) : ∀ r : Fin 8, picks acc r ix0 = acc (ix2 r (0 : Fin 128))
  | 0 => pick_apply acc 0 (by omega) slices_S8_S1_0
  | 1 => pick_apply acc 1 (by omega) slices_S8_S1_1
  | 2 => pick_apply acc 2 (by omega) slices_S8_S1_2
  | 3 => pick_apply acc 3 (by omega) slices_S8_S1_3
  | 4 => pick_apply acc 4 (by omega) slices_S8_S1_4
  | 5 => pick_apply acc 5 (by omega) slices_S8_S1_5
  | 6 => pick_apply acc 6 (by omega) slices_S8_S1_6
  | 7 => pick_apply acc 7 (by omega) slices_S8_S1_7

/-- What the host operations behind the region compute from the two per-example distance vectors and the accumulator:
    the two sums, each with its two picked pair sums added, over the batch size with its two picked pair counts added;
    their difference plus the margin, cut at zero. -/
private def tailOf (dap dan : FVec Ideal S4096 .f32) (acc : FVec Ideal S8x128 .f32) : FVec Ideal S_ .f32 :=
  maximumf
    (addf
      (subf
        (Host.divf
          (addf (addf (Host.reduceAdd (F := Ideal) dap (constant (F := Ideal) S_ .f32 0x00000000#32) reducesTo_S4096_S_d0 h_S_)
            (picks acc 0)) (picks acc 4))
          (addf (addf (constant (F := Ideal) S_ .f32 0x45800000#32) (picks acc 1)) (picks acc 5)))
        (Host.divf
          (addf (addf (Host.reduceAdd (F := Ideal) dan (constant (F := Ideal) S_ .f32 0x00000000#32) reducesTo_S4096_S_d0 h_S_)
            (picks acc 2)) (picks acc 6))
          (addf (addf (constant (F := Ideal) S_ .f32 0x45800000#32) (picks acc 3)) (picks acc 7))))
      (constant (F := Ideal) S_ .f32 0x40A00000#32))
    (constant (F := Ideal) S_ .f32 0x00000000#32)

/-- Read at its one index it is the loss of the two sums, the batch size's word and lane 0 of the eight rows. -/
private theorem tailOf_apply (dap dan : FVec Ideal S4096 .f32) (acc : FVec Ideal S8x128 .f32) :
    tailOf dap dan acc ix0
      = loss (Host.reduceAdd (F := Ideal) dap (constant (F := Ideal) S_ .f32 0x00000000#32) reducesTo_S4096_S_d0 h_S_ ix0)
          (Host.reduceAdd (F := Ideal) dan (constant (F := Ideal) S_ .f32 0x00000000#32) reducesTo_S4096_S_d0 h_S_ ix0)
          (Ideal.ofBits .f32 0x45800000#32) (fun r => acc (ix2 r (0 : Fin 128))) := by
  have h : tailOf dap dan acc ix0
      = loss (Host.reduceAdd (F := Ideal) dap (constant (F := Ideal) S_ .f32 0x00000000#32) reducesTo_S4096_S_d0 h_S_ ix0)
          (Host.reduceAdd (F := Ideal) dan (constant (F := Ideal) S_ .f32 0x00000000#32) reducesTo_S4096_S_d0 h_S_ ix0)
          (Ideal.ofBits .f32 0x45800000#32) (fun r => picks acc r ix0) := rfl
  exact h.trans (congrArg (loss _ _ _) (funext fun r => picks_apply acc r))

/-- The two host stretches behind the region, run from any contents, leave that term of the contents of the two distance
    vectors and of the accumulator in @main's result. -/
private theorem tail_after (X : Valuation τ sig (Elt Ideal)) :
    (StableHlo.after hostOps1_1 (StableHlo.after hostOps1 X) (Proc.devRef .tc main_v76) : S_.Idx → EReal)
      = tailOf (X (Proc.devRef .tc main_v33)) (X (Proc.devRef .tc main_v37)) (X (Proc.devRef .tc main_v43)) := by
  simp only [hostOps1, hostOps1_1]
  after_results_simp
  rfl

/-- The per-example anchor–positive distances are the reference's. -/
private theorem v33_eq (c : Dev nD) :
    (W1 m c (Proc.devRef .tc main_v33) : S4096.Idx → EReal) = val_main_v33 (F := Ideal) (arg0 m c) := by
  show StableHlo.after hostOps0 (W0 m c) (Proc.devRef .tc main_v33) = _
  simp only [hostOps0]
  after_results_simp
  simp only [val_main_v33, val_main_v32, val_main_v31, val_main_v30, val_main_v21, val_main_v20, val_main_v19, val_main_v18,
    val_main_v17, val_main_v16, val_main_v15, val_main_v14, val_main_v13, val_main_v12, val_main_v11, val_main_v10,
    val_main_v9, val_main_v8, val_main_v7, val_main_v6, val_main_v3, val_main_v2, val_main_v1, val_main_v0,
    val_main_cst, val_main_cst_0, val_main_cst_1, val_main_cst_2, val_main_cst_5, val_main_cst_6]
  rfl

/-- The per-example anchor–negative distances are the reference's. -/
private theorem v37_eq (c : Dev nD) :
    (W1 m c (Proc.devRef .tc main_v37) : S4096.Idx → EReal) = val_main_v37 (F := Ideal) (arg0 m c) := by
  show StableHlo.after hostOps0 (W0 m c) (Proc.devRef .tc main_v37) = _
  simp only [hostOps0]
  after_results_simp
  simp only [val_main_v37, val_main_v36, val_main_v35, val_main_v34, val_main_v29, val_main_v28, val_main_v27, val_main_v26,
    val_main_v25, val_main_v24, val_main_v23, val_main_v22, val_main_v13, val_main_v12, val_main_v11, val_main_v10,
    val_main_v9, val_main_v8, val_main_v7, val_main_v6, val_main_v5, val_main_v4, val_main_v1, val_main_v0,
    val_main_cst, val_main_cst_0, val_main_cst_3, val_main_cst_4, val_main_cst_7, val_main_cst_8]
  rfl

end Tail

/-- @main's result: the loss of the two per-example sums (the reference's own stages `val_main_v64`, `val_main_v77` of the
    first argument), the batch size as the word `4096.0`, and lane 0 of the accumulator's rows. -/
theorem tail76 (c : Dev nD) :
    W4 m out c main_v76 ix0
      = loss (Cert.ReferenceIdeal.Read.val_main_v64 (F := Ideal) (arg0 m c) ix0) (Cert.ReferenceIdeal.Read.val_main_v77 (F := Ideal) (arg0 m c) ix0)
          (Ideal.ofBits .f32 0x45800000#32) (fun r => out c (ix2 r 0)) := by
  have h33 : W2 m out c (Proc.devRef .tc main_v33) = Cert.ReferenceIdeal.Read.val_main_v33 (F := Ideal) (arg0 m c) :=
    (Function.update_of_ne (StableHlo.devRef_ne_of_ne (by decide)) _ _).trans (v33_eq m c)
  have h37 : W2 m out c (Proc.devRef .tc main_v37) = Cert.ReferenceIdeal.Read.val_main_v37 (F := Ideal) (arg0 m c) :=
    (Function.update_of_ne (StableHlo.devRef_ne_of_ne (by decide)) _ _).trans (v37_eq m c)
  have h43 : W2 m out c (Proc.devRef .tc main_v43) = out c := Function.update_self _ _ _
  refine (congrFun (tail_after (W2 m out c)) ix0).trans ?_
  rw [h33, h37, h43]
  exact tailOf_apply _ _ _

end Cert.KernelIdeal.Hand

end
-- ==== Proof.Val.KernelValue.lean ====
/-
  The kernel program's result at the ideal instance, in the specification's terms: the loss of the two per-example sums,
  the batch size as the word 4096.0, and the eight pair quantities — lane 0 of the result array's rows, each the sum over
  the 64 grid points of the point's contribution, which is the batch's quantity.
-/
import proofs.«126969_j66666482368607_1_alg».proof.Proof.KI.Out
import proofs.«126969_j66666482368607_1_alg».proof.Proof.KI.Final
import proofs.«126969_j66666482368607_1_alg».proof.Proof.Val.Fold
import proofs.«126969_j66666482368607_1_alg».proof.Proof.Val.Reidx
import proofs.«126969_j66666482368607_1_alg».proof.Proof.Val.KHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.PairSpec Idealize.ShloMosaic.ValueIdx
open scoped BigOperators
variable {F : FTy → Type} [FloatOps F]

local notation "𝕄" => MT nD τ sig Unit (Elt F) ℕ (UR sig nD τ) ℕ

variable (m : (ℓ : Loc nD τ sig) → Buf (Elt Ideal) ℓ)

theorem kernel_result (c : Dev nD) :
    W4 m (outF m) c main_v76 ix0
      = loss (Cert.ReferenceIdeal.Read.val_main_v64 (F := Ideal) (arg0 m c) ix0) (Cert.ReferenceIdeal.Read.val_main_v77 (F := Ideal) (arg0 m c) ix0)
          (Ideal.ofBits .f32 0x45800000#32)
          (accRow (Cert.ReferenceIdeal.Read.val_main_v13 (F := Ideal) (arg0 m c)) (Cert.ReferenceIdeal.Read.val_main_v29 (F := Ideal) (arg0 m c)) (arg1 m c) (arg2 m c)) := by
  -- the host operations behind the region form the loss from lane 0 of the result array's rows …
  refine (tail76 m (outF m) c).trans (congrArg (loss _ _ _) (funext fun r => ?_))
  -- … the result array is the accumulator after the last grid point …
  refine (congrFun (arrAt_out (V1 m) c) (ix2 r 0)).trans ?_
  -- … whose row `r` is the sum of the 64 points' contributions, which is the batch's quantity.
  exact (accAt_last (V1 m) c r 0).trans
    (sum_tileAt (V1 m) c _ _ _ _ (pre38 m c) (pre39 m c) (pre40 m c) (pre41 m c) (pre42 m c) r)

end Cert.KernelIdeal.Hand

end
-- ==== Proof.Val.RefSum.lean ====
/-
  The reference's four masked sums. Each is the host's sum over all 4096×4096 pairs of `where(mask, distance, 0)`:
  the mask is `triu(k=1)` (pair above the diagonal) and-ed with the labels' (dis)agreement, the distance one minus the
  `dot_general` of the normalised rows. Read index by index they are the specification's `msum` per class.
-/
import proofs.«126969_j66666482368607_1_alg».proof.Proof.Val.Spec
import proofs.«126969_j66666482368607_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.RefSide

open Idealize.ShloMosaic Idealize.ShloMosaic.ValueIdx Cert.PairSpec
open Cert.ReferenceIdeal Cert.ReferenceIdeal.Read

variable (x0 : FVec Ideal S4096x3x1024 .f32) (x1 x2 : IVec S4096 32)

/-- The normalised anchors and negatives: the reference's own stages. -/
abbrev na := val_main_v13 (F := Ideal) x0
abbrev nn := val_main_v29 (F := Ideal) x0

/-! ## One-bit words -/

/-- The conjunction of two bits is set exactly when both are. -/
private theorem and_bit (a b : BitVec 1) : IntOp.andi a b = 1#1 ↔ a = 1#1 ∧ b = 1#1 := by
  rcases BitVec.eq_zero_or_eq_one a with ha | ha <;> rcases BitVec.eq_zero_or_eq_one b with hb | hb <;>
    subst ha <;> subst hb <;> decide

/-- The complement of a bit is set exactly when the bit is not. -/
private theorem not_bit (a : BitVec 1) : ~~~a = 1#1 ↔ ¬ a = 1#1 := by
  rcases BitVec.eq_zero_or_eq_one a with ha | ha <;> subst ha <;> decide

/-! ## The two distance matrices at a pair -/

/-- Entry (i, j) of one minus the anchors' Gram matrix is the cosine distance of anchor i to anchor j. -/
theorem d_aa_at (i j : Fin 4096) :
    val_main_v41 (F := Ideal) x0 (ix2 i j) = dist (na x0) (na x0) i j := by
  rw [val_main_v41_apply, val_main_v40_apply, val_main_cst_9_apply, val_main_v39_apply, Ideal.subf_def, Ideal.ofBits_def]
  unfold PairSpec.dist
  refine congrArg (fun s => one - s) (Finset.sum_congr rfl fun k _ => ?_)
  rw [val_main_v38_apply]
  have el : lidx_main_v39 (ix2 i j) k = ix2 i k := funext fun a => Fin.ext (by
    match a with
    | ⟨0, _⟩ => rfl
    | ⟨1, _⟩ => rfl)
  have er : idx_main_v38 (ridx_main_v39 (ix2 i j) k) = ix2 j k := funext fun a => Fin.ext (by
    match a with
    | ⟨0, _⟩ => rfl
    | ⟨1, _⟩ => rfl)
  rw [el, er]

/-- Entry (i, j) of one minus the anchors-by-negatives product is the cosine distance of anchor i to negative j. -/
theorem d_ag_at (i j : Fin 4096) :
    val_main_v45 (F := Ideal) x0 (ix2 i j) = dist (na x0) (nn x0) i j := by
  rw [val_main_v45_apply, val_main_v44_apply, val_main_cst_10_apply, val_main_v43_apply, Ideal.subf_def, Ideal.ofBits_def]
  unfold PairSpec.dist
  refine congrArg (fun s => one - s) (Finset.sum_congr rfl fun k _ => ?_)
  rw [val_main_v42_apply]
  have el : lidx_main_v43 (ix2 i j) k = ix2 i k := funext fun a => Fin.ext (by
    match a with
    | ⟨0, _⟩ => rfl
    | ⟨1, _⟩ => rfl)
  have er : idx_main_v42 (ridx_main_v43 (ix2 i j) k) = ix2 j k := funext fun a => Fin.ext (by
    match a with
    | ⟨0, _⟩ => rfl
    | ⟨1, _⟩ => rfl)
  rw [el, er]

/-! ## The masks at a pair -/

/-- A row or column number below 4096, as a 32-bit word, reads back as itself. -/
private theorem toNat_word (i : Fin 4096) : (BitVec.ofNat 32 i.val).toNat = i.val := by
  rw [BitVec.toNat_ofNat]
  have := i.isLt
  omega

/-- The strict upper triangle: the printed mask selects "false" where row ≥ column (a signed comparison of the two
    counters, both below 4096) and "true" elsewhere, so its bit is set exactly when i < j. -/
theorem triu_at (i j : Fin 4096) : val_main_v47 (F := Ideal) (ix2 i j) = 1#1 ↔ upper i j := by
  rw [val_main_v47_apply, val_main_call0_v4_apply, val_main_call0_v2_apply, val_main_call0_v0_apply,
    val_main_call0_v1_apply, val_main_call0_c_apply, val_main_call0_v3_apply, val_main_call0_v5_apply,
    val_main_call0_c_0_apply, val_main_v46_apply, val_main_c_apply]
  show Scalar.select (IntOp.cmpi .sge (IntOp.addi (BitVec.ofNat 32 i.val) 0#32) (BitVec.ofNat 32 j.val)) 0#1 1#1 = 1#1
    ↔ i.val < j.val
  have hadd : IntOp.addi (BitVec.ofNat 32 i.val) 0#32 = BitVec.ofNat 32 i.val := by
    unfold IntOp.addi
    exact BitVec.add_zero _
  rw [hadd]
  have hge := StableHlo.Predicate.sge_iff_toNat (a := BitVec.ofNat 32 i.val) (b := BitVec.ofNat 32 j.val)
    (by rw [toNat_word]; have := i.isLt; omega) (by rw [toNat_word]; have := j.isLt; omega)
  rw [toNat_word, toNat_word] at hge
  by_cases h : IntOp.cmpi .sge (BitVec.ofNat 32 i.val) (BitVec.ofNat 32 j.val) = 1#1
  · rw [h, select_one]
    have := hge.mp h
    constructor
    · intro h'
      exact absurd h' (by decide)
    · intro h'
      omega
  · rw [eq_zero_of_ne_one h, select_zero]
    have := mt hge.mpr h
    constructor
    · intro _
      omega
    · intro _
      rfl

/-- The labels' agreement matrix among the anchors: the bit at (i, j) is set exactly when anchor i's label is anchor j's. -/
theorem same_aa_at (i j : Fin 4096) : val_main_v52 (F := Ideal) x1 (ix2 i j) = 1#1 ↔ same x1 x1 i j := by
  rw [val_main_v52_apply, StableHlo.Predicate.cmpi_eq_iff, val_main_v50_apply, val_main_v48_apply, val_main_v51_apply,
    val_main_v49_apply]
  have e0 : idx_main_v48 (idx_main_v50 (ix2 i j)) = ix1 i := funext fun a => Fin.ext (by
    match a with
    | ⟨0, _⟩ => rfl)
  have e1 : idx_main_v49 (idx_main_v51 (ix2 i j)) = ix1 j := funext fun a => Fin.ext (by
    match a with
    | ⟨0, _⟩ => rfl)
  rw [e0, e1]
  exact Iff.rfl

/-- The agreement matrix of the anchors' labels against the negatives' labels. -/
theorem same_ag_at (i j : Fin 4096) : val_main_v57 (F := Ideal) x1 x2 (ix2 i j) = 1#1 ↔ same x1 x2 i j := by
  rw [val_main_v57_apply, StableHlo.Predicate.cmpi_eq_iff, val_main_v55_apply, val_main_v53_apply, val_main_v56_apply,
    val_main_v54_apply]
  have e0 : idx_main_v53 (idx_main_v55 (ix2 i j)) = ix1 i := funext fun a => Fin.ext (by
    match a with
    | ⟨0, _⟩ => rfl)
  have e1 : idx_main_v54 (idx_main_v56 (ix2 i j)) = ix1 j := funext fun a => Fin.ext (by
    match a with
    | ⟨0, _⟩ => rfl)
  rw [e0, e1]
  exact Iff.rfl

/-- The four and-ed masks are the four classes of pairs. -/
theorem mask0_at (i j : Fin 4096) : val_main_v58 (F := Ideal) x1 (ix2 i j) = 1#1 ↔ cls x1 x2 0 i j := by
  rw [val_main_v58_apply, and_bit]
  exact and_congr (triu_at i j) (same_aa_at x1 i j)

theorem mask1_at (i j : Fin 4096) : val_main_v60 (F := Ideal) x1 (ix2 i j) = 1#1 ↔ cls x1 x2 1 i j := by
  rw [val_main_v60_apply, and_bit, val_main_v59_apply, not_bit]
  exact and_congr (triu_at i j) (not_congr (same_aa_at x1 i j))

theorem mask2_at (i j : Fin 4096) : val_main_v61 (F := Ideal) x1 x2 (ix2 i j) = 1#1 ↔ cls x1 x2 2 i j := by
  rw [val_main_v61_apply, and_bit]
  exact and_congr (triu_at i j) (same_ag_at x1 x2 i j)

theorem mask3_at (i j : Fin 4096) : val_main_v63 (F := Ideal) x1 x2 (ix2 i j) = 1#1 ↔ cls x1 x2 3 i j := by
  rw [val_main_v63_apply, and_bit, val_main_v62_apply, not_bit]
  exact and_congr (triu_at i j) (not_congr (same_ag_at x1 x2 i j))

/-! ## A masked sum over all pairs, read pair by pair -/

/-- The sum over the whole square of "the distance where the mask's bit is set, else the fill", started from a zero
    initial value, is the double sum over rows and columns of the distance on the pairs the mask decodes to and the
    zero word elsewhere. -/
theorem masked_sum (m : IVec S4096x4096 1) (d e : S4096x4096.Idx → EReal) (init : EReal)
    (P : Fin 4096 → Fin 4096 → Prop) [∀ i j, Decidable (P i j)] (D : Fin 4096 → Fin 4096 → EReal)
    (hinit : init = 0)
    (hm : ∀ i j, m (ix2 i j) = 1#1 ↔ P i j) (hd : ∀ i j, d (ix2 i j) = D i j) (he : ∀ i j, e (ix2 i j) = zero) :
    init + ∑ q : S4096x4096.Idx, select m d e q = ∑ i : Fin 4096, ∑ j : Fin 4096, if P i j then D i j else zero := by
  rw [hinit, zero_add, sum_idx2]
  refine Finset.sum_congr rfl fun i _ => Finset.sum_congr rfl fun j _ => ?_
  rw [select_apply, hd, he]
  by_cases h : P i j
  · rw [if_pos h, (hm i j).mpr h, select_one]
  · rw [if_neg h, eq_zero_of_ne_one (mt (hm i j).mp h), select_zero]

/-- The four fills are the zero word everywhere. -/
theorem fill1_at (i j : Fin 4096) : val_main_call1_v0 (F := Ideal) (ix2 i j) = zero := by
  rw [val_main_call1_v0_apply, val_main_cst_12_apply, Ideal.ofBits_def]
theorem fill2_at (i j : Fin 4096) : val_main_call2_v0 (F := Ideal) (ix2 i j) = zero := by
  rw [val_main_call2_v0_apply, val_main_cst_14_apply, Ideal.ofBits_def]
theorem fill3_at (i j : Fin 4096) : val_main_call3_v0 (F := Ideal) (ix2 i j) = zero := by
  rw [val_main_call3_v0_apply, val_main_cst_20_apply, Ideal.ofBits_def]
theorem fill4_at (i j : Fin 4096) : val_main_call4_v0 (F := Ideal) (ix2 i j) = zero := by
  rw [val_main_call4_v0_apply, val_main_cst_22_apply, Ideal.ofBits_def]

/-! ## The four sums -/

theorem ref_sum0 : val_main_v66 (F := Ideal) x0 x1 ix0 = msum (na x0) (nn x0) x1 x2 0 := by
  rw [val_main_v66_apply, val_main_cst_13_apply, Ideal.ofBits_def]
  exact masked_sum (val_main_v58 (F := Ideal) x1) (val_main_v41 (F := Ideal) x0) (val_main_call1_v0 (F := Ideal)) _
    (cls x1 x2 0) (distOf (na x0) (nn x0) 0) Ideal.ofBits_zero_f32 (mask0_at x1 x2) (d_aa_at x0) fill1_at
theorem ref_sum2 : val_main_v69 (F := Ideal) x0 x1 x2 ix0 = msum (na x0) (nn x0) x1 x2 2 := by
  rw [val_main_v69_apply, val_main_cst_15_apply, Ideal.ofBits_def]
  exact masked_sum (val_main_v61 (F := Ideal) x1 x2) (val_main_v45 (F := Ideal) x0) (val_main_call2_v0 (F := Ideal)) _
    (cls x1 x2 2) (distOf (na x0) (nn x0) 2) Ideal.ofBits_zero_f32 (mask2_at x1 x2) (d_ag_at x0) fill2_at
theorem ref_sum1 : val_main_v79 (F := Ideal) x0 x1 ix0 = msum (na x0) (nn x0) x1 x2 1 := by
  rw [val_main_v79_apply, val_main_cst_21_apply, Ideal.ofBits_def]
  exact masked_sum (val_main_v60 (F := Ideal) x1) (val_main_v41 (F := Ideal) x0) (val_main_call3_v0 (F := Ideal)) _
    (cls x1 x2 1) (distOf (na x0) (nn x0) 1) Ideal.ofBits_zero_f32 (mask1_at x1 x2) (d_aa_at x0) fill3_at
theorem ref_sum3 : val_main_v82 (F := Ideal) x0 x1 x2 ix0 = msum (na x0) (nn x0) x1 x2 3 := by
  rw [val_main_v82_apply, val_main_cst_23_apply, Ideal.ofBits_def]
  exact masked_sum (val_main_v63 (F := Ideal) x1 x2) (val_main_v45 (F := Ideal) x0) (val_main_call4_v0 (F := Ideal)) _
    (cls x1 x2 3) (distOf (na x0) (nn x0) 3) Ideal.ofBits_zero_f32 (mask3_at x1 x2) (d_ag_at x0) fill4_at

end Cert.RefSide

end
-- ==== Proof.Val.RefCnt.lean ====
/-
  The reference's two pair counts. Each is an `int32` sum — the batch size 4096 plus, over all 4096×4096 pairs, the two
  masks of its kind widened to 0 / 1 — converted to a float at the end. No partial sum exceeds 2²⁴ (each mask holds only
  pairs above the diagonal: at most 4096·4095/2 of them), so the 32-bit sums never wrap and the conversion is the integer:
  the real `4096 + count + count`.
-/
import proofs.«126969_j66666482368607_1_alg».proof.Proof.Val.Spec
import proofs.«126969_j66666482368607_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.IndicatorCount
import Idealize.ShloMosaic.Lib.Affine
import Idealize.ShloMosaic.Lib.StableHlo.Predicate
import Idealize.ShloMosaic.PureOps.Ideal.Laws

set_option maxRecDepth 16384

noncomputable section

open scoped BigOperators

namespace Cert.RefSide

open Idealize.ShloMosaic Idealize.ShloMosaic.ValueIdx Cert.PairSpec
open Cert.ReferenceIdeal Cert.ReferenceIdeal.Read

variable (x0 : FVec Ideal S4096x3x1024 .f32) (x1 x2 : IVec S4096 32)

/-! ## A sum of widened bits is a count -/

/-- The number of set bits of a 4096 × 4096 mask. -/
private def ones (m : IVec S4096x4096 1) : ℕ := (Finset.univ.filter fun i : S4096x4096.Idx => m i = 1#1).card

/-- The 32-bit sum, from zero, of a mask's bits widened to 32 bits, over every pair: the number of set bits, as a word. -/
private theorem reduce_count (m : IVec S4096x4096 1) (hw : 1 < 32) (h : S4096x4096.ReducesTo [0, 1] S_) (hu : 0 < S_.numel)
    (j : S_.Idx) :
    Host.reduce IntOp.addi (extui 32 m hw) (constantI S_ 32 0#32) h hu j = BitVec.ofNat 32 (ones m) := by
  rw [Host.reduce_eq_fold]
  have hall : (Finset.univ.filter fun i : S4096x4096.Idx => h.drop i = j) = Finset.univ :=
    Finset.filter_true_of_mem fun i _ => (eq_ix0 _).trans (eq_ix0 _).symm
  rw [hall]
  exact IndicatorCount.fold_addi_setWidth_eq_card m Finset.univ

/-- There are 4096 · 4096 pairs, so no mask has more set bits. -/
private theorem ones_le (m : IVec S4096x4096 1) : ones m ≤ 4096 * 4096 := by
  have hc : Fintype.card S4096x4096.Idx = 4096 * 4096 := by
    rw [Fintype.card_congr (idxEquiv2 (n0 := 4096) (n1 := 4096)), Fintype.card_prod, Fintype.card_fin]
  exact (Finset.card_le_univ _).trans hc.le

/-- The count as a double sum of 0 / 1 over the two coordinates. -/
private theorem ones_eq_sum (m : IVec S4096x4096 1) :
    ones m = ∑ a : Fin 4096, ∑ b : Fin 4096, if m (ix2 a b) = 1#1 then 1 else 0 := by
  unfold ones
  rw [Finset.card_filter]
  exact sum_idx2 (fun i => if m i = 1#1 then 1 else 0)

/-- The embedding of the naturals into the extended reals (through the reals) carries finite sums to sums. -/
private theorem coe_nat_sum {ι : Type} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- A mask whose bit at `(i, j)` says `P i j` has, as an extended real, `∑ i, ∑ j, if P i j then 1 else 0` set bits. -/
private theorem ones_cast (m : IVec S4096x4096 1) (P : Fin 4096 → Fin 4096 → Prop) [∀ i j, Decidable (P i j)]
    (hP : ∀ i j, m (ix2 i j) = 1#1 ↔ P i j) :
    (((ones m : ℕ) : ℝ) : EReal) = ∑ i : Fin 4096, ∑ j : Fin 4096, if P i j then (1 : EReal) else 0 := by
  rw [ones_eq_sum, coe_nat_sum]
  refine Finset.sum_congr rfl fun i _ => ?_
  rw [coe_nat_sum]
  refine Finset.sum_congr rfl fun j _ => ?_
  by_cases h : P i j
  · rw [if_pos h, if_pos ((hP i j).2 h)]; simp
  · rw [if_neg h, if_neg (fun e => h ((hP i j).1 e))]; simp

/-! ## What the masks say at a pair -/

/-- A position below 4096 as a 32-bit word: its value is the position. -/
private theorem toNat_pos (p : Fin 4096) : (BitVec.ofNat 32 p.val).toNat = p.val := by
  rw [BitVec.toNat_ofNat]; exact Nat.mod_eq_of_lt (by have := p.isLt; omega)

/-- The strict upper triangle: the mask is set at `(p, q)` exactly when `p < q` (the row position is not at least the
    column position, compared as signed words; both are small and non-negative). -/
private theorem triu_iff (p q : Fin 4096) : val_main_v47 (F := Ideal) (ix2 p q) = 1#1 ↔ p.val < q.val := by
  have e : val_main_call0_v4 (F := Ideal) (ix2 p q)
      = IntOp.cmpi .sge (BitVec.ofNat 32 p.val + 0#32) (BitVec.ofNat 32 q.val) := by
    rw [val_main_call0_v4_apply, val_main_call0_v2_apply, val_main_call0_v0_apply, val_main_call0_v1_apply,
      val_main_call0_c_apply, val_main_call0_v3_apply]; rfl
  have hp : (BitVec.ofNat 32 p.val).toNat < 2 ^ 31 := by rw [toNat_pos]; have := p.isLt; omega
  have hq : (BitVec.ofNat 32 q.val).toNat < 2 ^ 31 := by rw [toNat_pos]; have := q.isLt; omega
  have h4 : val_main_call0_v4 (F := Ideal) (ix2 p q) = 1#1 ↔ q.val ≤ p.val := by
    rw [e, BitVec.add_zero, StableHlo.Predicate.sge_iff_toNat hp hq, toNat_pos, toNat_pos]
  rw [val_main_v47_apply, val_main_call0_v5_apply, val_main_call0_c_0_apply, val_main_v46_apply, val_main_c_apply]
  by_cases hc : val_main_call0_v4 (F := Ideal) (ix2 p q) = 1#1
  · rw [hc, select_one]
    have := h4.1 hc
    exact ⟨fun h => absurd h (by decide), fun h => by omega⟩
  · rw [eq_zero_of_ne_one hc, select_zero]
    have := mt h4.2 hc
    exact ⟨fun _ => by omega, fun _ => rfl⟩

/-- The anchors' labels agree at `(p, q)`. -/
private theorem lab_iff (p q : Fin 4096) : val_main_v52 (F := Ideal) x1 (ix2 p q) = 1#1 ↔ x1 (ix1 p) = x1 (ix1 q) := by
  have e0 : idx_main_v48 (idx_main_v50 (ix2 p q)) = ix1 p := funext fun a => match a with | ⟨0, _⟩ => rfl
  have e1 : idx_main_v49 (idx_main_v51 (ix2 p q)) = ix1 q := funext fun a => match a with | ⟨0, _⟩ => rfl
  rw [val_main_v52_apply, val_main_v50_apply, val_main_v48_apply, val_main_v51_apply, val_main_v49_apply, e0, e1]
  exact IntOp.cmpi_eq

/-- Anchor `p`'s label is negative `q`'s label. -/
private theorem neg_iff (p q : Fin 4096) : val_main_v57 (F := Ideal) x1 x2 (ix2 p q) = 1#1 ↔ x1 (ix1 p) = x2 (ix1 q) := by
  have e0 : idx_main_v53 (idx_main_v55 (ix2 p q)) = ix1 p := funext fun a => match a with | ⟨0, _⟩ => rfl
  have e1 : idx_main_v54 (idx_main_v56 (ix2 p q)) = ix1 q := funext fun a => match a with | ⟨0, _⟩ => rfl
  rw [val_main_v57_apply, val_main_v55_apply, val_main_v53_apply, val_main_v56_apply, val_main_v54_apply, e0, e1]
  exact IntOp.cmpi_eq

/-- The four masks are the four classes of pairs. -/
private theorem m0_iff (i j : Fin 4096) : val_main_v58 (F := Ideal) x1 (ix2 i j) = 1#1 ↔ cls x1 x2 0 i j := by
  rw [val_main_v58_apply, IntOp.andi_eq_one, triu_iff, lab_iff]; rfl
private theorem m1_iff (i j : Fin 4096) : val_main_v60 (F := Ideal) x1 (ix2 i j) = 1#1 ↔ cls x1 x2 1 i j := by
  rw [val_main_v60_apply, IntOp.andi_eq_one, triu_iff, val_main_v59_apply, IntOp.not_eq_one, lab_iff]; rfl
private theorem m2_iff (i j : Fin 4096) : val_main_v61 (F := Ideal) x1 x2 (ix2 i j) = 1#1 ↔ cls x1 x2 2 i j := by
  rw [val_main_v61_apply, IntOp.andi_eq_one, triu_iff, neg_iff]; rfl
private theorem m3_iff (i j : Fin 4096) : val_main_v63 (F := Ideal) x1 x2 (ix2 i j) = 1#1 ↔ cls x1 x2 3 i j := by
  rw [val_main_v63_apply, IntOp.andi_eq_one, triu_iff, val_main_v62_apply, IntOp.not_eq_one, neg_iff]; rfl

/-! ## The sums do not wrap -/

/-- The batch size plus two counts of at most 2²⁴ each stays below 2³¹: the 32-bit sum read as a signed integer is the
    natural number `4096 + a + b`. -/
private theorem toInt_total (a b : ℕ) (ha : a ≤ 4096 * 4096) (hb : b ≤ 4096 * 4096) :
    (((IntOp.addi (IntOp.addi 4096#32 (BitVec.ofNat 32 a)) (BitVec.ofNat 32 b)).toInt : ℝ) : EReal)
      = ((4096 : ℝ) : EReal) + (((a : ℕ) : ℝ) : EReal) + (((b : ℕ) : ℝ) : EReal) := by
  have e : IntOp.addi (IntOp.addi 4096#32 (BitVec.ofNat 32 a)) (BitVec.ofNat 32 b) = BitVec.ofNat 32 (4096 + a + b) := by
    show 4096#32 + BitVec.ofNat 32 a + BitVec.ofNat 32 b = _
    rw [BitVec.ofNat_add, BitVec.ofNat_add]
  rw [e, StableHlo.Predicate.toInt_ofNat_small _ (by omega), Int.cast_natCast, Nat.cast_add, Nat.cast_add, EReal.coe_add,
    EReal.coe_add, Nat.cast_ofNat]

theorem ref_cnt_pos : val_main_v90 (F := Ideal) x1 x2 ix0 = ((4096 : ℝ) : EReal) + mcnt x1 x2 0 + mcnt x1 x2 2 := by
  have h72 : val_main_v72 (F := Ideal) x1 ix0 = BitVec.ofNat 32 (ones (val_main_v58 (F := Ideal) x1)) :=
    reduce_count _ _ _ _ _
  have h75 : val_main_v75 (F := Ideal) x1 x2 ix0 = BitVec.ofNat 32 (ones (val_main_v61 (F := Ideal) x1 x2)) :=
    reduce_count _ _ _ _ _
  rw [val_main_v90_apply, val_main_v76_apply, val_main_v73_apply, val_main_c_17_apply, h72, h75]
  refine (toInt_total _ _ (ones_le _) (ones_le _)).trans ?_
  rw [ones_cast _ _ (m0_iff x1 x2), ones_cast _ _ (m2_iff x1 x2)]
  rfl
theorem ref_cnt_neg : val_main_v92 (F := Ideal) x1 x2 ix0 = ((4096 : ℝ) : EReal) + mcnt x1 x2 1 + mcnt x1 x2 3 := by
  have h85 : val_main_v85 (F := Ideal) x1 ix0 = BitVec.ofNat 32 (ones (val_main_v60 (F := Ideal) x1)) :=
    reduce_count _ _ _ _ _
  have h88 : val_main_v88 (F := Ideal) x1 x2 ix0 = BitVec.ofNat 32 (ones (val_main_v63 (F := Ideal) x1 x2)) :=
    reduce_count _ _ _ _ _
  rw [val_main_v92_apply, val_main_v89_apply, val_main_v86_apply, val_main_c_25_apply, h85, h88]
  refine (toInt_total _ _ (ones_le _) (ones_le _)).trans ?_
  rw [ones_cast _ _ (m1_iff x1 x2), ones_cast _ _ (m3_iff x1 x2)]
  rfl

end Cert.RefSide

end
-- ==== Proof.Val.Ref.lean ====
/-
  The reference's result is the specification's loss: of its two per-example sums, the batch size 4096, and the eight
  pair quantities of its normalised anchors and negatives and the two label vectors.
-/
import proofs.«126969_j66666482368607_1_alg».proof.Proof.Val.RefSum
import proofs.«126969_j66666482368607_1_alg».proof.Proof.Val.RefCnt

set_option maxRecDepth 16384

noncomputable section

open scoped BigOperators

namespace Cert.RefSide

open Idealize.ShloMosaic Idealize.ShloMosaic.ValueIdx Cert.PairSpec
open Cert.ReferenceIdeal Cert.ReferenceIdeal.Read

variable (x0 : FVec Ideal S4096x3x1024 .f32) (x1 x2 : IVec S4096 32)

theorem ref_result :
    val_main_v96 (F := Ideal) x0 x1 x2 ix0
      = loss (val_main_v64 (F := Ideal) x0 ix0) (val_main_v77 (F := Ideal) x0 ix0) ((4096 : ℝ) : EReal)
          (accRow (na x0) (nn x0) x1 x2) := by
  -- the result read down to the four masked sums, the two per-example sums and the two counts
  rw [val_main_v96_apply, val_main_v95_apply, val_main_v94_apply, val_main_v91_apply, val_main_v93_apply,
    val_main_v70_apply, val_main_v67_apply, val_main_v83_apply, val_main_v80_apply,
    val_main_call5_cst_apply, val_main_cst_27_apply,
    ref_sum0 x0 x1 x2, ref_sum2 x0 x1 x2, ref_sum1 x0 x1 x2, ref_sum3 x0 x1 x2, ref_cnt_pos x1 x2, ref_cnt_neg x1 x2]
  -- what is left is the loss with the accumulator's eight rows spelt out
  rfl

end Cert.RefSide

end
-- ==== Proof.Val.Consts.lean ====
/-
  The float word the programs spell for the batch size: the f32 pattern 0x45800000 has sign bit 0, biased exponent 139
  and a zero fraction, so it denotes (2²³ + 0) · 2^(139 − 127 − 23) = 2¹² = 4096.
-/
import Idealize.ShloMosaic.PureOps.Ideal

noncomputable section

namespace Cert.PairSpec

open Idealize.ShloMosaic

/-- The f32 word of 4096.0 denotes the real 4096: read the three fields off the word, then the normal-number formula. -/
theorem ofBits_4096 : Ideal.ofBits .f32 0x45800000#32 = ((4096 : ℝ) : EReal) := by
  show Ideal.ieee 8 23 (0x45800000#32 : BitVec 32) = _
  have hs : ((0x45800000#32 : BitVec 32).extractLsb' (8 + 23) 1 == 1#1) = false := by decide
  have he : ((0x45800000#32 : BitVec 32).extractLsb' 23 8).toNat = 139 := by decide
  have hf : ((0x45800000#32 : BitVec 32).extractLsb' 0 23).toNat = 0 := by decide
  unfold Ideal.ieee
  simp only [hs, he, hf]
  norm_num

end Cert.PairSpec

end
-- ==== Proof.lean ====
/-
  A triplet-loss pair-mining kernel against its whole-array reference, equal over the extended reals.

  Both programs normalise 4096 anchors, positives and negatives (rows of length 1024) by the same host operations and take
  the same per-example distances. The pair part differs in shape only. The kernel walks an 8×8 grid of 512×512 tiles; at
  each tile it forms the two distance tiles 1 − ⟨anchor_i, anchor_j⟩ and 1 − ⟨anchor_i, negative_j⟩ by two matrix products,
  the four masks "pair above the diagonal and labels agree / differ" against the anchors' and the negatives' labels, and
  adds the eight masked sums and counts into the rows of an 8×128 block carried across the grid (reset at the first
  tile, written back once after the last). The reference forms the two 4096×4096 distance arrays and the four masks whole,
  sums them, and counts in 32-bit integers. On the extended reals addition is a commutative monoid, so the sum over the
  tiles of the tiles' sums is the sum over all pairs, whatever the values (no finiteness is used); the integer counts never
  wrap (at most 4096 + 2·4096² < 2³¹), so their conversion is the real count, and the kernel's float word 4096.0 is the
  integer 4096. Both then form max(pos_sum / pos_cnt − neg_sum / neg_cnt + 5, 0) by the same operations.

  The kernel program's frame is proved against the pipeline's launch rule for @main as a list of items (host operations,
  the kernel region, host operations, the closing relu). Two of the region's seven windows read the one array of
  normalised anchors: at the region's entry that array is dealt to them by halves of its share and joined again at the
  exit. The same text, at the word-level instance, is the printed program's frame. The ledger of the ideal pass is empty.
-/
import proofs.«126969_j66666482368607_1_alg».proof.Defs
import proofs.«126969_j66666482368607_1_alg».proof.Proof.Gen.Kernel
import proofs.«126969_j66666482368607_1_alg».proof.Proof.Gen.KernelIdeal
import proofs.«126969_j66666482368607_1_alg».proof.Proof.Gen.ReferenceIdeal
import proofs.«126969_j66666482368607_1_alg».proof.Proof.Gen.Pre_finite_inputs
import proofs.«126969_j66666482368607_1_alg».proof.Proof.Gen.ReferenceIdeal.Run
import proofs.«126969_j66666482368607_1_alg».proof.Proof.Gen.ReferenceIdeal.Read
import proofs.«126969_j66666482368607_1_alg».proof.Proof.K.Launch
import proofs.«126969_j66666482368607_1_alg».proof.Proof.K.Args
import proofs.«126969_j66666482368607_1_alg».proof.Proof.KI.Launch
import proofs.«126969_j66666482368607_1_alg».proof.Proof.KI.Args
import proofs.«126969_j66666482368607_1_alg».proof.Proof.Val.KernelValue
import proofs.«126969_j66666482368607_1_alg».proof.Proof.Val.Ref
import proofs.«126969_j66666482368607_1_alg».proof.Proof.Val.Consts
import Idealize.ShloMosaic.Adequacy
import Idealize.ShloMosaic.Init

noncomputable section

namespace Cert.Proof

open Idealize.ShloMosaic Idealize.ShloMosaic.TcCoe Idealize.SL.Sem

/-! ## The three frames -/

/-- The printed program runs and leaves its arguments as launched: the run to @main's end contents, read at the arguments. -/
theorem frame_k : Cert.frame_Kernel := fun m ρ _ =>
  (θ_run Cert.Kernel.defs _ _).mono (fun r h c =>
      ⟨(h c _ (Cert.Kernel.Hand.mem_uc Cert.Kernel.main_arg0 (by decide))).trans (Cert.Kernel.Hand.W4_arg0 m _ c),
       (h c _ (Cert.Kernel.Hand.mem_uc Cert.Kernel.main_arg1 (by decide))).trans (Cert.Kernel.Hand.W4_arg1 m _ c),
       (h c _ (Cert.Kernel.Hand.mem_uc Cert.Kernel.main_arg2 (by decide))).trans (Cert.Kernel.Hand.W4_arg2 m _ c)⟩)
    (Cert.Kernel.Hand.run_main (F := Bits) m ρ)

/-- The same of the idealized program. -/
theorem frame_ki : Cert.frame_KernelIdeal := fun m ρ _ =>
  (θ_run Cert.KernelIdeal.defs _ _).mono (fun r h c =>
      ⟨(h c _ (Cert.KernelIdeal.Hand.mem_uc Cert.KernelIdeal.main_arg0 (by decide))).trans (Cert.KernelIdeal.Hand.W4_arg0 m _ c),
       (h c _ (Cert.KernelIdeal.Hand.mem_uc Cert.KernelIdeal.main_arg1 (by decide))).trans (Cert.KernelIdeal.Hand.W4_arg1 m _ c),
       (h c _ (Cert.KernelIdeal.Hand.mem_uc Cert.KernelIdeal.main_arg2 (by decide))).trans (Cert.KernelIdeal.Hand.W4_arg2 m _ c)⟩)
    (Cert.KernelIdeal.Hand.run_main (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The two results are one number -/

/-- From memories that agree on the arguments, the reference's result term is what the kernel program's run leaves in its
    result: both are the specification's loss of the same two per-example sums and the same eight pair quantities, the batch
    size once as the integer 4096 converted and once as the float word 4096.0. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v96 m' c
      = Cert.KernelIdeal.Hand.W4 m (Cert.KernelIdeal.Hand.outF m) c Cert.KernelIdeal.main_v76 := by
  funext i
  obtain rfl : i = ValueIdx.ix0 := ValueIdx.eq_ix0 i
  rw [Cert.ReferenceIdeal.Read.val_main_v96_eq, h0, h1, h2, Cert.RefSide.ref_result, Cert.KernelIdeal.Hand.kernel_result,
    Cert.PairSpec.ofBits_4096]

/-! ## The claims -/

theorem preserves : Cert.preserves_Kernel_KernelIdeal := trivial

theorem algebraic : Cert.algebraic_KernelIdeal_ReferenceIdeal := by
  intro m ρ m' ρ' _ hagree
  refine ⟨fun c => Cert.KernelIdeal.Hand.W4 m (Cert.KernelIdeal.Hand.outF m) c Cert.KernelIdeal.main_v76, ?_, ?_⟩
  · exact (θ_run Cert.KernelIdeal.defs _ _).mono (fun r h c =>
      ⟨h c _ (Cert.KernelIdeal.Hand.mem_uc Cert.KernelIdeal.main_v76 (by decide)),
       (h c _ (Cert.KernelIdeal.Hand.mem_uc Cert.KernelIdeal.main_arg0 (by decide))).trans (Cert.KernelIdeal.Hand.W4_arg0 m _ c),
       (h c _ (Cert.KernelIdeal.Hand.mem_uc Cert.KernelIdeal.main_arg1 (by decide))).trans (Cert.KernelIdeal.Hand.W4_arg1 m _ c),
       (h c _ (Cert.KernelIdeal.Hand.mem_uc Cert.KernelIdeal.main_arg2 (by decide))).trans (Cert.KernelIdeal.Hand.W4_arg2 m _ c)⟩)
      (Cert.KernelIdeal.Hand.run_main (F := Ideal) m ρ)
  · exact (θ_run Cert.ReferenceIdeal.defs _ _).mono (fun r h c =>
      ⟨(h c).1.trans (result_eq m m' c (hagree c).1 (hagree c).2.1 (hagree c).2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
